-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192 : Shape := ⟨2, ![4, 8192]⟩
abbrev S4x1024x3 : Shape := ⟨3, ![4, 1024, 3]⟩
abbrev S4x512x3 : Shape := ⟨3, ![4, 512, 3]⟩
abbrev S4x1024 : Shape := ⟨2, ![4, 1024]⟩
abbrev S4x1024x1 : Shape := ⟨3, ![4, 1024, 1]⟩
abbrev S4x512 : Shape := ⟨2, ![4, 512]⟩
abbrev S4x1x512 : Shape := ⟨3, ![4, 1, 512]⟩
abbrev S4x512x1 : Shape := ⟨3, ![4, 512, 1]⟩
abbrev S4x1024x512 : Shape := ⟨3, ![4, 1024, 512]⟩
abbrev S_ : Shape := ⟨0, ![]⟩

abbrev nBuf : Space → Nat
  | .hbm => 13
  | .vmem => 14
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192, .f32⟩
  | .hbm, ⟨3, _⟩ => ⟨S4x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S4x1024x3, .f32⟩
  | .local _ .vmem, ⟨1, _⟩ => ⟨S4x1024x3, .f32⟩
  | .local _ .vmem, ⟨2, _⟩ => ⟨S4x512x3, .f32⟩
  | .local _ .vmem, ⟨3, _⟩ => ⟨S4x512x3, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | .local _ .vmem, ⟨7, _⟩ => ⟨S4x1024x3, .f32⟩
  | .local _ .vmem, ⟨8, _⟩ => ⟨S4x1024x3, .f32⟩
  | .local _ .vmem, ⟨9, _⟩ => ⟨S4x512x3, .f32⟩
  | .local _ .vmem, ⟨10, _⟩ => ⟨S4x512x3, .f32⟩
  | .local _ .vmem, ⟨11, _⟩ => ⟨S4x1024, .f32⟩
  | .local _ .vmem, ⟨12, _⟩ => ⟨S4x1024, .f32⟩
  | .local _ .vmem, ⟨13, _⟩ => ⟨S4x1024, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v54 : BitVec 1 := Scalar.cmpi .eq arg1 c15_i32
  let v55 : BitVec 32 := Scalar.extui v54
  let c0_i32_14 : BitVec 32 := 0#32
  let v56 : BitVec 1 := Scalar.cmpi .ne v55 c0_i32_14
  v56

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v54 : BitVec 1 := Scalar.cmpi .eq arg1 c15_i32
  let v55 : BitVec 32 := Scalar.extui v54
  let c0_i32_14 : BitVec 32 := 0#32
  let v56 : BitVec 1 := Scalar.cmpi .ne v55 c0_i32_14
  v56

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  inb_S4x1024x3_S4x1024x3_0_0_0 : ∀ a, (![0, 0, 0] : Fin 3 → Nat) a + S4x1024x3.size a ≤ S4x1024x3.size a
  h_S4x1024x3 : 0 < S4x1024x3.numel
  inb_S4x512x3_S4x512x3_0_0_0 : ∀ a, (![0, 0, 0] : Fin 3 → Nat) a + S4x512x3.size a ≤ S4x512x3.size a
  h_S4x512x3 : 0 < S4x512x3.numel
  reduces_S4x1024x3_S4x1024 : S4x1024x3.Reduces [2] S4x1024
  shapeCasts_S4x1024_S4x1024x1 : S4x1024.ShapeCasts S4x1024x1
  reduces_S4x512x3_S4x512 : S4x512x3.Reduces [2] S4x512
  shapeCasts_S4x512_S4x1x512 : S4x512.ShapeCasts S4x1x512
  slices_S4x1024x3_o0_0_0_S4x1024x1 : S4x1024x3.Slices ![0, 0, 0] S4x1024x1
  shapeCasts_S4x1024x1_S4x1024 : S4x1024x1.ShapeCasts S4x1024
  slices_S4x512x3_o0_0_0_S4x512x1 : S4x512x3.Slices ![0, 0, 0] S4x512x1
  shapeCasts_S4x512x1_S4x512 : S4x512x1.ShapeCasts S4x512
  broadcasts_S4x1024x1_S4x1024x512 : S4x1024x1.Broadcasts S4x1024x512
  broadcasts_S4x1x512_S4x1024x512 : S4x1x512.Broadcasts S4x1024x512
  slices_S4x1024x3_o0_0_1_S4x1024x1 : S4x1024x3.Slices ![0, 0, 1] S4x1024x1
  slices_S4x512x3_o0_0_1_S4x512x1 : S4x512x3.Slices ![0, 0, 1] S4x512x1
  slices_S4x1024x3_o0_0_2_S4x1024x1 : S4x1024x3.Slices ![0, 0, 2] S4x1024x1
  slices_S4x512x3_o0_0_2_S4x512x1 : S4x512x3.Slices ![0, 0, 2] S4x512x1
  reduces_S4x1024x512_S4x1024 : S4x1024x512.Reduces [2] S4x1024
  reducesTo_S4x8192_S_d0_1 : S4x8192.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x3.size a ≤ S4x8192x3.size a
  hwx0_0 : ∀ i : grid0.Coords, EltTy.bits .f32 = 32 ∨ (Rect.block (s := S4x8192x3) S4x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x3.size a ≤ S4x8192x3.size a
  hwx0_1 : ∀ i : grid0.Coords, EltTy.bits .f32 = 32 ∨ (Rect.block (s := S4x8192x3) S4x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x8192.size a
  hwx0_2 : ∀ i : grid0.Coords, EltTy.bits .f32 = 32 ∨ (Rect.block (s := S4x8192) S4x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x1024x3.size a ≤ S4x8192x3.size a
  hwx1_0 : ∀ i : grid1.Coords, EltTy.bits .f32 = 32 ∨ (Rect.block (s := S4x8192x3) S4x1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x3.size a ≤ S4x8192x3.size a
  hwx1_1 : ∀ i : grid1.Coords, EltTy.bits .f32 = 32 ∨ (Rect.block (s := S4x8192x3) S4x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x1024.size a ≤ S4x8192.size a
  hwx1_2 : ∀ i : grid1.Coords, EltTy.bits .f32 = 32 ∨ (Rect.block (s := S4x8192) S4x1024.size (cc1_transform_2 i) (hinb1_2 i)).WholeWords (EltTy.packing .f32)

variable [Facts₀]

abbrev win0_0 : Pipeline.Window sig grid0 :=
  Pipeline.Window.ofSpec (Memref.whole main_arg0) S4x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S4x1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 34
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.BitsBody0.lean ====
/- The kernel body at one grid point, as three triples.

   The grid is 8 × 16: row `i` of the grid handles 1024 points of the call's primary cloud (its first operand), column `j`
   512 points of its secondary cloud (its second operand). A scratch buffer carries, along a row of the grid, the running
   minimum of the clamped squared distances: at the row's first column it is seeded with +∞ before the tile's minima are
   folded in, at every other column the tile's minima are folded into what the column before left, and at the row's last
   column the scratch is copied to the output block. `foldTile a b prev` is that fold (the minimum of `prev` and the
   tile's row minima, the tile's distances computed from block `a` of the primary cloud and block `b` of the secondary);
   `seedTile a b` is the fold from +∞. -/
import proofs.«130135_j23373212024987_1_alg».proof.Proof.Gen.Kernel.Launch
import proofs.«130135_j23373212024987_1_alg».proof.Proof.Gen.Kernel.Skeleton
import proofs.«130135_j23373212024987_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column-0 test of the body, on the grid coordinates. -/
abbrev firstCol (i : grid0.Coords) : Prop :=
  (Scalar.cmpi .ne (Scalar.extui (Scalar.cmpi .eq (BitVec.ofNat 32 (i 1).val) 0#32)) 0#32) = 1#1
/-- The last-column test of the body. -/
abbrev lastCol (i : grid0.Coords) : Prop := k0_cond2 i = 1#1

/-- The tile's row minima folded into the running minimum `prev`. -/
def foldTile (a : Vec F S4x1024x3 .f32) (b : Vec F S4x512x3 .f32) (prev : Vec F S4x1024 .f32) : Vec F S4x1024 .f32 :=
  k0_pay1 (k0_pay3 a b) prev
/-- The same from +∞: what a row's first column leaves. -/
def seedTile (a : Vec F S4x1024x3 .f32) (b : Vec F S4x512x3 .f32) : Vec F S4x1024 .f32 :=
  k0_pay1 (k0_pay3 a b) (k0_pay2 (F := F))

theorem off_zero2 : (![0, 0] : Fin S4x1024.rank → Nat) = fun _ => 0 := by
  funext a; match a with | ⟨0, _⟩ => rfl | ⟨1, _⟩ => rfl
theorem off_zero3a : (![0, 0, 0] : Fin S4x1024x3.rank → Nat) = fun _ => 0 := by
  funext a; match a with | ⟨0, _⟩ => rfl | ⟨1, _⟩ => rfl | ⟨2, _⟩ => rfl
theorem off_zero3b : (![0, 0, 0] : Fin S4x512x3.rank → Nat) = fun _ => 0 := by
  funext a; match a with | ⟨0, _⟩ => rfl | ⟨1, _⟩ => rfl | ⟨2, _⟩ => rfl

/-- A whole-buffer store, last, covers the buffer. -/
theorem cover_whole (p : Vec F S4x1024 .f32) (L : List (View.Piece (Elt F) S4x1024 .f32)) (y : S4x1024.Idx) :
    ∃ pc ∈ ((⟨Rect.unit (s := S4x1024) ![0, 0] S4x1024.size inb_S4x1024_S4x1024_0_0, p⟩ : View.Piece (Elt F) S4x1024 .f32) :: L), y ∈ pc.1.set :=
  ⟨_, List.mem_cons_self .., View.mem_set_unit_zero (S := S4x1024) off_zero2 inb_S4x1024_S4x1024_0_0 y⟩

set_option maxHeartbeats 2000000 in
/-- A column that is neither first nor last: the running minimum `s` becomes `foldTile a b s`; the output's buffer is
    handed back as found. -/
theorem body_mid (c : Dev nD) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (h1 : ¬ firstCol i) (h2 : ¬ lastCol i)
    (a : Vec F S4x1024x3 .f32) (b : Vec F S4x512x3 .f32) (o s : Vec F S4x1024 .f32) (E : Set ℕ) (K : PUnit → sProp 𝕄) :
    iprop(owns (c : Thread nD τ) arg2 fullShare a ∗ owns (c : Thread nD τ) arg3 fullShare b ∗ owns (c : Thread nD τ) arg4 fullShare o ∗ owns (c : Thread nD τ) arg5 fullShare s
        ∗ (iprop(owns (c : Thread nD τ) arg2 fullShare a ∗ owns (c : Thread nD τ) arg3 fullShare b ∗ owns (c : Thread nD τ) arg4 fullShare o ∗ owns (c : Thread nD τ) arg5 fullShare (foldTile a b s)) -∗ K ⟨⟩))
      ⊢ wp frame (wpE (defs₀ (F := F)) Variants.none c none) E (cc0__min_dist_kernel i arg2 harg2 arg3 harg3 arg4 harg4 arg5 harg5) K := by
  simp only [cc0__min_dist_kernel_eq_skeleton]; unfold cc0__min_dist_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (cover_whole _ _), View.canon_cons_unit_zero (S := S4x1024) off_zero2]
  simp only [View.readAt_eq_ld, View.readCov_unit_zero (S := S4x1024) _ off_zero2, harg2.read_unread, harg3.read_unread, harg5.read_unread, View.ld_unit_zero (S := S4x1024) off_zero2, View.ld_unit_zero (S := S4x1024x3) off_zero3a, View.ld_unit_zero (S := S4x512x3) off_zero3b]
  rfl

set_option maxHeartbeats 2000000 in
/-- A row's first column: whatever the scratch held, it ends at `seedTile a b`; the output's buffer is handed back as
    found. -/
theorem body_first (c : Dev nD) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (h1 : firstCol i) (h2 : ¬ lastCol i)
    (a : Vec F S4x1024x3 .f32) (b : Vec F S4x512x3 .f32) (o : Vec F S4x1024 .f32) (E : Set ℕ) (K : PUnit → sProp 𝕄) :
    iprop(owns (c : Thread nD τ) arg2 fullShare a ∗ owns (c : Thread nD τ) arg3 fullShare b ∗ owns (c : Thread nD τ) arg4 fullShare o ∗ (∃ d, owns (c : Thread nD τ) arg5 fullShare d)
        ∗ (iprop(owns (c : Thread nD τ) arg2 fullShare a ∗ owns (c : Thread nD τ) arg3 fullShare b ∗ owns (c : Thread nD τ) arg4 fullShare o ∗ owns (c : Thread nD τ) arg5 fullShare (seedTile a b)) -∗ K ⟨⟩))
      ⊢ wp frame (wpE (defs₀ (F := F)) Variants.none c none) E (cc0__min_dist_kernel i arg2 harg2 arg3 harg3 arg4 harg4 arg5 harg5) K := by
  simp only [cc0__min_dist_kernel_eq_skeleton]; unfold cc0__min_dist_kernel_skel
  unfold owns
  iintro ⟨⟨%f2, %hf2, H2⟩, ⟨%f3, %hf3, H3⟩, ⟨%f4, %hf4, H4⟩, ⟨%d5, %f5, -, H5⟩, Hk⟩
  obtain rfl := harg2.eq_unread hf2; obtain rfl := harg3.eq_unread hf3; obtain rfl := harg4.eq_unread hf4
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (cover_whole _ _), View.canon_cons_unit_zero (S := S4x1024) off_zero2]
  simp only [View.readAt_eq_ld, View.readCov_unit_zero (S := S4x1024) _ off_zero2, harg2.read_unread, harg3.read_unread, View.ld_unit_zero (S := S4x1024) off_zero2, View.ld_unit_zero (S := S4x1024x3) off_zero3a, View.ld_unit_zero (S := S4x512x3) off_zero3b]
  rfl

set_option maxHeartbeats 2000000 in
/-- A row's last column: the running minimum `s` becomes `foldTile a b s`, and the output's buffer, whatever it held,
    ends holding the same. -/
theorem body_last (c : Dev nD) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (h1 : ¬ firstCol i) (h2 : lastCol i)
    (a : Vec F S4x1024x3 .f32) (b : Vec F S4x512x3 .f32) (s : Vec F S4x1024 .f32) (E : Set ℕ) (K : PUnit → sProp 𝕄) :
    iprop(owns (c : Thread nD τ) arg2 fullShare a ∗ owns (c : Thread nD τ) arg3 fullShare b ∗ (∃ d, owns (c : Thread nD τ) arg4 fullShare d) ∗ owns (c : Thread nD τ) arg5 fullShare s
        ∗ (iprop(owns (c : Thread nD τ) arg2 fullShare a ∗ owns (c : Thread nD τ) arg3 fullShare b ∗ owns (c : Thread nD τ) arg4 fullShare (foldTile a b s) ∗ owns (c : Thread nD τ) arg5 fullShare (foldTile a b s)) -∗ K ⟨⟩))
      ⊢ wp frame (wpE (defs₀ (F := F)) Variants.none c none) E (cc0__min_dist_kernel i arg2 harg2 arg3 harg3 arg4 harg4 arg5 harg5) K := by
  simp only [cc0__min_dist_kernel_eq_skeleton]; unfold cc0__min_dist_kernel_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3; obtain rfl := harg5.eq_unread hf5
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_words
    rw [View.read_writes_eq_canon _ _ _ (cover_whole _ _), View.canon_cons_unit_zero (S := S4x1024) off_zero2]
    simp only [View.readAt_eq_ld, View.readCov_unit_zero (S := S4x1024) _ off_zero2, harg2.read_unread, harg3.read_unread, harg5.read_unread, View.ld_unit_zero (S := S4x1024) off_zero2, View.ld_unit_zero (S := S4x1024x3) off_zero3a, View.ld_unit_zero (S := S4x512x3) off_zero3b]
    rfl
  iexists _; isplitr
  swap; · iexact H5
  ipureintro
  sl_unfold_words
  rw [View.read_writes_eq_canon _ _ _ (cover_whole _ _), View.canon_cons_unit_zero (S := S4x1024) off_zero2]
  simp only [View.readAt_eq_ld, View.readCov_unit_zero (S := S4x1024) _ off_zero2, harg2.read_unread, harg3.read_unread, harg5.read_unread, View.ld_unit_zero (S := S4x1024) off_zero2, View.ld_unit_zero (S := S4x1024x3) off_zero3a, View.ld_unit_zero (S := S4x512x3) off_zero3b]
  rfl

end Cert.Kernel.Region0

end
-- ==== Proof.BitsRest0.lean ====
/- This pallas_call's scoped buffers that no window stages: its own scratch, which carries the running minimum between grid
   points, and the other pallas_call's buffers, which it never touches. -/
import proofs.«130135_j23373212024987_1_alg».proof.Proof.Gen.Kernel.Launch
import proofs.«130135_j23373212024987_1_alg».proof.Proof.Gen.Kernel.Skeleton
import proofs.«130135_j23373212024987_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch the kernel carries between points. -/
abbrev scr : Memref sig .tc .vmem S4x1024 .f32 := Memref.whole cc0_scratch0

/-- The core's other scoped buffers, each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The scoped rest of this pallas_call opens into its scratch and the others, -/
theorem rest_open (c : Dev nD) :
    (Pipeline.scopedRest spec0 c : sProp 𝕄) ⊢ iprop((∃ d, owns (c : Thread nD τ) scr fullShare d) ∗ others (F := F) c) := by
  rw [scopedRest0_eq]; unfold others; simp only [scr, owns_whole]
  iintro ⟨HS, A1, A2, A3, A4, A5, A6, A7⟩
  isplitl [HS]; · iexact HS
  isplitl [A1]; · iexact A1
  isplitl [A2]; · iexact A2
  isplitl [A3]; · iexact A3
  isplitl [A4]; · iexact A4
  isplitl [A5]; · iexact A5
  isplitl [A6]; · iexact A6
  iexact A7

/-- and closes back. -/
theorem rest_close (c : Dev nD) :
    iprop((∃ d, owns (c : Thread nD τ) scr fullShare d) ∗ others (F := F) c) ⊢ (Pipeline.scopedRest spec0 c : sProp 𝕄) := by
  rw [scopedRest0_eq]; unfold others; simp only [scr, owns_whole]
  iintro ⟨HS, A1, A2, A3, A4, A5, A6, A7⟩
  isplitl [HS]; · iexact HS
  isplitl [A1]; · iexact A1
  isplitl [A2]; · iexact A2
  isplitl [A3]; · iexact A3
  isplitl [A4]; · iexact A4
  isplitl [A5]; · iexact A5
  isplitl [A6]; · iexact A6
  iexact A7

end Cert.Kernel.Region0

end
-- ==== Proof.BitsData0.lean ====
/- This pallas_call's proof data: what each staging buffer and the running-minimum scratch hold point by point,
   and the body's obligation at every grid point.

   Position `n` of the grid is row `n / 16`, column `n % 16`. `accAt V c n` is the running minimum after the point at
   position `n`: seeded at a row's first column, folded over what the column before left otherwise. The output's block
   is written back at a row's last column only, where the body has copied the running minimum into it. -/
import proofs.«130135_j23373212024987_1_alg».proof.Proof.Gen.Kernel.Launch
import proofs.«130135_j23373212024987_1_alg».proof.Proof.Gen.Kernel.Skeleton
import proofs.«130135_j23373212024987_1_alg».proof.Proof.Gen.Kernel.Points
import proofs.«130135_j23373212024987_1_alg».proof.Proof.BitsBody0
import proofs.«130135_j23373212024987_1_alg».proof.Proof.BitsRest0
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running minimum after the point at position `n`. -/
def accAt (c : Dev nD) : (n : ℕ) → n < cfg0.N → Vec F S4x1024 .f32
  | 0, h => seedTile (blk V c 0 ⟨0, h⟩) (blk V c 1 ⟨0, h⟩)
  | n + 1, h =>
    if (n + 1) % 16 = 0 then seedTile (blk V c 0 ⟨n + 1, h⟩) (blk V c 1 ⟨n + 1, h⟩)
    else foldTile (blk V c 0 ⟨n + 1, h⟩) (blk V c 1 ⟨n + 1, h⟩) (accAt c n (Nat.lt_of_succ_lt h))

theorem accAt_first (c : Dev nD) (t : Fin cfg0.N) (h : t.val % 16 = 0) :
    accAt V c t.val t.isLt = seedTile (blk V c 0 t) (blk V c 1 t) := by
  obtain ⟨n, hn⟩ := t
  cases n with
  | zero => rfl
  | succ n => exact if_pos h

theorem accAt_next (c : Dev nD) (t : Fin cfg0.N) (h : ¬ t.val % 16 = 0) :
    accAt V c t.val t.isLt = foldTile (blk V c 0 t) (blk V c 1 t) (accAt V c (t.val - 1) (Nat.lt_of_le_of_lt (Nat.sub_le _ _) t.isLt)) := by
  obtain ⟨n, hn⟩ := t
  cases n with
  | zero => exact absurd (Nat.zero_mod _) h
  | succ n => exact if_neg h

/-- The invariant before position `n`: before the first point the scoped rest at anything; afterwards the scratch at
    the running minimum the point before left, the other scoped buffers at anything; the generator register at some
    state throughout. -/
def inv (c : Dev nD) : (n : ℕ) → n ≤ cfg0.N → sProp 𝕄
  | 0, _ => Pipeline.ΦA spec0 c
  | n + 1, h => iprop((owns (c : Thread nD τ) scr fullShare (accAt V c n h) ∗ others (F := F) c) ∗ (∃ r, prngReg c r))

theorem inv_zero (c : Dev nD) (n : ℕ) (h : n ≤ cfg0.N) (hz : n = 0) : inv V c n h = Pipeline.ΦA spec0 c := by
  subst hz; rfl

theorem inv_succ (c : Dev nD) (n : ℕ) (hn : n < cfg0.N) :
    inv V c (n + 1) hn = iprop((owns (c : Thread nD τ) scr fullShare (accAt V c n hn) ∗ others (F := F) c) ∗ (∃ r, prngReg c r)) := rfl

theorem inv_pos (c : Dev nD) (n : ℕ) (h : n ≤ cfg0.N) (hz : n ≠ 0) :
    inv V c n h = iprop((owns (c : Thread nD τ) scr fullShare (accAt V c (n - 1) (by omega)) ∗ others (F := F) c) ∗ (∃ r, prngReg c r)) := by
  cases n with
  | zero => exact absurd rfl hz
  | succ n => rfl

/-- The proof data: the arrays as the region finds them; after the body each input's buffer at its block and the
    output's at the running minimum; the invariant `inv`; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => accAt V c t.val t.isLt
  Φ t := inv V c t.val (Nat.le_of_lt_succ t.isLt)
  q _ := fullShare
  owed _ := 0

theorem dat_A (c : Dev nD) (w : Fin cfg0.W) : (dat V c).A w = V c (Pipeline.arrRef spec0 w) := by dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = accAt V c t.val t.isLt := by dsimp only [dat]
theorem Phi_castSucc (c : Dev nD) (t : Fin cfg0.N) : (dat V c).Φ t.castSucc = inv V c t.val (Nat.le_of_lt t.isLt) := by
  dsimp only [dat]; simp only [Fin.coe_castSucc]

/-- An input's current staging buffer holds its block at every point, fetched there or not. -/
theorem before_0 (c : Dev nD) (t : Fin cfg0.N) (d) : (dat V c).before 0 t d = blk V c 0 t :=
  ((dat V c).before_in_eq_fetched 0 rfl (fun _ => rfl) (fun _ _ _ => rfl) (fun t => by rw [after_0]; unfold Dat.blockOf blk; rw [dat_A]; try rfl) t d).trans
    (by unfold Dat.fetched Dat.blockOf blk; rw [dat_A]; try rfl)
theorem before_1 (c : Dev nD) (t : Fin cfg0.N) (d) : (dat V c).before 1 t d = blk V c 1 t :=
  ((dat V c).before_in_eq_fetched 1 rfl (fun _ => rfl) (fun _ _ _ => rfl) (fun t => by rw [after_1]; unfold Dat.blockOf blk; rw [dat_A]; try rfl) t d).trans
    (by unfold Dat.fetched Dat.blockOf blk; rw [dat_A]; try rfl)

/-- The two tests of the body over the grid, in closed form. -/
theorem firstCol_iff : ∀ t : Fin cfg0.N, firstCol (grid0.coords t) ↔ t.val % 16 = 0 :=
  (by decide +kernel : ∀ t : Fin grid0.N, firstCol (grid0.coords t) ↔ t.val % 16 = 0)
theorem lastCol_iff : ∀ t : Fin cfg0.N, lastCol (grid0.coords t) ↔ t.val % 16 = 15 :=
  (by decide +kernel : ∀ t : Fin grid0.N, lastCol (grid0.coords t) ↔ t.val % 16 = 15)

/-- Where the windows are idle and where the output is written back. -/
theorem live_0 : ∀ t : Fin cfg0.N, cfg0.idle 0 (grid0.coords t) = false := fun _ => rfl
theorem live_1 : ∀ t : Fin cfg0.N, cfg0.idle 1 (grid0.coords t) = false := fun _ => rfl
theorem idle_2 : ∀ t : Fin cfg0.N, ¬ t.val % 16 = 15 → cfg0.idle 2 (grid0.coords t) = true :=
  (by decide +kernel : ∀ t : Fin grid0.N, ¬ t.val % 16 = 15 → cfg0.idle 2 (grid0.coords t) = true)
theorem live_2 : ∀ t : Fin cfg0.N, t.val % 16 = 15 → cfg0.idle 2 (grid0.coords t) = false :=
  (by decide +kernel : ∀ t : Fin grid0.N, t.val % 16 = 15 → cfg0.idle 2 (grid0.coords t) = false)
theorem noFlush_2 (t : Fin cfg0.N) (h : ¬ t.val % 16 = 15) : (cfg0.win 2).flush t = false := by
  cases hf : (cfg0.win 2).flush t
  · rfl
  · exact absurd ((flush0_2 t).mp hf) h

end Cert.Kernel.Region0

end
-- ==== Proof.BitsOblig0.lean ====
/- This pallas_call's body obligation: at every grid point the body, handed the invariant and the windows'
   current buffers, runs to the invariant of the next point and the buffers at what the proof data state. Three
   kinds of point: a row's first column (the scratch is seeded), a row's last column (the scratch is folded once more
   and copied to the output's buffer, which is then written back), and the columns between. -/
import proofs.«130135_j23373212024987_1_alg».proof.Proof.Gen.Kernel.Launch
import proofs.«130135_j23373212024987_1_alg».proof.Proof.Gen.Kernel.Skeleton
import proofs.«130135_j23373212024987_1_alg».proof.Proof.Gen.Kernel.Points
import proofs.«130135_j23373212024987_1_alg».proof.Proof.BitsData0
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Region0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = inv V c (t.val + 1) t.isLt from rfl, inv_succ, Phi_castSucc]
  rw [show (dat V c).leavesExact 0 t = owns (c : Thread nD τ) (st0_0 t) fullShare ((dat V c).after 0 t) from by
    unfold Dat.leavesExact; rw [live_0 t], after_0]
  rw [show (dat V c).leavesExact 1 t = owns (c : Thread nD τ) (st0_1 t) fullShare ((dat V c).after 1 t) from by
    unfold Dat.leavesExact; rw [live_1 t], after_1]
  have hN : t.val < 128 := lt_of_lt_of_eq t.isLt (show cfg0.N = 128 from N_0)
  by_cases hl : t.val % 16 = 15
  · -- a row's last column
    have hf : ¬ t.val % 16 = 0 := by omega
    have hz : t.val ≠ 0 := by omega
    rw [show (dat V c).leavesExact 2 t = owns (c : Thread nD τ) (st0_2 t) fullShare ((dat V c).after 2 t) from by
      unfold Dat.leavesExact; rw [live_2 t hl], after_2, accAt_next V c t hf, inv_pos V c _ _ hz]
    iintro ⟨⟨⟨HS, Hoth⟩, Hg⟩, Ho, ⟨%d0, H0⟩, ⟨%d1, H1⟩, ⟨%d2, H2⟩⟩
    iapply (body_last c (grid0.coords t) _ _ _ _ _ _ _ _ (fun h => hf ((firstCol_iff t).mp h)) ((lastCol_iff t).mpr hl) (blk V c 0 t) (blk V c 1 t) _ Set.univ _)
    isplitl [H0]; · iexact H0
    isplitl [H1]; · iexact H1
    isplitl [H2]; · iexists _; iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · rw [Dat.leavesExact_idle (dat V c) 2 t (idle_2 t hl) (noFlush_2 t hl)]
    by_cases hf : t.val % 16 = 0
    · -- a row's first column
      rw [accAt_first V c t hf]
      by_cases hz : t.val = 0
      · rw [inv_zero V c _ _ hz]; unfold Pipeline.ΦA
        iintro ⟨⟨Hrest, Hg⟩, Ho, ⟨%d0, H0⟩, ⟨%d1, H1⟩, ⟨%d2, H2⟩⟩
        have hopen := rest_open (F := F) c
        ihave Hr := hopen $$ Hrest
        icases Hr with ⟨HS, Hoth⟩
        iapply (body_first c (grid0.coords t) _ _ _ _ _ _ _ _ ((firstCol_iff t).mpr hf) (fun h => hl ((lastCol_iff t).mp h)) (blk V c 0 t) (blk V c 1 t) _ Set.univ _)
        isplitl [H0]; · iexact H0
        isplitl [H1]; · iexact H1
        isplitl [H2]; · iexact H2
        isplitl [HS]; · iexact HS
        iintro ⟨H0, H1, H2, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        iexists _; iexact H2
      · rw [inv_pos V c _ _ hz]
        iintro ⟨⟨⟨HS, Hoth⟩, Hg⟩, Ho, ⟨%d0, H0⟩, ⟨%d1, H1⟩, ⟨%d2, H2⟩⟩
        iapply (body_first c (grid0.coords t) _ _ _ _ _ _ _ _ ((firstCol_iff t).mpr hf) (fun h => hl ((lastCol_iff t).mp h)) (blk V c 0 t) (blk V c 1 t) _ Set.univ _)
        isplitl [H0]; · iexact H0
        isplitl [H1]; · iexact H1
        isplitl [H2]; · iexact H2
        isplitl [HS]; · iexists _; iexact HS
        iintro ⟨H0, H1, H2, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        iexists _; iexact H2
    · -- a column between
      have hz : t.val ≠ 0 := fun e => hf (by rw [e])
      rw [accAt_next V c t hf, inv_pos V c _ _ hz]
      iintro ⟨⟨⟨HS, Hoth⟩, Hg⟩, Ho, ⟨%d0, H0⟩, ⟨%d1, H1⟩, ⟨%d2, H2⟩⟩
      iapply (body_mid c (grid0.coords t) _ _ _ _ _ _ _ _ (fun h => hf ((firstCol_iff t).mp h)) (fun h => hl ((lastCol_iff t).mp h)) (blk V c 0 t) (blk V c 1 t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem inv_in (c : Dev nD) : Pipeline.ΦA spec0 c ⊢ (dat V c).Φ 0 := by
  show Pipeline.ΦA spec0 c ⊢ Pipeline.ΦA spec0 c
  exact .rfl

/-- After the last point the invariant gives the scoped rest back, the scratch's contents forgotten. -/
theorem inv_out (c : Dev nD) : (dat V c).Φ (Fin.last cfg0.N) ⊢ Pipeline.ΦA spec0 c := by
  rw [show (dat V c).Φ (Fin.last cfg0.N) = inv V c (Fin.last cfg0.N).val (Nat.le_of_lt_succ (Fin.last cfg0.N).isLt) from rfl,
    inv_pos V c _ _ (by rw [Fin.val_last]; have : cfg0.N = 128 := N_0; omega)]
  unfold Pipeline.ΦA
  iintro ⟨⟨HS, Hoth⟩, Hg⟩
  isplitl [HS Hoth]
  · iapply (rest_close c)
    isplitl [HS]; · iexists _; iexact HS
    iexact Hoth
  iexact Hg

end Cert.Kernel.Region0

end
-- ==== Proof.BitsBody1.lean ====
/- The kernel body at one grid point, as three triples.

   The grid is 8 × 16: row `i` of the grid handles 1024 points of the call's primary cloud (its first operand), column `j`
   512 points of its secondary cloud (its second operand). A scratch buffer carries, along a row of the grid, the running
   minimum of the clamped squared distances: at the row's first column it is seeded with +∞ before the tile's minima are
   folded in, at every other column the tile's minima are folded into what the column before left, and at the row's last
   column the scratch is copied to the output block. `foldTile a b prev` is that fold (the minimum of `prev` and the
   tile's row minima, the tile's distances computed from block `a` of the primary cloud and block `b` of the secondary);
   `seedTile a b` is the fold from +∞. -/
import proofs.«130135_j23373212024987_1_alg».proof.Proof.Gen.Kernel.Launch
import proofs.«130135_j23373212024987_1_alg».proof.Proof.Gen.Kernel.Skeleton
import proofs.«130135_j23373212024987_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column-0 test of the body, on the grid coordinates. -/
abbrev firstCol (i : grid1.Coords) : Prop :=
  (Scalar.cmpi .ne (Scalar.extui (Scalar.cmpi .eq (BitVec.ofNat 32 (i 1).val) 0#32)) 0#32) = 1#1
/-- The last-column test of the body. -/
abbrev lastCol (i : grid1.Coords) : Prop := k1_cond2 i = 1#1

/-- The tile's row minima folded into the running minimum `prev`. -/
def foldTile (a : Vec F S4x1024x3 .f32) (b : Vec F S4x512x3 .f32) (prev : Vec F S4x1024 .f32) : Vec F S4x1024 .f32 :=
  k1_pay1 (k1_pay3 a b) prev
/-- The same from +∞: what a row's first column leaves. -/
def seedTile (a : Vec F S4x1024x3 .f32) (b : Vec F S4x512x3 .f32) : Vec F S4x1024 .f32 :=
  k1_pay1 (k1_pay3 a b) (k1_pay2 (F := F))

theorem off_zero2 : (![0, 0] : Fin S4x1024.rank → Nat) = fun _ => 0 := by
  funext a; match a with | ⟨0, _⟩ => rfl | ⟨1, _⟩ => rfl
theorem off_zero3a : (![0, 0, 0] : Fin S4x1024x3.rank → Nat) = fun _ => 0 := by
  funext a; match a with | ⟨0, _⟩ => rfl | ⟨1, _⟩ => rfl | ⟨2, _⟩ => rfl
theorem off_zero3b : (![0, 0, 0] : Fin S4x512x3.rank → Nat) = fun _ => 0 := by
  funext a; match a with | ⟨0, _⟩ => rfl | ⟨1, _⟩ => rfl | ⟨2, _⟩ => rfl

/-- A whole-buffer store, last, covers the buffer. -/
theorem cover_whole (p : Vec F S4x1024 .f32) (L : List (View.Piece (Elt F) S4x1024 .f32)) (y : S4x1024.Idx) :
    ∃ pc ∈ ((⟨Rect.unit (s := S4x1024) ![0, 0] S4x1024.size inb_S4x1024_S4x1024_0_0, p⟩ : View.Piece (Elt F) S4x1024 .f32) :: L), y ∈ pc.1.set :=
  ⟨_, List.mem_cons_self .., View.mem_set_unit_zero (S := S4x1024) off_zero2 inb_S4x1024_S4x1024_0_0 y⟩

set_option maxHeartbeats 2000000 in
/-- A column that is neither first nor last: the running minimum `s` becomes `foldTile a b s`; the output's buffer is
    handed back as found. -/
theorem body_mid (c : Dev nD) (i : grid1.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (h1 : ¬ firstCol i) (h2 : ¬ lastCol i)
    (a : Vec F S4x1024x3 .f32) (b : Vec F S4x512x3 .f32) (o s : Vec F S4x1024 .f32) (E : Set ℕ) (K : PUnit → sProp 𝕄) :
    iprop(owns (c : Thread nD τ) arg2 fullShare a ∗ owns (c : Thread nD τ) arg3 fullShare b ∗ owns (c : Thread nD τ) arg4 fullShare o ∗ owns (c : Thread nD τ) arg5 fullShare s
        ∗ (iprop(owns (c : Thread nD τ) arg2 fullShare a ∗ owns (c : Thread nD τ) arg3 fullShare b ∗ owns (c : Thread nD τ) arg4 fullShare o ∗ owns (c : Thread nD τ) arg5 fullShare (foldTile a b s)) -∗ K ⟨⟩))
      ⊢ wp frame (wpE (defs₀ (F := F)) Variants.none c none) E (cc1__min_dist_kernel i arg2 harg2 arg3 harg3 arg4 harg4 arg5 harg5) K := by
  simp only [cc1__min_dist_kernel_eq_skeleton]; unfold cc1__min_dist_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (cover_whole _ _), View.canon_cons_unit_zero (S := S4x1024) off_zero2]
  simp only [View.readAt_eq_ld, View.readCov_unit_zero (S := S4x1024) _ off_zero2, harg2.read_unread, harg3.read_unread, harg5.read_unread, View.ld_unit_zero (S := S4x1024) off_zero2, View.ld_unit_zero (S := S4x1024x3) off_zero3a, View.ld_unit_zero (S := S4x512x3) off_zero3b]
  rfl

set_option maxHeartbeats 2000000 in
/-- A row's first column: whatever the scratch held, it ends at `seedTile a b`; the output's buffer is handed back as
    found. -/
theorem body_first (c : Dev nD) (i : grid1.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (h1 : firstCol i) (h2 : ¬ lastCol i)
    (a : Vec F S4x1024x3 .f32) (b : Vec F S4x512x3 .f32) (o : Vec F S4x1024 .f32) (E : Set ℕ) (K : PUnit → sProp 𝕄) :
    iprop(owns (c : Thread nD τ) arg2 fullShare a ∗ owns (c : Thread nD τ) arg3 fullShare b ∗ owns (c : Thread nD τ) arg4 fullShare o ∗ (∃ d, owns (c : Thread nD τ) arg5 fullShare d)
        ∗ (iprop(owns (c : Thread nD τ) arg2 fullShare a ∗ owns (c : Thread nD τ) arg3 fullShare b ∗ owns (c : Thread nD τ) arg4 fullShare o ∗ owns (c : Thread nD τ) arg5 fullShare (seedTile a b)) -∗ K ⟨⟩))
      ⊢ wp frame (wpE (defs₀ (F := F)) Variants.none c none) E (cc1__min_dist_kernel i arg2 harg2 arg3 harg3 arg4 harg4 arg5 harg5) K := by
  simp only [cc1__min_dist_kernel_eq_skeleton]; unfold cc1__min_dist_kernel_skel
  unfold owns
  iintro ⟨⟨%f2, %hf2, H2⟩, ⟨%f3, %hf3, H3⟩, ⟨%f4, %hf4, H4⟩, ⟨%d5, %f5, -, H5⟩, Hk⟩
  obtain rfl := harg2.eq_unread hf2; obtain rfl := harg3.eq_unread hf3; obtain rfl := harg4.eq_unread hf4
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (cover_whole _ _), View.canon_cons_unit_zero (S := S4x1024) off_zero2]
  simp only [View.readAt_eq_ld, View.readCov_unit_zero (S := S4x1024) _ off_zero2, harg2.read_unread, harg3.read_unread, View.ld_unit_zero (S := S4x1024) off_zero2, View.ld_unit_zero (S := S4x1024x3) off_zero3a, View.ld_unit_zero (S := S4x512x3) off_zero3b]
  rfl

set_option maxHeartbeats 2000000 in
/-- A row's last column: the running minimum `s` becomes `foldTile a b s`, and the output's buffer, whatever it held,
    ends holding the same. -/
theorem body_last (c : Dev nD) (i : grid1.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (h1 : ¬ firstCol i) (h2 : lastCol i)
    (a : Vec F S4x1024x3 .f32) (b : Vec F S4x512x3 .f32) (s : Vec F S4x1024 .f32) (E : Set ℕ) (K : PUnit → sProp 𝕄) :
    iprop(owns (c : Thread nD τ) arg2 fullShare a ∗ owns (c : Thread nD τ) arg3 fullShare b ∗ (∃ d, owns (c : Thread nD τ) arg4 fullShare d) ∗ owns (c : Thread nD τ) arg5 fullShare s
        ∗ (iprop(owns (c : Thread nD τ) arg2 fullShare a ∗ owns (c : Thread nD τ) arg3 fullShare b ∗ owns (c : Thread nD τ) arg4 fullShare (foldTile a b s) ∗ owns (c : Thread nD τ) arg5 fullShare (foldTile a b s)) -∗ K ⟨⟩))
      ⊢ wp frame (wpE (defs₀ (F := F)) Variants.none c none) E (cc1__min_dist_kernel i arg2 harg2 arg3 harg3 arg4 harg4 arg5 harg5) K := by
  simp only [cc1__min_dist_kernel_eq_skeleton]; unfold cc1__min_dist_kernel_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3; obtain rfl := harg5.eq_unread hf5
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_words
    rw [View.read_writes_eq_canon _ _ _ (cover_whole _ _), View.canon_cons_unit_zero (S := S4x1024) off_zero2]
    simp only [View.readAt_eq_ld, View.readCov_unit_zero (S := S4x1024) _ off_zero2, harg2.read_unread, harg3.read_unread, harg5.read_unread, View.ld_unit_zero (S := S4x1024) off_zero2, View.ld_unit_zero (S := S4x1024x3) off_zero3a, View.ld_unit_zero (S := S4x512x3) off_zero3b]
    rfl
  iexists _; isplitr
  swap; · iexact H5
  ipureintro
  sl_unfold_words
  rw [View.read_writes_eq_canon _ _ _ (cover_whole _ _), View.canon_cons_unit_zero (S := S4x1024) off_zero2]
  simp only [View.readAt_eq_ld, View.readCov_unit_zero (S := S4x1024) _ off_zero2, harg2.read_unread, harg3.read_unread, harg5.read_unread, View.ld_unit_zero (S := S4x1024) off_zero2, View.ld_unit_zero (S := S4x1024x3) off_zero3a, View.ld_unit_zero (S := S4x512x3) off_zero3b]
  rfl

end Cert.Kernel.Region1

end
-- ==== Proof.BitsRest1.lean ====
/- This pallas_call's scoped buffers that no window stages: its own scratch, which carries the running minimum between grid
   points, and the other pallas_call's buffers, which it never touches. -/
import proofs.«130135_j23373212024987_1_alg».proof.Proof.Gen.Kernel.Launch
import proofs.«130135_j23373212024987_1_alg».proof.Proof.Gen.Kernel.Skeleton
import proofs.«130135_j23373212024987_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch the kernel carries between points. -/
abbrev scr : Memref sig .tc .vmem S4x1024 .f32 := Memref.whole cc1_scratch0

/-- The core's other scoped buffers, each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The scoped rest of this pallas_call opens into its scratch and the others, -/
theorem rest_open (c : Dev nD) :
    (Pipeline.scopedRest spec1 c : sProp 𝕄) ⊢ iprop((∃ d, owns (c : Thread nD τ) scr fullShare d) ∗ others (F := F) c) := by
  rw [scopedRest1_eq]; unfold others; simp only [scr, owns_whole]
  iintro ⟨A0, A1, A2, A3, A4, A5, A6, HS⟩
  isplitl [HS]; · iexact HS
  isplitl [A0]; · iexact A0
  isplitl [A1]; · iexact A1
  isplitl [A2]; · iexact A2
  isplitl [A3]; · iexact A3
  isplitl [A4]; · iexact A4
  isplitl [A5]; · iexact A5
  iexact A6

/-- and closes back. -/
theorem rest_close (c : Dev nD) :
    iprop((∃ d, owns (c : Thread nD τ) scr fullShare d) ∗ others (F := F) c) ⊢ (Pipeline.scopedRest spec1 c : sProp 𝕄) := by
  rw [scopedRest1_eq]; unfold others; simp only [scr, owns_whole]
  iintro ⟨HS, A0, A1, A2, A3, A4, A5, A6⟩
  isplitl [A0]; · iexact A0
  isplitl [A1]; · iexact A1
  isplitl [A2]; · iexact A2
  isplitl [A3]; · iexact A3
  isplitl [A4]; · iexact A4
  isplitl [A5]; · iexact A5
  isplitl [A6]; · iexact A6
  iexact HS

end Cert.Kernel.Region1

end
-- ==== Proof.BitsData1.lean ====
/- This pallas_call's proof data: what each staging buffer and the running-minimum scratch hold point by point,
   and the body's obligation at every grid point.

   Position `n` of the grid is row `n / 16`, column `n % 16`. `accAt V c n` is the running minimum after the point at
   position `n`: seeded at a row's first column, folded over what the column before left otherwise. The output's block
   is written back at a row's last column only, where the body has copied the running minimum into it. -/
import proofs.«130135_j23373212024987_1_alg».proof.Proof.Gen.Kernel.Launch
import proofs.«130135_j23373212024987_1_alg».proof.Proof.Gen.Kernel.Skeleton
import proofs.«130135_j23373212024987_1_alg».proof.Proof.Gen.Kernel.Points
import proofs.«130135_j23373212024987_1_alg».proof.Proof.BitsBody1
import proofs.«130135_j23373212024987_1_alg».proof.Proof.BitsRest1
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running minimum after the point at position `n`. -/
def accAt (c : Dev nD) : (n : ℕ) → n < cfg1.N → Vec F S4x1024 .f32
  | 0, h => seedTile (blk V c 0 ⟨0, h⟩) (blk V c 1 ⟨0, h⟩)
  | n + 1, h =>
    if (n + 1) % 16 = 0 then seedTile (blk V c 0 ⟨n + 1, h⟩) (blk V c 1 ⟨n + 1, h⟩)
    else foldTile (blk V c 0 ⟨n + 1, h⟩) (blk V c 1 ⟨n + 1, h⟩) (accAt c n (Nat.lt_of_succ_lt h))

theorem accAt_first (c : Dev nD) (t : Fin cfg1.N) (h : t.val % 16 = 0) :
    accAt V c t.val t.isLt = seedTile (blk V c 0 t) (blk V c 1 t) := by
  obtain ⟨n, hn⟩ := t
  cases n with
  | zero => rfl
  | succ n => exact if_pos h

theorem accAt_next (c : Dev nD) (t : Fin cfg1.N) (h : ¬ t.val % 16 = 0) :
    accAt V c t.val t.isLt = foldTile (blk V c 0 t) (blk V c 1 t) (accAt V c (t.val - 1) (Nat.lt_of_le_of_lt (Nat.sub_le _ _) t.isLt)) := by
  obtain ⟨n, hn⟩ := t
  cases n with
  | zero => exact absurd (Nat.zero_mod _) h
  | succ n => exact if_neg h

/-- The invariant before position `n`: before the first point the scoped rest at anything; afterwards the scratch at
    the running minimum the point before left, the other scoped buffers at anything; the generator register at some
    state throughout. -/
def inv (c : Dev nD) : (n : ℕ) → n ≤ cfg1.N → sProp 𝕄
  | 0, _ => Pipeline.ΦA spec1 c
  | n + 1, h => iprop((owns (c : Thread nD τ) scr fullShare (accAt V c n h) ∗ others (F := F) c) ∗ (∃ r, prngReg c r))

theorem inv_zero (c : Dev nD) (n : ℕ) (h : n ≤ cfg1.N) (hz : n = 0) : inv V c n h = Pipeline.ΦA spec1 c := by
  subst hz; rfl

theorem inv_succ (c : Dev nD) (n : ℕ) (hn : n < cfg1.N) :
    inv V c (n + 1) hn = iprop((owns (c : Thread nD τ) scr fullShare (accAt V c n hn) ∗ others (F := F) c) ∗ (∃ r, prngReg c r)) := rfl

theorem inv_pos (c : Dev nD) (n : ℕ) (h : n ≤ cfg1.N) (hz : n ≠ 0) :
    inv V c n h = iprop((owns (c : Thread nD τ) scr fullShare (accAt V c (n - 1) (by omega)) ∗ others (F := F) c) ∗ (∃ r, prngReg c r)) := by
  cases n with
  | zero => exact absurd rfl hz
  | succ n => rfl

/-- The proof data: the arrays as the region finds them; after the body each input's buffer at its block and the
    output's at the running minimum; the invariant `inv`; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => accAt V c t.val t.isLt
  Φ t := inv V c t.val (Nat.le_of_lt_succ t.isLt)
  q _ := fullShare
  owed _ := 0

theorem dat_A (c : Dev nD) (w : Fin cfg1.W) : (dat V c).A w = V c (Pipeline.arrRef spec1 w) := by dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = accAt V c t.val t.isLt := by dsimp only [dat]
theorem Phi_castSucc (c : Dev nD) (t : Fin cfg1.N) : (dat V c).Φ t.castSucc = inv V c t.val (Nat.le_of_lt t.isLt) := by
  dsimp only [dat]; simp only [Fin.coe_castSucc]

/-- An input's current staging buffer holds its block at every point, fetched there or not. -/
theorem before_0 (c : Dev nD) (t : Fin cfg1.N) (d) : (dat V c).before 0 t d = blk V c 0 t :=
  ((dat V c).before_in_eq_fetched 0 rfl (fun _ => rfl) (fun _ _ _ => rfl) (fun t => by rw [after_0]; unfold Dat.blockOf blk; rw [dat_A]; try rfl) t d).trans
    (by unfold Dat.fetched Dat.blockOf blk; rw [dat_A]; try rfl)
theorem before_1 (c : Dev nD) (t : Fin cfg1.N) (d) : (dat V c).before 1 t d = blk V c 1 t :=
  ((dat V c).before_in_eq_fetched 1 rfl (fun _ => rfl) (fun _ _ _ => rfl) (fun t => by rw [after_1]; unfold Dat.blockOf blk; rw [dat_A]; try rfl) t d).trans
    (by unfold Dat.fetched Dat.blockOf blk; rw [dat_A]; try rfl)

/-- The two tests of the body over the grid, in closed form. -/
theorem firstCol_iff : ∀ t : Fin cfg1.N, firstCol (grid1.coords t) ↔ t.val % 16 = 0 :=
  (by decide +kernel : ∀ t : Fin grid1.N, firstCol (grid1.coords t) ↔ t.val % 16 = 0)
theorem lastCol_iff : ∀ t : Fin cfg1.N, lastCol (grid1.coords t) ↔ t.val % 16 = 15 :=
  (by decide +kernel : ∀ t : Fin grid1.N, lastCol (grid1.coords t) ↔ t.val % 16 = 15)

/-- Where the windows are idle and where the output is written back. -/
theorem live_0 : ∀ t : Fin cfg1.N, cfg1.idle 0 (grid1.coords t) = false := fun _ => rfl
theorem live_1 : ∀ t : Fin cfg1.N, cfg1.idle 1 (grid1.coords t) = false := fun _ => rfl
theorem idle_2 : ∀ t : Fin cfg1.N, ¬ t.val % 16 = 15 → cfg1.idle 2 (grid1.coords t) = true :=
  (by decide +kernel : ∀ t : Fin grid1.N, ¬ t.val % 16 = 15 → cfg1.idle 2 (grid1.coords t) = true)
theorem live_2 : ∀ t : Fin cfg1.N, t.val % 16 = 15 → cfg1.idle 2 (grid1.coords t) = false :=
  (by decide +kernel : ∀ t : Fin grid1.N, t.val % 16 = 15 → cfg1.idle 2 (grid1.coords t) = false)
theorem noFlush_2 (t : Fin cfg1.N) (h : ¬ t.val % 16 = 15) : (cfg1.win 2).flush t = false := by
  cases hf : (cfg1.win 2).flush t
  · rfl
  · exact absurd ((flush1_2 t).mp hf) h

end Cert.Kernel.Region1

end
-- ==== Proof.BitsOblig1.lean ====
/- This pallas_call's body obligation: at every grid point the body, handed the invariant and the windows'
   current buffers, runs to the invariant of the next point and the buffers at what the proof data state. Three
   kinds of point: a row's first column (the scratch is seeded), a row's last column (the scratch is folded once more
   and copied to the output's buffer, which is then written back), and the columns between. -/
import proofs.«130135_j23373212024987_1_alg».proof.Proof.Gen.Kernel.Launch
import proofs.«130135_j23373212024987_1_alg».proof.Proof.Gen.Kernel.Skeleton
import proofs.«130135_j23373212024987_1_alg».proof.Proof.Gen.Kernel.Points
import proofs.«130135_j23373212024987_1_alg».proof.Proof.BitsData1
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Region1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = inv V c (t.val + 1) t.isLt from rfl, inv_succ, Phi_castSucc]
  rw [show (dat V c).leavesExact 0 t = owns (c : Thread nD τ) (st1_0 t) fullShare ((dat V c).after 0 t) from by
    unfold Dat.leavesExact; rw [live_0 t], after_0]
  rw [show (dat V c).leavesExact 1 t = owns (c : Thread nD τ) (st1_1 t) fullShare ((dat V c).after 1 t) from by
    unfold Dat.leavesExact; rw [live_1 t], after_1]
  have hN : t.val < 128 := lt_of_lt_of_eq t.isLt (show cfg1.N = 128 from N_1)
  by_cases hl : t.val % 16 = 15
  · -- a row's last column
    have hf : ¬ t.val % 16 = 0 := by omega
    have hz : t.val ≠ 0 := by omega
    rw [show (dat V c).leavesExact 2 t = owns (c : Thread nD τ) (st1_2 t) fullShare ((dat V c).after 2 t) from by
      unfold Dat.leavesExact; rw [live_2 t hl], after_2, accAt_next V c t hf, inv_pos V c _ _ hz]
    iintro ⟨⟨⟨HS, Hoth⟩, Hg⟩, Ho, ⟨%d0, H0⟩, ⟨%d1, H1⟩, ⟨%d2, H2⟩⟩
    iapply (body_last c (grid1.coords t) _ _ _ _ _ _ _ _ (fun h => hf ((firstCol_iff t).mp h)) ((lastCol_iff t).mpr hl) (blk V c 0 t) (blk V c 1 t) _ Set.univ _)
    isplitl [H0]; · iexact H0
    isplitl [H1]; · iexact H1
    isplitl [H2]; · iexists _; iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · rw [Dat.leavesExact_idle (dat V c) 2 t (idle_2 t hl) (noFlush_2 t hl)]
    by_cases hf : t.val % 16 = 0
    · -- a row's first column
      rw [accAt_first V c t hf]
      by_cases hz : t.val = 0
      · rw [inv_zero V c _ _ hz]; unfold Pipeline.ΦA
        iintro ⟨⟨Hrest, Hg⟩, Ho, ⟨%d0, H0⟩, ⟨%d1, H1⟩, ⟨%d2, H2⟩⟩
        have hopen := rest_open (F := F) c
        ihave Hr := hopen $$ Hrest
        icases Hr with ⟨HS, Hoth⟩
        iapply (body_first c (grid1.coords t) _ _ _ _ _ _ _ _ ((firstCol_iff t).mpr hf) (fun h => hl ((lastCol_iff t).mp h)) (blk V c 0 t) (blk V c 1 t) _ Set.univ _)
        isplitl [H0]; · iexact H0
        isplitl [H1]; · iexact H1
        isplitl [H2]; · iexact H2
        isplitl [HS]; · iexact HS
        iintro ⟨H0, H1, H2, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        iexists _; iexact H2
      · rw [inv_pos V c _ _ hz]
        iintro ⟨⟨⟨HS, Hoth⟩, Hg⟩, Ho, ⟨%d0, H0⟩, ⟨%d1, H1⟩, ⟨%d2, H2⟩⟩
        iapply (body_first c (grid1.coords t) _ _ _ _ _ _ _ _ ((firstCol_iff t).mpr hf) (fun h => hl ((lastCol_iff t).mp h)) (blk V c 0 t) (blk V c 1 t) _ Set.univ _)
        isplitl [H0]; · iexact H0
        isplitl [H1]; · iexact H1
        isplitl [H2]; · iexact H2
        isplitl [HS]; · iexists _; iexact HS
        iintro ⟨H0, H1, H2, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        iexists _; iexact H2
    · -- a column between
      have hz : t.val ≠ 0 := fun e => hf (by rw [e])
      rw [accAt_next V c t hf, inv_pos V c _ _ hz]
      iintro ⟨⟨⟨HS, Hoth⟩, Hg⟩, Ho, ⟨%d0, H0⟩, ⟨%d1, H1⟩, ⟨%d2, H2⟩⟩
      iapply (body_mid c (grid1.coords t) _ _ _ _ _ _ _ _ (fun h => hf ((firstCol_iff t).mp h)) (fun h => hl ((lastCol_iff t).mp h)) (blk V c 0 t) (blk V c 1 t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem inv_in (c : Dev nD) : Pipeline.ΦA spec1 c ⊢ (dat V c).Φ 0 := by
  show Pipeline.ΦA spec1 c ⊢ Pipeline.ΦA spec1 c
  exact .rfl

/-- After the last point the invariant gives the scoped rest back, the scratch's contents forgotten. -/
theorem inv_out (c : Dev nD) : (dat V c).Φ (Fin.last cfg1.N) ⊢ Pipeline.ΦA spec1 c := by
  rw [show (dat V c).Φ (Fin.last cfg1.N) = inv V c (Fin.last cfg1.N).val (Nat.le_of_lt_succ (Fin.last cfg1.N).isLt) from rfl,
    inv_pos V c _ _ (by rw [Fin.val_last]; have : cfg1.N = 128 := N_1; omega)]
  unfold Pipeline.ΦA
  iintro ⟨⟨HS, Hoth⟩, Hg⟩
  isplitl [HS Hoth]
  · iapply (rest_close c)
    isplitl [HS]; · iexists _; iexact HS
    iexact Hoth
  iexact Hg

end Cert.Kernel.Region1

end
-- ==== Proof.BitsFrames.lean ====
/- The program's run as two kernel regions and a stretch of host operations: each region's record over the proof data
   of its pallas_call, the buffer contents between the items named, and the frame claim (the argument arrays end as
   launched).

   Between the items core `c` holds every unscoped buffer whole: at launch the memory `m`; after the first region the
   same with `main_v0` at what the first pipeline's write-backs leave (`out0`); after the second also `main_v1` at
   what the second's leave (`out1`). Beside the buffers rides the generator register at some state and the core owing
   nothing. Each region takes its pipeline's arrays out of the unscoped buffers at entry and puts them back at exit; its
   invariant takes the scoped rest and the register in and gives them back. -/
import proofs.«130135_j23373212024987_1_alg».proof.Proof.Gen.Kernel.Launch
import proofs.«130135_j23373212024987_1_alg».proof.Proof.Gen.Kernel.Skeleton
import proofs.«130135_j23373212024987_1_alg».proof.Proof.Gen.Kernel.Points
import proofs.«130135_j23373212024987_1_alg».proof.Proof.BitsOblig0
import proofs.«130135_j23373212024987_1_alg».proof.Proof.BitsOblig1
import proofs.«130135_j23373212024987_1_alg».proof.Proof.Gen.Kernel.Regions
import Idealize.ShloMosaic.Lib.Pipeline.RegionsLoop
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- The first region's entry contents: the launch memory. -/
abbrev E0 (c : Dev nD) (b : Ref sig .tc) : Buf (Elt F) ((c : Thread nD τ).loc b) := Gen.V0 m c b
/-- What the first region leaves in `main_v0`. -/
def out0 (c : Dev nD) : Buf (Elt F) ((c : Thread nD τ).loc main_v0) := (Region0.dat (E0 m) c).arrAt 2 cfg0.N
/-- The buffers after the first region. -/
def W1 (c : Dev nD) : Valuation τ sig (Elt F) := Function.update (Gen.V0 m c) main_v0 (out0 m c)
/-- The second region's entry contents. -/
abbrev E1 (c : Dev nD) (b : Ref sig .tc) : Buf (Elt F) ((c : Thread nD τ).loc b) := W1 m c b
/-- What the second region leaves in `main_v1`. -/
def out1 (c : Dev nD) : Buf (Elt F) ((c : Thread nD τ).loc main_v1) := (Region1.dat (E1 m) c).arrAt 2 cfg1.N
/-- The buffers after the second region. -/
def W2 (c : Dev nD) : Valuation τ sig (Elt F) := Function.update (W1 m c) main_v1 (out1 m c)

/-- What the regions leave, as the generated conditional frame takes it. -/
def outs : Gen.Outs (F := F) := fun _ r c => W2 m c r

theorem ne_v0_v1 : (Proc.devRef .tc main_v0 : DevRef τ sig) ≠ Proc.devRef .tc main_v1 := StableHlo.devRef_ne_of_ne (by decide)

theorem outs_v0 (c : Dev nD) : outs m 1 main_v0 c = out0 m c := by
  show W2 m c main_v0 = _
  unfold W2; rw [Function.update_of_ne ne_v0_v1]; unfold W1; rw [Function.update_self]
theorem outs_v1 (c : Dev nD) : outs m 2 main_v1 c = out1 m c := by
  show W2 m c main_v1 = _
  unfold W2; rw [Function.update_self]

theorem V1_eq (c : Dev nD) : Gen.V1 m (outs m) c = W1 m c := by
  show Function.update (Gen.V0 m c) main_v0 (outs m 1 main_v0 c) = _
  rw [outs_v0]; rfl
theorem V2_eq (c : Dev nD) : Gen.V2 m (outs m) c = W2 m c := by
  show Function.update (Gen.V1 m (outs m) c) main_v1 (outs m 2 main_v1 c) = _
  rw [outs_v1, V1_eq]; rfl

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => Region0.dat (E0 m) c
  | ⟨1, _⟩ => fun c => Region1.dat (E1 m) c

/-- No core owes another anything: no level is assigned. -/
abbrev L : GSem nD τ sig → Finset Unit := fun _ => ∅
abbrev lv : GSem nD τ sig → Unit → ℕ := fun _ _ => 0
/-- What rides beside the buffers: the generator register at some state, the core owing nothing. -/
abbrev R (c : Dev nD) : sProp 𝕄 := iprop((∃ r, prngReg c r) ∗ ∃ W, owes (c : Thread nD τ) (0 : CellTallies nD τ sig Unit) W)

/-! ## The arrays at each region's exit -/

theorem exit0_arr (c : Dev nD) (w : Fin cfg0.W) : (Region0.dat (E0 m) c).arrAt w cfg0.N = E1 m c (Pipeline.arrRef spec0 w) := by
  match w with
  | ⟨0, _⟩ =>
    refine ((Region0.dat (E0 m) c).arrAt_in 0 rfl _).trans ((Region0.dat_A (E0 m) c 0).trans ?_)
    exact (Function.update_of_ne (StableHlo.devRef_ne_of_ne (by decide) : (Proc.devRef .tc main_arg0 : DevRef τ sig) ≠ Proc.devRef .tc main_v0) _ _).symm
  | ⟨1, _⟩ =>
    refine ((Region0.dat (E0 m) c).arrAt_in 1 rfl _).trans ((Region0.dat_A (E0 m) c 1).trans ?_)
    exact (Function.update_of_ne (StableHlo.devRef_ne_of_ne (by decide) : (Proc.devRef .tc main_arg1 : DevRef τ sig) ≠ Proc.devRef .tc main_v0) _ _).symm
  | ⟨2, _⟩ =>
    show out0 m c = Function.update (Gen.V0 m c) (Proc.devRef .tc main_v0 : DevRef τ sig) (out0 m c) (Proc.devRef .tc main_v0)
    rw [Function.update_self]
theorem exit0_rest (c : Dev nD) : ∀ b, b ∉ Finset.univ.image (Pipeline.arrRef spec0) → E1 m c b = E0 m c b := fun b hb =>
  Function.update_of_ne (StableHlo.devRef_ne_of_ne fun e => hb (Finset.mem_image.mpr ⟨2, Finset.mem_univ _, e.symm⟩)) _ _

theorem exit1_arr (c : Dev nD) (w : Fin cfg1.W) : (Region1.dat (E1 m) c).arrAt w cfg1.N = W2 m c (Pipeline.arrRef spec1 w) := by
  match w with
  | ⟨0, _⟩ =>
    refine ((Region1.dat (E1 m) c).arrAt_in 0 rfl _).trans ((Region1.dat_A (E1 m) c 0).trans ?_)
    exact (Function.update_of_ne (StableHlo.devRef_ne_of_ne (by decide) : (Proc.devRef .tc main_arg1 : DevRef τ sig) ≠ Proc.devRef .tc main_v1) _ _).symm
  | ⟨1, _⟩ =>
    refine ((Region1.dat (E1 m) c).arrAt_in 1 rfl _).trans ((Region1.dat_A (E1 m) c 1).trans ?_)
    exact (Function.update_of_ne (StableHlo.devRef_ne_of_ne (by decide) : (Proc.devRef .tc main_arg0 : DevRef τ sig) ≠ Proc.devRef .tc main_v1) _ _).symm
  | ⟨2, _⟩ =>
    show out1 m c = Function.update (W1 m c) (Proc.devRef .tc main_v1 : DevRef τ sig) (out1 m c) (Proc.devRef .tc main_v1)
    rw [Function.update_self]
theorem exit1_rest (c : Dev nD) : ∀ b, b ∉ Finset.univ.image (Pipeline.arrRef spec1) → W2 m c b = E1 m c b := fun b hb =>
  Function.update_of_ne (StableHlo.devRef_ne_of_ne fun e => hb (Finset.mem_image.mpr ⟨2, Finset.mem_univ _, e.symm⟩)) _ _

/-! ## The regions as segments -/

set_option backward.isDefEq.respectTransparency.types false in
/-- The first region: entered from the launch memory, left at `W1`. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (Region0.body_obligation (E0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Region0.inv_in (E0 m) c)
    unfold Pipeline.ΦA
    iintro ⟨Hp, -, Hr⟩
    isplitl [Hr]; · iexact Hr
    iexact Hp
  hout c := by
    rw [Pipeline.ownSems0_none]
    refine (Region0.inv_out (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from `W1`, left at `W2`. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (Region1.body_obligation (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Region1.inv_in (E1 m) c)
    unfold Pipeline.ΦA
    iintro ⟨Hp, -, Hr⟩
    isplitl [Hr]; · iexact Hr
    iexact Hp
  hout c := by
    rw [Pipeline.ownSems0_none]
    refine (Region1.inv_out (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E1 m c) (fun b => W2 m c b) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## What the launch deals and what the end owes -/

/-- The launch's ghost state: the pipelines' cells and nothing else. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- On one core: the register and the empty debt out of what the launch hands it. -/
theorem rides_of_launch (ρ : Dev nD → PrngReg) (c : Dev nD) :
    iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))
      ⊢ (R (F := F) c : sProp 𝕄) := by
  iintro ⟨-, HO, -, Hp, -⟩
  isplitl [Hp]; · iexists _; iexact Hp
  iexists ∅; iexact HO

/-- What rides beside the buffers, made on every core from what the launch hands it. -/
theorem launch_rides (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (fun c : Dev nD => R (F := F) c) : sProp 𝕄) :=
    bigSep_mono fun c _ => rides_of_launch ρ c
  iintro ⟨H, -⟩
  imodintro
  iapply hmono; iexact H

/-! ## The frame -/

set_option backward.isDefEq.respectTransparency.types false in
/-- Every weakly fair execution of @main from memory `m` with zero counters terminates, nothing faulting, and each
    argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond (F := F) m emb₁ () Variants.none L lv (fun _ _ => rfl) ρ (outs m) (pdats m) 0 (fun _ => iprop(emp))
    (initOf (Pipeline.cells cfgs cellOf_inj) (Pipeline.launchToks cfgs cellOf_inj)) launch_ghost
    (fun _ c => R c) (launch_rides ρ) (fun c => by iintro ⟨-, HO⟩; iexact HO)
    (reg0 m) (fun _ => .rfl) (fun c => by rw [V1_eq]; exact .rfl)
    (reg1 m) (fun c => by rw [V1_eq]; exact .rfl) (fun c => by rw [V2_eq]; exact .rfl)

end Cert.Kernel.Frames

end
-- ==== Proof.Body0.lean ====
/- The kernel body at one grid point, as three triples.

   The grid is 8 × 16: row `i` of the grid handles 1024 points of the call's primary cloud (its first operand), column `j`
   512 points of its secondary cloud (its second operand). A scratch buffer carries, along a row of the grid, the running
   minimum of the clamped squared distances: at the row's first column it is seeded with +∞ before the tile's minima are
   folded in, at every other column the tile's minima are folded into what the column before left, and at the row's last
   column the scratch is copied to the output block. `foldTile a b prev` is that fold (the minimum of `prev` and the
   tile's row minima, the tile's distances computed from block `a` of the primary cloud and block `b` of the secondary);
   `seedTile a b` is the fold from +∞. -/
import proofs.«130135_j23373212024987_1_alg».proof.Proof.Gen.KernelIdeal.Launch
import proofs.«130135_j23373212024987_1_alg».proof.Proof.Gen.KernelIdeal.Skeleton
import proofs.«130135_j23373212024987_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column-0 test of the body, on the grid coordinates. -/
abbrev firstCol (i : grid0.Coords) : Prop :=
  (Scalar.cmpi .ne (Scalar.extui (Scalar.cmpi .eq (BitVec.ofNat 32 (i 1).val) 0#32)) 0#32) = 1#1
/-- The last-column test of the body. -/
abbrev lastCol (i : grid0.Coords) : Prop := k0_cond2 i = 1#1

/-- The tile's row minima folded into the running minimum `prev`. -/
def foldTile (a : Vec F S4x1024x3 .f32) (b : Vec F S4x512x3 .f32) (prev : Vec F S4x1024 .f32) : Vec F S4x1024 .f32 :=
  k0_pay1 (k0_pay3 a b) prev
/-- The same from +∞: what a row's first column leaves. -/
def seedTile (a : Vec F S4x1024x3 .f32) (b : Vec F S4x512x3 .f32) : Vec F S4x1024 .f32 :=
  k0_pay1 (k0_pay3 a b) (k0_pay2 (F := F))

theorem off_zero2 : (![0, 0] : Fin S4x1024.rank → Nat) = fun _ => 0 := by
  funext a; match a with | ⟨0, _⟩ => rfl | ⟨1, _⟩ => rfl
theorem off_zero3a : (![0, 0, 0] : Fin S4x1024x3.rank → Nat) = fun _ => 0 := by
  funext a; match a with | ⟨0, _⟩ => rfl | ⟨1, _⟩ => rfl | ⟨2, _⟩ => rfl
theorem off_zero3b : (![0, 0, 0] : Fin S4x512x3.rank → Nat) = fun _ => 0 := by
  funext a; match a with | ⟨0, _⟩ => rfl | ⟨1, _⟩ => rfl | ⟨2, _⟩ => rfl

/-- A whole-buffer store, last, covers the buffer. -/
theorem cover_whole (p : Vec F S4x1024 .f32) (L : List (View.Piece (Elt F) S4x1024 .f32)) (y : S4x1024.Idx) :
    ∃ pc ∈ ((⟨Rect.unit (s := S4x1024) ![0, 0] S4x1024.size inb_S4x1024_S4x1024_0_0, p⟩ : View.Piece (Elt F) S4x1024 .f32) :: L), y ∈ pc.1.set :=
  ⟨_, List.mem_cons_self .., View.mem_set_unit_zero (S := S4x1024) off_zero2 inb_S4x1024_S4x1024_0_0 y⟩

set_option maxHeartbeats 2000000 in
/-- A column that is neither first nor last: the running minimum `s` becomes `foldTile a b s`; the output's buffer is
    handed back as found. -/
theorem body_mid (c : Dev nD) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (h1 : ¬ firstCol i) (h2 : ¬ lastCol i)
    (a : Vec F S4x1024x3 .f32) (b : Vec F S4x512x3 .f32) (o s : Vec F S4x1024 .f32) (E : Set ℕ) (K : PUnit → sProp 𝕄) :
    iprop(owns (c : Thread nD τ) arg2 fullShare a ∗ owns (c : Thread nD τ) arg3 fullShare b ∗ owns (c : Thread nD τ) arg4 fullShare o ∗ owns (c : Thread nD τ) arg5 fullShare s
        ∗ (iprop(owns (c : Thread nD τ) arg2 fullShare a ∗ owns (c : Thread nD τ) arg3 fullShare b ∗ owns (c : Thread nD τ) arg4 fullShare o ∗ owns (c : Thread nD τ) arg5 fullShare (foldTile a b s)) -∗ K ⟨⟩))
      ⊢ wp frame (wpE (defs₀ (F := F)) Variants.none c none) E (cc0__min_dist_kernel i arg2 harg2 arg3 harg3 arg4 harg4 arg5 harg5) K := by
  simp only [cc0__min_dist_kernel_eq_skeleton]; unfold cc0__min_dist_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (cover_whole _ _), View.canon_cons_unit_zero (S := S4x1024) off_zero2]
  simp only [View.readAt_eq_ld, View.readCov_unit_zero (S := S4x1024) _ off_zero2, harg2.read_unread, harg3.read_unread, harg5.read_unread, View.ld_unit_zero (S := S4x1024) off_zero2, View.ld_unit_zero (S := S4x1024x3) off_zero3a, View.ld_unit_zero (S := S4x512x3) off_zero3b]
  rfl

set_option maxHeartbeats 2000000 in
/-- A row's first column: whatever the scratch held, it ends at `seedTile a b`; the output's buffer is handed back as
    found. -/
theorem body_first (c : Dev nD) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (h1 : firstCol i) (h2 : ¬ lastCol i)
    (a : Vec F S4x1024x3 .f32) (b : Vec F S4x512x3 .f32) (o : Vec F S4x1024 .f32) (E : Set ℕ) (K : PUnit → sProp 𝕄) :
    iprop(owns (c : Thread nD τ) arg2 fullShare a ∗ owns (c : Thread nD τ) arg3 fullShare b ∗ owns (c : Thread nD τ) arg4 fullShare o ∗ (∃ d, owns (c : Thread nD τ) arg5 fullShare d)
        ∗ (iprop(owns (c : Thread nD τ) arg2 fullShare a ∗ owns (c : Thread nD τ) arg3 fullShare b ∗ owns (c : Thread nD τ) arg4 fullShare o ∗ owns (c : Thread nD τ) arg5 fullShare (seedTile a b)) -∗ K ⟨⟩))
      ⊢ wp frame (wpE (defs₀ (F := F)) Variants.none c none) E (cc0__min_dist_kernel i arg2 harg2 arg3 harg3 arg4 harg4 arg5 harg5) K := by
  simp only [cc0__min_dist_kernel_eq_skeleton]; unfold cc0__min_dist_kernel_skel
  unfold owns
  iintro ⟨⟨%f2, %hf2, H2⟩, ⟨%f3, %hf3, H3⟩, ⟨%f4, %hf4, H4⟩, ⟨%d5, %f5, -, H5⟩, Hk⟩
  obtain rfl := harg2.eq_unread hf2; obtain rfl := harg3.eq_unread hf3; obtain rfl := harg4.eq_unread hf4
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (cover_whole _ _), View.canon_cons_unit_zero (S := S4x1024) off_zero2]
  simp only [View.readAt_eq_ld, View.readCov_unit_zero (S := S4x1024) _ off_zero2, harg2.read_unread, harg3.read_unread, View.ld_unit_zero (S := S4x1024) off_zero2, View.ld_unit_zero (S := S4x1024x3) off_zero3a, View.ld_unit_zero (S := S4x512x3) off_zero3b]
  rfl

set_option maxHeartbeats 2000000 in
/-- A row's last column: the running minimum `s` becomes `foldTile a b s`, and the output's buffer, whatever it held,
    ends holding the same. -/
theorem body_last (c : Dev nD) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (h1 : ¬ firstCol i) (h2 : lastCol i)
    (a : Vec F S4x1024x3 .f32) (b : Vec F S4x512x3 .f32) (s : Vec F S4x1024 .f32) (E : Set ℕ) (K : PUnit → sProp 𝕄) :
    iprop(owns (c : Thread nD τ) arg2 fullShare a ∗ owns (c : Thread nD τ) arg3 fullShare b ∗ (∃ d, owns (c : Thread nD τ) arg4 fullShare d) ∗ owns (c : Thread nD τ) arg5 fullShare s
        ∗ (iprop(owns (c : Thread nD τ) arg2 fullShare a ∗ owns (c : Thread nD τ) arg3 fullShare b ∗ owns (c : Thread nD τ) arg4 fullShare (foldTile a b s) ∗ owns (c : Thread nD τ) arg5 fullShare (foldTile a b s)) -∗ K ⟨⟩))
      ⊢ wp frame (wpE (defs₀ (F := F)) Variants.none c none) E (cc0__min_dist_kernel i arg2 harg2 arg3 harg3 arg4 harg4 arg5 harg5) K := by
  simp only [cc0__min_dist_kernel_eq_skeleton]; unfold cc0__min_dist_kernel_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3; obtain rfl := harg5.eq_unread hf5
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_words
    rw [View.read_writes_eq_canon _ _ _ (cover_whole _ _), View.canon_cons_unit_zero (S := S4x1024) off_zero2]
    simp only [View.readAt_eq_ld, View.readCov_unit_zero (S := S4x1024) _ off_zero2, harg2.read_unread, harg3.read_unread, harg5.read_unread, View.ld_unit_zero (S := S4x1024) off_zero2, View.ld_unit_zero (S := S4x1024x3) off_zero3a, View.ld_unit_zero (S := S4x512x3) off_zero3b]
    rfl
  iexists _; isplitr
  swap; · iexact H5
  ipureintro
  sl_unfold_words
  rw [View.read_writes_eq_canon _ _ _ (cover_whole _ _), View.canon_cons_unit_zero (S := S4x1024) off_zero2]
  simp only [View.readAt_eq_ld, View.readCov_unit_zero (S := S4x1024) _ off_zero2, harg2.read_unread, harg3.read_unread, harg5.read_unread, View.ld_unit_zero (S := S4x1024) off_zero2, View.ld_unit_zero (S := S4x1024x3) off_zero3a, View.ld_unit_zero (S := S4x512x3) off_zero3b]
  rfl

end Cert.KernelIdeal.Region0

end
-- ==== Proof.Rest0.lean ====
/- This pallas_call's scoped buffers that no window stages: its own scratch, which carries the running minimum between grid
   points, and the other pallas_call's buffers, which it never touches. -/
import proofs.«130135_j23373212024987_1_alg».proof.Proof.Gen.KernelIdeal.Launch
import proofs.«130135_j23373212024987_1_alg».proof.Proof.Gen.KernelIdeal.Skeleton
import proofs.«130135_j23373212024987_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch the kernel carries between points. -/
abbrev scr : Memref sig .tc .vmem S4x1024 .f32 := Memref.whole cc0_scratch0

/-- The core's other scoped buffers, each at some contents. -/
def others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The scoped rest of this pallas_call opens into its scratch and the others, -/
theorem rest_open (c : Dev nD) :
    (Pipeline.scopedRest spec0 c : sProp 𝕄) ⊢ iprop((∃ d, owns (c : Thread nD τ) scr fullShare d) ∗ others (F := F) c) := by
  rw [scopedRest0_eq]; unfold others; simp only [scr, owns_whole]
  iintro ⟨HS, A1, A2, A3, A4, A5, A6, A7⟩
  isplitl [HS]; · iexact HS
  isplitl [A1]; · iexact A1
  isplitl [A2]; · iexact A2
  isplitl [A3]; · iexact A3
  isplitl [A4]; · iexact A4
  isplitl [A5]; · iexact A5
  isplitl [A6]; · iexact A6
  iexact A7

/-- and closes back. -/
theorem rest_close (c : Dev nD) :
    iprop((∃ d, owns (c : Thread nD τ) scr fullShare d) ∗ others (F := F) c) ⊢ (Pipeline.scopedRest spec0 c : sProp 𝕄) := by
  rw [scopedRest0_eq]; unfold others; simp only [scr, owns_whole]
  iintro ⟨HS, A1, A2, A3, A4, A5, A6, A7⟩
  isplitl [HS]; · iexact HS
  isplitl [A1]; · iexact A1
  isplitl [A2]; · iexact A2
  isplitl [A3]; · iexact A3
  isplitl [A4]; · iexact A4
  isplitl [A5]; · iexact A5
  isplitl [A6]; · iexact A6
  iexact A7

end Cert.KernelIdeal.Region0

end
-- ==== Proof.Data0.lean ====
/- This pallas_call's proof data: what each staging buffer and the running-minimum scratch hold point by point,
   and the body's obligation at every grid point.

   Position `n` of the grid is row `n / 16`, column `n % 16`. `accAt V c n` is the running minimum after the point at
   position `n`: seeded at a row's first column, folded over what the column before left otherwise. The output's block
   is written back at a row's last column only, where the body has copied the running minimum into it. -/
import proofs.«130135_j23373212024987_1_alg».proof.Proof.Gen.KernelIdeal.Launch
import proofs.«130135_j23373212024987_1_alg».proof.Proof.Gen.KernelIdeal.Skeleton
import proofs.«130135_j23373212024987_1_alg».proof.Proof.Gen.KernelIdeal.Points
import proofs.«130135_j23373212024987_1_alg».proof.Proof.Body0
import proofs.«130135_j23373212024987_1_alg».proof.Proof.Rest0
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running minimum after the point at position `n`. -/
def accAt (c : Dev nD) : (n : ℕ) → n < cfg0.N → Vec F S4x1024 .f32
  | 0, h => seedTile (blk V c 0 ⟨0, h⟩) (blk V c 1 ⟨0, h⟩)
  | n + 1, h =>
    if (n + 1) % 16 = 0 then seedTile (blk V c 0 ⟨n + 1, h⟩) (blk V c 1 ⟨n + 1, h⟩)
    else foldTile (blk V c 0 ⟨n + 1, h⟩) (blk V c 1 ⟨n + 1, h⟩) (accAt c n (Nat.lt_of_succ_lt h))

theorem accAt_first (c : Dev nD) (t : Fin cfg0.N) (h : t.val % 16 = 0) :
    accAt V c t.val t.isLt = seedTile (blk V c 0 t) (blk V c 1 t) := by
  obtain ⟨n, hn⟩ := t
  cases n with
  | zero => rfl
  | succ n => exact if_pos h

theorem accAt_next (c : Dev nD) (t : Fin cfg0.N) (h : ¬ t.val % 16 = 0) :
    accAt V c t.val t.isLt = foldTile (blk V c 0 t) (blk V c 1 t) (accAt V c (t.val - 1) (Nat.lt_of_le_of_lt (Nat.sub_le _ _) t.isLt)) := by
  obtain ⟨n, hn⟩ := t
  cases n with
  | zero => exact absurd (Nat.zero_mod _) h
  | succ n => exact if_neg h

/-- The invariant before position `n`: before the first point the scoped rest at anything; afterwards the scratch at
    the running minimum the point before left, the other scoped buffers at anything; the generator register at some
    state throughout. -/
def inv (c : Dev nD) : (n : ℕ) → n ≤ cfg0.N → sProp 𝕄
  | 0, _ => Pipeline.ΦA spec0 c
  | n + 1, h => iprop((owns (c : Thread nD τ) scr fullShare (accAt V c n h) ∗ others (F := F) c) ∗ (∃ r, prngReg c r))

theorem inv_zero (c : Dev nD) (n : ℕ) (h : n ≤ cfg0.N) (hz : n = 0) : inv V c n h = Pipeline.ΦA spec0 c := by
  subst hz; rfl

theorem inv_succ (c : Dev nD) (n : ℕ) (hn : n < cfg0.N) :
    inv V c (n + 1) hn = iprop((owns (c : Thread nD τ) scr fullShare (accAt V c n hn) ∗ others (F := F) c) ∗ (∃ r, prngReg c r)) := rfl

theorem inv_pos (c : Dev nD) (n : ℕ) (h : n ≤ cfg0.N) (hz : n ≠ 0) :
    inv V c n h = iprop((owns (c : Thread nD τ) scr fullShare (accAt V c (n - 1) (by omega)) ∗ others (F := F) c) ∗ (∃ r, prngReg c r)) := by
  cases n with
  | zero => exact absurd rfl hz
  | succ n => rfl

/-- The proof data: the arrays as the region finds them; after the body each input's buffer at its block and the
    output's at the running minimum; the invariant `inv`; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => accAt V c t.val t.isLt
  Φ t := inv V c t.val (Nat.le_of_lt_succ t.isLt)
  q _ := fullShare
  owed _ := 0

theorem dat_A (c : Dev nD) (w : Fin cfg0.W) : (dat V c).A w = V c (Pipeline.arrRef spec0 w) := by dsimp only [dat]
theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = accAt V c t.val t.isLt := by dsimp only [dat]
theorem Phi_castSucc (c : Dev nD) (t : Fin cfg0.N) : (dat V c).Φ t.castSucc = inv V c t.val (Nat.le_of_lt t.isLt) := by
  dsimp only [dat]; simp only [Fin.coe_castSucc]

/-- An input's current staging buffer holds its block at every point, fetched there or not. -/
theorem before_0 (c : Dev nD) (t : Fin cfg0.N) (d) : (dat V c).before 0 t d = blk V c 0 t :=
  ((dat V c).before_in_eq_fetched 0 rfl (fun _ => rfl) (fun _ _ _ => rfl) (fun t => by rw [after_0]; unfold Dat.blockOf blk; rw [dat_A]; try rfl) t d).trans
    (by unfold Dat.fetched Dat.blockOf blk; rw [dat_A]; try rfl)
theorem before_1 (c : Dev nD) (t : Fin cfg0.N) (d) : (dat V c).before 1 t d = blk V c 1 t :=
  ((dat V c).before_in_eq_fetched 1 rfl (fun _ => rfl) (fun _ _ _ => rfl) (fun t => by rw [after_1]; unfold Dat.blockOf blk; rw [dat_A]; try rfl) t d).trans
    (by unfold Dat.fetched Dat.blockOf blk; rw [dat_A]; try rfl)

/-- The two tests of the body over the grid, in closed form. -/
theorem firstCol_iff : ∀ t : Fin cfg0.N, firstCol (grid0.coords t) ↔ t.val % 16 = 0 :=
  (by decide +kernel : ∀ t : Fin grid0.N, firstCol (grid0.coords t) ↔ t.val % 16 = 0)
theorem lastCol_iff : ∀ t : Fin cfg0.N, lastCol (grid0.coords t) ↔ t.val % 16 = 15 :=
  (by decide +kernel : ∀ t : Fin grid0.N, lastCol (grid0.coords t) ↔ t.val % 16 = 15)

/-- Where the windows are idle and where the output is written back. -/
theorem live_0 : ∀ t : Fin cfg0.N, cfg0.idle 0 (grid0.coords t) = false := fun _ => rfl
theorem live_1 : ∀ t : Fin cfg0.N, cfg0.idle 1 (grid0.coords t) = false := fun _ => rfl
theorem idle_2 : ∀ t : Fin cfg0.N, ¬ t.val % 16 = 15 → cfg0.idle 2 (grid0.coords t) = true :=
  (by decide +kernel : ∀ t : Fin grid0.N, ¬ t.val % 16 = 15 → cfg0.idle 2 (grid0.coords t) = true)
theorem live_2 : ∀ t : Fin cfg0.N, t.val % 16 = 15 → cfg0.idle 2 (grid0.coords t) = false :=
  (by decide +kernel : ∀ t : Fin grid0.N, t.val % 16 = 15 → cfg0.idle 2 (grid0.coords t) = false)
theorem noFlush_2 (t : Fin cfg0.N) (h : ¬ t.val % 16 = 15) : (cfg0.win 2).flush t = false := by
  cases hf : (cfg0.win 2).flush t
  · rfl
  · exact absurd ((flush0_2 t).mp hf) h

end Cert.KernelIdeal.Region0

end
-- ==== Proof.Oblig0.lean ====
/- This pallas_call's body obligation: at every grid point the body, handed the invariant and the windows'
   current buffers, runs to the invariant of the next point and the buffers at what the proof data state. Three
   kinds of point: a row's first column (the scratch is seeded), a row's last column (the scratch is folded once more
   and copied to the output's buffer, which is then written back), and the columns between. -/
import proofs.«130135_j23373212024987_1_alg».proof.Proof.Gen.KernelIdeal.Launch
import proofs.«130135_j23373212024987_1_alg».proof.Proof.Gen.KernelIdeal.Skeleton
import proofs.«130135_j23373212024987_1_alg».proof.Proof.Gen.KernelIdeal.Points
import proofs.«130135_j23373212024987_1_alg».proof.Proof.Data0
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Region0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = inv V c (t.val + 1) t.isLt from rfl, inv_succ, Phi_castSucc]
  rw [show (dat V c).leavesExact 0 t = owns (c : Thread nD τ) (st0_0 t) fullShare ((dat V c).after 0 t) from by
    unfold Dat.leavesExact; rw [live_0 t], after_0]
  rw [show (dat V c).leavesExact 1 t = owns (c : Thread nD τ) (st0_1 t) fullShare ((dat V c).after 1 t) from by
    unfold Dat.leavesExact; rw [live_1 t], after_1]
  have hN : t.val < 128 := lt_of_lt_of_eq t.isLt (show cfg0.N = 128 from N_0)
  by_cases hl : t.val % 16 = 15
  · -- a row's last column
    have hf : ¬ t.val % 16 = 0 := by omega
    have hz : t.val ≠ 0 := by omega
    rw [show (dat V c).leavesExact 2 t = owns (c : Thread nD τ) (st0_2 t) fullShare ((dat V c).after 2 t) from by
      unfold Dat.leavesExact; rw [live_2 t hl], after_2, accAt_next V c t hf, inv_pos V c _ _ hz]
    iintro ⟨⟨⟨HS, Hoth⟩, Hg⟩, Ho, ⟨%d0, H0⟩, ⟨%d1, H1⟩, ⟨%d2, H2⟩⟩
    iapply (body_last c (grid0.coords t) _ _ _ _ _ _ _ _ (fun h => hf ((firstCol_iff t).mp h)) ((lastCol_iff t).mpr hl) (blk V c 0 t) (blk V c 1 t) _ Set.univ _)
    isplitl [H0]; · iexact H0
    isplitl [H1]; · iexact H1
    isplitl [H2]; · iexists _; iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · rw [Dat.leavesExact_idle (dat V c) 2 t (idle_2 t hl) (noFlush_2 t hl)]
    by_cases hf : t.val % 16 = 0
    · -- a row's first column
      rw [accAt_first V c t hf]
      by_cases hz : t.val = 0
      · rw [inv_zero V c _ _ hz]; unfold Pipeline.ΦA
        iintro ⟨⟨Hrest, Hg⟩, Ho, ⟨%d0, H0⟩, ⟨%d1, H1⟩, ⟨%d2, H2⟩⟩
        have hopen := rest_open (F := F) c
        ihave Hr := hopen $$ Hrest
        icases Hr with ⟨HS, Hoth⟩
        iapply (body_first c (grid0.coords t) _ _ _ _ _ _ _ _ ((firstCol_iff t).mpr hf) (fun h => hl ((lastCol_iff t).mp h)) (blk V c 0 t) (blk V c 1 t) _ Set.univ _)
        isplitl [H0]; · iexact H0
        isplitl [H1]; · iexact H1
        isplitl [H2]; · iexact H2
        isplitl [HS]; · iexact HS
        iintro ⟨H0, H1, H2, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        iexists _; iexact H2
      · rw [inv_pos V c _ _ hz]
        iintro ⟨⟨⟨HS, Hoth⟩, Hg⟩, Ho, ⟨%d0, H0⟩, ⟨%d1, H1⟩, ⟨%d2, H2⟩⟩
        iapply (body_first c (grid0.coords t) _ _ _ _ _ _ _ _ ((firstCol_iff t).mpr hf) (fun h => hl ((lastCol_iff t).mp h)) (blk V c 0 t) (blk V c 1 t) _ Set.univ _)
        isplitl [H0]; · iexact H0
        isplitl [H1]; · iexact H1
        isplitl [H2]; · iexact H2
        isplitl [HS]; · iexists _; iexact HS
        iintro ⟨H0, H1, H2, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        iexists _; iexact H2
    · -- a column between
      have hz : t.val ≠ 0 := fun e => hf (by rw [e])
      rw [accAt_next V c t hf, inv_pos V c _ _ hz]
      iintro ⟨⟨⟨HS, Hoth⟩, Hg⟩, Ho, ⟨%d0, H0⟩, ⟨%d1, H1⟩, ⟨%d2, H2⟩⟩
      iapply (body_mid c (grid0.coords t) _ _ _ _ _ _ _ _ (fun h => hf ((firstCol_iff t).mp h)) (fun h => hl ((lastCol_iff t).mp h)) (blk V c 0 t) (blk V c 1 t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem inv_in (c : Dev nD) : Pipeline.ΦA spec0 c ⊢ (dat V c).Φ 0 := by
  show Pipeline.ΦA spec0 c ⊢ Pipeline.ΦA spec0 c
  exact .rfl

/-- After the last point the invariant gives the scoped rest back, the scratch's contents forgotten. -/
theorem inv_out (c : Dev nD) : (dat V c).Φ (Fin.last cfg0.N) ⊢ Pipeline.ΦA spec0 c := by
  rw [show (dat V c).Φ (Fin.last cfg0.N) = inv V c (Fin.last cfg0.N).val (Nat.le_of_lt_succ (Fin.last cfg0.N).isLt) from rfl,
    inv_pos V c _ _ (by rw [Fin.val_last]; have : cfg0.N = 128 := N_0; omega)]
  unfold Pipeline.ΦA
  iintro ⟨⟨HS, Hoth⟩, Hg⟩
  isplitl [HS Hoth]
  · iapply (rest_close c)
    isplitl [HS]; · iexists _; iexact HS
    iexact Hoth
  iexact Hg

end Cert.KernelIdeal.Region0

end
-- ==== Proof.Body1.lean ====
/- The kernel body at one grid point, as three triples.

   The grid is 8 × 16: row `i` of the grid handles 1024 points of the call's primary cloud (its first operand), column `j`
   512 points of its secondary cloud (its second operand). A scratch buffer carries, along a row of the grid, the running
   minimum of the clamped squared distances: at the row's first column it is seeded with +∞ before the tile's minima are
   folded in, at every other column the tile's minima are folded into what the column before left, and at the row's last
   column the scratch is copied to the output block. `foldTile a b prev` is that fold (the minimum of `prev` and the
   tile's row minima, the tile's distances computed from block `a` of the primary cloud and block `b` of the secondary);
   `seedTile a b` is the fold from +∞. -/
import proofs.«130135_j23373212024987_1_alg».proof.Proof.Gen.KernelIdeal.Launch
import proofs.«130135_j23373212024987_1_alg».proof.Proof.Gen.KernelIdeal.Skeleton
import proofs.«130135_j23373212024987_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column-0 test of the body, on the grid coordinates. -/
abbrev firstCol (i : grid1.Coords) : Prop :=
  (Scalar.cmpi .ne (Scalar.extui (Scalar.cmpi .eq (BitVec.ofNat 32 (i 1).val) 0#32)) 0#32) = 1#1
/-- The last-column test of the body. -/
abbrev lastCol (i : grid1.Coords) : Prop := k1_cond2 i = 1#1

/-- The tile's row minima folded into the running minimum `prev`. -/
def foldTile (a : Vec F S4x1024x3 .f32) (b : Vec F S4x512x3 .f32) (prev : Vec F S4x1024 .f32) : Vec F S4x1024 .f32 :=
  k1_pay1 (k1_pay3 a b) prev
/-- The same from +∞: what a row's first column leaves. -/
def seedTile (a : Vec F S4x1024x3 .f32) (b : Vec F S4x512x3 .f32) : Vec F S4x1024 .f32 :=
  k1_pay1 (k1_pay3 a b) (k1_pay2 (F := F))

theorem off_zero2 : (![0, 0] : Fin S4x1024.rank → Nat) = fun _ => 0 := by
  funext a; match a with | ⟨0, _⟩ => rfl | ⟨1, _⟩ => rfl
theorem off_zero3a : (![0, 0, 0] : Fin S4x1024x3.rank → Nat) = fun _ => 0 := by
  funext a; match a with | ⟨0, _⟩ => rfl | ⟨1, _⟩ => rfl | ⟨2, _⟩ => rfl
theorem off_zero3b : (![0, 0, 0] : Fin S4x512x3.rank → Nat) = fun _ => 0 := by
  funext a; match a with | ⟨0, _⟩ => rfl | ⟨1, _⟩ => rfl | ⟨2, _⟩ => rfl

/-- A whole-buffer store, last, covers the buffer. -/
theorem cover_whole (p : Vec F S4x1024 .f32) (L : List (View.Piece (Elt F) S4x1024 .f32)) (y : S4x1024.Idx) :
    ∃ pc ∈ ((⟨Rect.unit (s := S4x1024) ![0, 0] S4x1024.size inb_S4x1024_S4x1024_0_0, p⟩ : View.Piece (Elt F) S4x1024 .f32) :: L), y ∈ pc.1.set :=
  ⟨_, List.mem_cons_self .., View.mem_set_unit_zero (S := S4x1024) off_zero2 inb_S4x1024_S4x1024_0_0 y⟩

set_option maxHeartbeats 2000000 in
/-- A column that is neither first nor last: the running minimum `s` becomes `foldTile a b s`; the output's buffer is
    handed back as found. -/
theorem body_mid (c : Dev nD) (i : grid1.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (h1 : ¬ firstCol i) (h2 : ¬ lastCol i)
    (a : Vec F S4x1024x3 .f32) (b : Vec F S4x512x3 .f32) (o s : Vec F S4x1024 .f32) (E : Set ℕ) (K : PUnit → sProp 𝕄) :
    iprop(owns (c : Thread nD τ) arg2 fullShare a ∗ owns (c : Thread nD τ) arg3 fullShare b ∗ owns (c : Thread nD τ) arg4 fullShare o ∗ owns (c : Thread nD τ) arg5 fullShare s
        ∗ (iprop(owns (c : Thread nD τ) arg2 fullShare a ∗ owns (c : Thread nD τ) arg3 fullShare b ∗ owns (c : Thread nD τ) arg4 fullShare o ∗ owns (c : Thread nD τ) arg5 fullShare (foldTile a b s)) -∗ K ⟨⟩))
      ⊢ wp frame (wpE (defs₀ (F := F)) Variants.none c none) E (cc1__min_dist_kernel i arg2 harg2 arg3 harg3 arg4 harg4 arg5 harg5) K := by
  simp only [cc1__min_dist_kernel_eq_skeleton]; unfold cc1__min_dist_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2; obtain rfl := harg3.eq_unread hf3; obtain rfl := harg4.eq_unread hf4; obtain rfl := harg5.eq_unread hf5
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (cover_whole _ _), View.canon_cons_unit_zero (S := S4x1024) off_zero2]
  simp only [View.readAt_eq_ld, View.readCov_unit_zero (S := S4x1024) _ off_zero2, harg2.read_unread, harg3.read_unread, harg5.read_unread, View.ld_unit_zero (S := S4x1024) off_zero2, View.ld_unit_zero (S := S4x1024x3) off_zero3a, View.ld_unit_zero (S := S4x512x3) off_zero3b]
  rfl

set_option maxHeartbeats 2000000 in
/-- A row's first column: whatever the scratch held, it ends at `seedTile a b`; the output's buffer is handed back as
    found. -/
theorem body_first (c : Dev nD) (i : grid1.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (h1 : firstCol i) (h2 : ¬ lastCol i)
    (a : Vec F S4x1024x3 .f32) (b : Vec F S4x512x3 .f32) (o : Vec F S4x1024 .f32) (E : Set ℕ) (K : PUnit → sProp 𝕄) :
    iprop(owns (c : Thread nD τ) arg2 fullShare a ∗ owns (c : Thread nD τ) arg3 fullShare b ∗ owns (c : Thread nD τ) arg4 fullShare o ∗ (∃ d, owns (c : Thread nD τ) arg5 fullShare d)
        ∗ (iprop(owns (c : Thread nD τ) arg2 fullShare a ∗ owns (c : Thread nD τ) arg3 fullShare b ∗ owns (c : Thread nD τ) arg4 fullShare o ∗ owns (c : Thread nD τ) arg5 fullShare (seedTile a b)) -∗ K ⟨⟩))
      ⊢ wp frame (wpE (defs₀ (F := F)) Variants.none c none) E (cc1__min_dist_kernel i arg2 harg2 arg3 harg3 arg4 harg4 arg5 harg5) K := by
  simp only [cc1__min_dist_kernel_eq_skeleton]; unfold cc1__min_dist_kernel_skel
  unfold owns
  iintro ⟨⟨%f2, %hf2, H2⟩, ⟨%f3, %hf3, H3⟩, ⟨%f4, %hf4, H4⟩, ⟨%d5, %f5, -, H5⟩, Hk⟩
  obtain rfl := harg2.eq_unread hf2; obtain rfl := harg3.eq_unread hf3; obtain rfl := harg4.eq_unread hf4
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  iexists _; isplitr
  swap; · iexact H5
  ipureintro
  sl_unfold_words
  rw [View.read_writes_eq_canon _ _ _ (cover_whole _ _), View.canon_cons_unit_zero (S := S4x1024) off_zero2]
  simp only [View.readAt_eq_ld, View.readCov_unit_zero (S := S4x1024) _ off_zero2, harg2.read_unread, harg3.read_unread, View.ld_unit_zero (S := S4x1024) off_zero2, View.ld_unit_zero (S := S4x1024x3) off_zero3a, View.ld_unit_zero (S := S4x512x3) off_zero3b]
  rfl

set_option maxHeartbeats 2000000 in
/-- A row's last column: the running minimum `s` becomes `foldTile a b s`, and the output's buffer, whatever it held,
    ends holding the same. -/
theorem body_last (c : Dev nD) (i : grid1.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (h1 : ¬ firstCol i) (h2 : lastCol i)
    (a : Vec F S4x1024x3 .f32) (b : Vec F S4x512x3 .f32) (s : Vec F S4x1024 .f32) (E : Set ℕ) (K : PUnit → sProp 𝕄) :
    iprop(owns (c : Thread nD τ) arg2 fullShare a ∗ owns (c : Thread nD τ) arg3 fullShare b ∗ (∃ d, owns (c : Thread nD τ) arg4 fullShare d) ∗ owns (c : Thread nD τ) arg5 fullShare s
        ∗ (iprop(owns (c : Thread nD τ) arg2 fullShare a ∗ owns (c : Thread nD τ) arg3 fullShare b ∗ owns (c : Thread nD τ) arg4 fullShare (foldTile a b s) ∗ owns (c : Thread nD τ) arg5 fullShare (foldTile a b s)) -∗ K ⟨⟩))
      ⊢ wp frame (wpE (defs₀ (F := F)) Variants.none c none) E (cc1__min_dist_kernel i arg2 harg2 arg3 harg3 arg4 harg4 arg5 harg5) K := by
  simp only [cc1__min_dist_kernel_eq_skeleton]; unfold cc1__min_dist_kernel_skel
  unfold owns
  iintro ⟨⟨%f2, %hf2, H2⟩, ⟨%f3, %hf3, H3⟩, ⟨%d4, %f4, -, H4⟩, ⟨%f5, %hf5, H5⟩, Hk⟩
  obtain rfl := harg2.eq_unread hf2; obtain rfl := harg3.eq_unread hf3; obtain rfl := harg5.eq_unread hf5
  sl_exec (disch := first | exact h1 | exact h2)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    sl_unfold_words
    rw [View.read_writes_eq_canon _ _ _ (cover_whole _ _), View.canon_cons_unit_zero (S := S4x1024) off_zero2]
    simp only [View.readAt_eq_ld, View.readCov_unit_zero (S := S4x1024) _ off_zero2, harg2.read_unread, harg3.read_unread, harg5.read_unread, View.ld_unit_zero (S := S4x1024) off_zero2, View.ld_unit_zero (S := S4x1024x3) off_zero3a, View.ld_unit_zero (S := S4x512x3) off_zero3b]
    rfl
  iexists _; isplitr
  swap; · iexact H5
  ipureintro
  sl_unfold_words
  rw [View.read_writes_eq_canon _ _ _ (cover_whole _ _), View.canon_cons_unit_zero (S := S4x1024) off_zero2]
  simp only [View.readAt_eq_ld, View.readCov_unit_zero (S := S4x1024) _ off_zero2, harg2.read_unread, harg3.read_unread, harg5.read_unread, View.ld_unit_zero (S := S4x1024) off_zero2, View.ld_unit_zero (S := S4x1024x3) off_zero3a, View.ld_unit_zero (S := S4x512x3) off_zero3b]
  rfl

end Cert.KernelIdeal.Region1

end
-- ==== Proof.Rest1.lean ====
/- This pallas_call's scoped buffers that no window stages: its own scratch, which carries the running minimum between grid
   points, and the other pallas_call's buffers, which it never touches. -/
import proofs.«130135_j23373212024987_1_alg».proof.Proof.Gen.KernelIdeal.Launch
import proofs.«130135_j23373212024987_1_alg».proof.Proof.Gen.KernelIdeal.Skeleton
import proofs.«130135_j23373212024987_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scratch the kernel carries between points. -/
abbrev scr : Memref sig .tc .vmem S4x1024 .f32 := Memref.whole cc1_scratch0

/-- The core's other scoped buffers, each at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The scoped rest of this pallas_call opens into its scratch and the others, -/
theorem rest_open (c : Dev nD) :
    (Pipeline.scopedRest spec1 c : sProp 𝕄) ⊢ iprop((∃ d, owns (c : Thread nD τ) scr fullShare d) ∗ others (F := F) c) := by
  rw [scopedRest1_eq]; unfold others; simp only [scr, owns_whole]
  iintro ⟨A0, A1, A2, A3, A4, A5, A6, HS⟩
  isplitl [HS]; · iexact HS
  isplitl [A0]; · iexact A0
  isplitl [A1]; · iexact A1
  isplitl [A2]; · iexact A2
  isplitl [A3]; · iexact A3
  isplitl [A4]; · iexact A4
  isplitl [A5]; · iexact A5
  iexact A6

/-- and closes back. -/
theorem rest_close (c : Dev nD) :
    iprop((∃ d, owns (c : Thread nD τ) scr fullShare d) ∗ others (F := F) c) ⊢ (Pipeline.scopedRest spec1 c : sProp 𝕄) := by
  rw [scopedRest1_eq]; unfold others; simp only [scr, owns_whole]
  iintro ⟨HS, A0, A1, A2, A3, A4, A5, A6⟩
  isplitl [A0]; · iexact A0
  isplitl [A1]; · iexact A1
  isplitl [A2]; · iexact A2
  isplitl [A3]; · iexact A3
  isplitl [A4]; · iexact A4
  isplitl [A5]; · iexact A5
  isplitl [A6]; · iexact A6
  iexact HS

end Cert.KernelIdeal.Region1

end
-- ==== Proof.Data1.lean ====
/- This pallas_call's proof data: what each staging buffer and the running-minimum scratch hold point by point,
   and the body's obligation at every grid point.

   Position `n` of the grid is row `n / 16`, column `n % 16`. `accAt V c n` is the running minimum after the point at
   position `n`: seeded at a row's first column, folded over what the column before left otherwise. The output's block
   is written back at a row's last column only, where the body has copied the running minimum into it. -/
import proofs.«130135_j23373212024987_1_alg».proof.Proof.Gen.KernelIdeal.Launch
import proofs.«130135_j23373212024987_1_alg».proof.Proof.Gen.KernelIdeal.Skeleton
import proofs.«130135_j23373212024987_1_alg».proof.Proof.Gen.KernelIdeal.Points
import proofs.«130135_j23373212024987_1_alg».proof.Proof.Body1
import proofs.«130135_j23373212024987_1_alg».proof.Proof.Rest1
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The running minimum after the point at position `n`. -/
def accAt (c : Dev nD) : (n : ℕ) → n < cfg1.N → Vec F S4x1024 .f32
  | 0, h => seedTile (blk V c 0 ⟨0, h⟩) (blk V c 1 ⟨0, h⟩)
  | n + 1, h =>
    if (n + 1) % 16 = 0 then seedTile (blk V c 0 ⟨n + 1, h⟩) (blk V c 1 ⟨n + 1, h⟩)
    else foldTile (blk V c 0 ⟨n + 1, h⟩) (blk V c 1 ⟨n + 1, h⟩) (accAt c n (Nat.lt_of_succ_lt h))

theorem accAt_first (c : Dev nD) (t : Fin cfg1.N) (h : t.val % 16 = 0) :
    accAt V c t.val t.isLt = seedTile (blk V c 0 t) (blk V c 1 t) := by
  obtain ⟨n, hn⟩ := t
  cases n with
  | zero => rfl
  | succ n => exact if_pos h

theorem accAt_next (c : Dev nD) (t : Fin cfg1.N) (h : ¬ t.val % 16 = 0) :
    accAt V c t.val t.isLt = foldTile (blk V c 0 t) (blk V c 1 t) (accAt V c (t.val - 1) (Nat.lt_of_le_of_lt (Nat.sub_le _ _) t.isLt)) := by
  obtain ⟨n, hn⟩ := t
  cases n with
  | zero => exact absurd (Nat.zero_mod _) h
  | succ n => exact if_neg h

/-- The invariant before position `n`: before the first point the scoped rest at anything; afterwards the scratch at
    the running minimum the point before left, the other scoped buffers at anything; the generator register at some
    state throughout. -/
def inv (c : Dev nD) : (n : ℕ) → n ≤ cfg1.N → sProp 𝕄
  | 0, _ => Pipeline.ΦA spec1 c
  | n + 1, h => iprop((owns (c : Thread nD τ) scr fullShare (accAt V c n h) ∗ others (F := F) c) ∗ (∃ r, prngReg c r))

theorem inv_zero (c : Dev nD) (n : ℕ) (h : n ≤ cfg1.N) (hz : n = 0) : inv V c n h = Pipeline.ΦA spec1 c := by
  subst hz; rfl

theorem inv_succ (c : Dev nD) (n : ℕ) (hn : n < cfg1.N) :
    inv V c (n + 1) hn = iprop((owns (c : Thread nD τ) scr fullShare (accAt V c n hn) ∗ others (F := F) c) ∗ (∃ r, prngReg c r)) := rfl

theorem inv_pos (c : Dev nD) (n : ℕ) (h : n ≤ cfg1.N) (hz : n ≠ 0) :
    inv V c n h = iprop((owns (c : Thread nD τ) scr fullShare (accAt V c (n - 1) (by omega)) ∗ others (F := F) c) ∗ (∃ r, prngReg c r)) := by
  cases n with
  | zero => exact absurd rfl hz
  | succ n => rfl

/-- The proof data: the arrays as the region finds them; after the body each input's buffer at its block and the
    output's at the running minimum; the invariant `inv`; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => accAt V c t.val t.isLt
  Φ t := inv V c t.val (Nat.le_of_lt_succ t.isLt)
  q _ := fullShare
  owed _ := 0

theorem dat_A (c : Dev nD) (w : Fin cfg1.W) : (dat V c).A w = V c (Pipeline.arrRef spec1 w) := by dsimp only [dat]
theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = accAt V c t.val t.isLt := by dsimp only [dat]
theorem Phi_castSucc (c : Dev nD) (t : Fin cfg1.N) : (dat V c).Φ t.castSucc = inv V c t.val (Nat.le_of_lt t.isLt) := by
  dsimp only [dat]; simp only [Fin.coe_castSucc]

/-- An input's current staging buffer holds its block at every point, fetched there or not. -/
theorem before_0 (c : Dev nD) (t : Fin cfg1.N) (d) : (dat V c).before 0 t d = blk V c 0 t :=
  ((dat V c).before_in_eq_fetched 0 rfl (fun _ => rfl) (fun _ _ _ => rfl) (fun t => by rw [after_0]; unfold Dat.blockOf blk; rw [dat_A]; try rfl) t d).trans
    (by unfold Dat.fetched Dat.blockOf blk; rw [dat_A]; try rfl)
theorem before_1 (c : Dev nD) (t : Fin cfg1.N) (d) : (dat V c).before 1 t d = blk V c 1 t :=
  ((dat V c).before_in_eq_fetched 1 rfl (fun _ => rfl) (fun _ _ _ => rfl) (fun t => by rw [after_1]; unfold Dat.blockOf blk; rw [dat_A]; try rfl) t d).trans
    (by unfold Dat.fetched Dat.blockOf blk; rw [dat_A]; try rfl)

/-- The two tests of the body over the grid, in closed form. -/
theorem firstCol_iff : ∀ t : Fin cfg1.N, firstCol (grid1.coords t) ↔ t.val % 16 = 0 :=
  (by decide +kernel : ∀ t : Fin grid1.N, firstCol (grid1.coords t) ↔ t.val % 16 = 0)
theorem lastCol_iff : ∀ t : Fin cfg1.N, lastCol (grid1.coords t) ↔ t.val % 16 = 15 :=
  (by decide +kernel : ∀ t : Fin grid1.N, lastCol (grid1.coords t) ↔ t.val % 16 = 15)

/-- Where the windows are idle and where the output is written back. -/
theorem live_0 : ∀ t : Fin cfg1.N, cfg1.idle 0 (grid1.coords t) = false := fun _ => rfl
theorem live_1 : ∀ t : Fin cfg1.N, cfg1.idle 1 (grid1.coords t) = false := fun _ => rfl
theorem idle_2 : ∀ t : Fin cfg1.N, ¬ t.val % 16 = 15 → cfg1.idle 2 (grid1.coords t) = true :=
  (by decide +kernel : ∀ t : Fin grid1.N, ¬ t.val % 16 = 15 → cfg1.idle 2 (grid1.coords t) = true)
theorem live_2 : ∀ t : Fin cfg1.N, t.val % 16 = 15 → cfg1.idle 2 (grid1.coords t) = false :=
  (by decide +kernel : ∀ t : Fin grid1.N, t.val % 16 = 15 → cfg1.idle 2 (grid1.coords t) = false)
theorem noFlush_2 (t : Fin cfg1.N) (h : ¬ t.val % 16 = 15) : (cfg1.win 2).flush t = false := by
  cases hf : (cfg1.win 2).flush t
  · rfl
  · exact absurd ((flush1_2 t).mp hf) h

end Cert.KernelIdeal.Region1

end
-- ==== Proof.Oblig1.lean ====
/- This pallas_call's body obligation: at every grid point the body, handed the invariant and the windows'
   current buffers, runs to the invariant of the next point and the buffers at what the proof data state. Three
   kinds of point: a row's first column (the scratch is seeded), a row's last column (the scratch is folded once more
   and copied to the output's buffer, which is then written back), and the columns between. -/
import proofs.«130135_j23373212024987_1_alg».proof.Proof.Gen.KernelIdeal.Launch
import proofs.«130135_j23373212024987_1_alg».proof.Proof.Gen.KernelIdeal.Skeleton
import proofs.«130135_j23373212024987_1_alg».proof.Proof.Gen.KernelIdeal.Points
import proofs.«130135_j23373212024987_1_alg».proof.Proof.Data1
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Region1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).owesAt () t.succ = (dat V c).owesAt () t.castSucc from rfl]
  rw [show (dat V c).Φ t.succ = inv V c (t.val + 1) t.isLt from rfl, inv_succ, Phi_castSucc]
  rw [show (dat V c).leavesExact 0 t = owns (c : Thread nD τ) (st1_0 t) fullShare ((dat V c).after 0 t) from by
    unfold Dat.leavesExact; rw [live_0 t], after_0]
  rw [show (dat V c).leavesExact 1 t = owns (c : Thread nD τ) (st1_1 t) fullShare ((dat V c).after 1 t) from by
    unfold Dat.leavesExact; rw [live_1 t], after_1]
  have hN : t.val < 128 := lt_of_lt_of_eq t.isLt (show cfg1.N = 128 from N_1)
  by_cases hl : t.val % 16 = 15
  · -- a row's last column
    have hf : ¬ t.val % 16 = 0 := by omega
    have hz : t.val ≠ 0 := by omega
    rw [show (dat V c).leavesExact 2 t = owns (c : Thread nD τ) (st1_2 t) fullShare ((dat V c).after 2 t) from by
      unfold Dat.leavesExact; rw [live_2 t hl], after_2, accAt_next V c t hf, inv_pos V c _ _ hz]
    iintro ⟨⟨⟨HS, Hoth⟩, Hg⟩, Ho, ⟨%d0, H0⟩, ⟨%d1, H1⟩, ⟨%d2, H2⟩⟩
    iapply (body_last c (grid1.coords t) _ _ _ _ _ _ _ _ (fun h => hf ((firstCol_iff t).mp h)) ((lastCol_iff t).mpr hl) (blk V c 0 t) (blk V c 1 t) _ Set.univ _)
    isplitl [H0]; · iexact H0
    isplitl [H1]; · iexact H1
    isplitl [H2]; · iexists _; iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · rw [Dat.leavesExact_idle (dat V c) 2 t (idle_2 t hl) (noFlush_2 t hl)]
    by_cases hf : t.val % 16 = 0
    · -- a row's first column
      rw [accAt_first V c t hf]
      by_cases hz : t.val = 0
      · rw [inv_zero V c _ _ hz]; unfold Pipeline.ΦA
        iintro ⟨⟨Hrest, Hg⟩, Ho, ⟨%d0, H0⟩, ⟨%d1, H1⟩, ⟨%d2, H2⟩⟩
        have hopen := rest_open (F := F) c
        ihave Hr := hopen $$ Hrest
        icases Hr with ⟨HS, Hoth⟩
        iapply (body_first c (grid1.coords t) _ _ _ _ _ _ _ _ ((firstCol_iff t).mpr hf) (fun h => hl ((lastCol_iff t).mp h)) (blk V c 0 t) (blk V c 1 t) _ Set.univ _)
        isplitl [H0]; · iexact H0
        isplitl [H1]; · iexact H1
        isplitl [H2]; · iexact H2
        isplitl [HS]; · iexact HS
        iintro ⟨H0, H1, H2, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        iexists _; iexact H2
      · rw [inv_pos V c _ _ hz]
        iintro ⟨⟨⟨HS, Hoth⟩, Hg⟩, Ho, ⟨%d0, H0⟩, ⟨%d1, H1⟩, ⟨%d2, H2⟩⟩
        iapply (body_first c (grid1.coords t) _ _ _ _ _ _ _ _ ((firstCol_iff t).mpr hf) (fun h => hl ((lastCol_iff t).mp h)) (blk V c 0 t) (blk V c 1 t) _ Set.univ _)
        isplitl [H0]; · iexact H0
        isplitl [H1]; · iexact H1
        isplitl [H2]; · iexact H2
        isplitl [HS]; · iexists _; iexact HS
        iintro ⟨H0, H1, H2, HS⟩
        isplitl [HS Hoth Hg]
        · isplitl [HS Hoth]
          · isplitl [HS]; · iexact HS
            iexact Hoth
          iexact Hg
        isplitl [Ho]; · iexact Ho
        isplitl [H0]; · iexact H0
        isplitl [H1]; · iexact H1
        iexists _; iexact H2
    · -- a column between
      have hz : t.val ≠ 0 := fun e => hf (by rw [e])
      rw [accAt_next V c t hf, inv_pos V c _ _ hz]
      iintro ⟨⟨⟨HS, Hoth⟩, Hg⟩, Ho, ⟨%d0, H0⟩, ⟨%d1, H1⟩, ⟨%d2, H2⟩⟩
      iapply (body_mid c (grid1.coords t) _ _ _ _ _ _ _ _ (fun h => hf ((firstCol_iff t).mp h)) (fun h => hl ((lastCol_iff t).mp h)) (blk V c 0 t) (blk V c 1 t) _ _ Set.univ _)
      isplitl [H0]; · iexact H0
      isplitl [H1]; · iexact H1
      isplitl [H2]; · iexact H2
      isplitl [HS]; · iexact HS
      iintro ⟨H0, H1, H2, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem inv_in (c : Dev nD) : Pipeline.ΦA spec1 c ⊢ (dat V c).Φ 0 := by
  show Pipeline.ΦA spec1 c ⊢ Pipeline.ΦA spec1 c
  exact .rfl

/-- After the last point the invariant gives the scoped rest back, the scratch's contents forgotten. -/
theorem inv_out (c : Dev nD) : (dat V c).Φ (Fin.last cfg1.N) ⊢ Pipeline.ΦA spec1 c := by
  rw [show (dat V c).Φ (Fin.last cfg1.N) = inv V c (Fin.last cfg1.N).val (Nat.le_of_lt_succ (Fin.last cfg1.N).isLt) from rfl,
    inv_pos V c _ _ (by rw [Fin.val_last]; have : cfg1.N = 128 := N_1; omega)]
  unfold Pipeline.ΦA
  iintro ⟨⟨HS, Hoth⟩, Hg⟩
  isplitl [HS Hoth]
  · iapply (rest_close c)
    isplitl [HS]; · iexists _; iexact HS
    iexact Hoth
  iexact Hg

end Cert.KernelIdeal.Region1

end
-- ==== Proof.Frames.lean ====
/- The program's run as two kernel regions and a stretch of host operations: each region's record over the proof data
   of its pallas_call, the buffer contents between the items named, and the frame claim (the argument arrays end as
   launched).

   Between the items core `c` holds every unscoped buffer whole: at launch the memory `m`; after the first region the
   same with `main_v0` at what the first pipeline's write-backs leave (`out0`); after the second also `main_v1` at
   what the second's leave (`out1`). Beside the buffers rides the generator register at some state and the core owing
   nothing. Each region takes its pipeline's arrays out of the unscoped buffers at entry and puts them back at exit; its
   invariant takes the scoped rest and the register in and gives them back. -/
import proofs.«130135_j23373212024987_1_alg».proof.Proof.Gen.KernelIdeal.Launch
import proofs.«130135_j23373212024987_1_alg».proof.Proof.Gen.KernelIdeal.Skeleton
import proofs.«130135_j23373212024987_1_alg».proof.Proof.Gen.KernelIdeal.Points
import proofs.«130135_j23373212024987_1_alg».proof.Proof.Oblig0
import proofs.«130135_j23373212024987_1_alg».proof.Proof.Oblig1
import proofs.«130135_j23373212024987_1_alg».proof.Proof.Gen.KernelIdeal.Regions
import Idealize.ShloMosaic.Lib.Pipeline.RegionsLoop
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents between the items -/

/-- The first region's entry contents: the launch memory. -/
abbrev E0 (c : Dev nD) (b : Ref sig .tc) : Buf (Elt F) ((c : Thread nD τ).loc b) := Gen.V0 m c b
/-- What the first region leaves in `main_v0`. -/
def out0 (c : Dev nD) : Buf (Elt F) ((c : Thread nD τ).loc main_v0) := (Region0.dat (E0 m) c).arrAt 2 cfg0.N
/-- The buffers after the first region. -/
def W1 (c : Dev nD) : Valuation τ sig (Elt F) := Function.update (Gen.V0 m c) main_v0 (out0 m c)
/-- The second region's entry contents. -/
abbrev E1 (c : Dev nD) (b : Ref sig .tc) : Buf (Elt F) ((c : Thread nD τ).loc b) := W1 m c b
/-- What the second region leaves in `main_v1`. -/
def out1 (c : Dev nD) : Buf (Elt F) ((c : Thread nD τ).loc main_v1) := (Region1.dat (E1 m) c).arrAt 2 cfg1.N
/-- The buffers after the second region. -/
def W2 (c : Dev nD) : Valuation τ sig (Elt F) := Function.update (W1 m c) main_v1 (out1 m c)

/-- What the regions leave, as the generated conditional frame takes it. -/
def outs : Gen.Outs (F := F) := fun _ r c => W2 m c r

theorem ne_v0_v1 : (Proc.devRef .tc main_v0 : DevRef τ sig) ≠ Proc.devRef .tc main_v1 := StableHlo.devRef_ne_of_ne (by decide)

theorem outs_v0 (c : Dev nD) : outs m 1 main_v0 c = out0 m c := by
  show W2 m c main_v0 = _
  unfold W2; rw [Function.update_of_ne ne_v0_v1]; unfold W1; rw [Function.update_self]
theorem outs_v1 (c : Dev nD) : outs m 2 main_v1 c = out1 m c := by
  show W2 m c main_v1 = _
  unfold W2; rw [Function.update_self]

theorem V1_eq (c : Dev nD) : Gen.V1 m (outs m) c = W1 m c := by
  show Function.update (Gen.V0 m c) main_v0 (outs m 1 main_v0 c) = _
  rw [outs_v0]; rfl
theorem V2_eq (c : Dev nD) : Gen.V2 m (outs m) c = W2 m c := by
  show Function.update (Gen.V1 m (outs m) c) main_v1 (outs m 2 main_v1 c) = _
  rw [outs_v1, V1_eq]; rfl

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => Region0.dat (E0 m) c
  | ⟨1, _⟩ => fun c => Region1.dat (E1 m) c

/-- No core owes another anything: no level is assigned. -/
abbrev L : GSem nD τ sig → Finset Unit := fun _ => ∅
abbrev lv : GSem nD τ sig → Unit → ℕ := fun _ _ => 0
/-- What rides beside the buffers: the generator register at some state, the core owing nothing. -/
abbrev R (c : Dev nD) : sProp 𝕄 := iprop((∃ r, prngReg c r) ∗ ∃ W, owes (c : Thread nD τ) (0 : CellTallies nD τ sig Unit) W)

/-! ## The arrays at each region's exit -/

theorem exit0_arr (c : Dev nD) (w : Fin cfg0.W) : (Region0.dat (E0 m) c).arrAt w cfg0.N = E1 m c (Pipeline.arrRef spec0 w) := by
  match w with
  | ⟨0, _⟩ =>
    refine ((Region0.dat (E0 m) c).arrAt_in 0 rfl _).trans ((Region0.dat_A (E0 m) c 0).trans ?_)
    exact (Function.update_of_ne (StableHlo.devRef_ne_of_ne (by decide) : (Proc.devRef .tc main_arg0 : DevRef τ sig) ≠ Proc.devRef .tc main_v0) _ _).symm
  | ⟨1, _⟩ =>
    refine ((Region0.dat (E0 m) c).arrAt_in 1 rfl _).trans ((Region0.dat_A (E0 m) c 1).trans ?_)
    exact (Function.update_of_ne (StableHlo.devRef_ne_of_ne (by decide) : (Proc.devRef .tc main_arg1 : DevRef τ sig) ≠ Proc.devRef .tc main_v0) _ _).symm
  | ⟨2, _⟩ =>
    show out0 m c = Function.update (Gen.V0 m c) (Proc.devRef .tc main_v0 : DevRef τ sig) (out0 m c) (Proc.devRef .tc main_v0)
    rw [Function.update_self]
theorem exit0_rest (c : Dev nD) : ∀ b, b ∉ Finset.univ.image (Pipeline.arrRef spec0) → E1 m c b = E0 m c b := fun b hb =>
  Function.update_of_ne (StableHlo.devRef_ne_of_ne fun e => hb (Finset.mem_image.mpr ⟨2, Finset.mem_univ _, e.symm⟩)) _ _

theorem exit1_arr (c : Dev nD) (w : Fin cfg1.W) : (Region1.dat (E1 m) c).arrAt w cfg1.N = W2 m c (Pipeline.arrRef spec1 w) := by
  match w with
  | ⟨0, _⟩ =>
    refine ((Region1.dat (E1 m) c).arrAt_in 0 rfl _).trans ((Region1.dat_A (E1 m) c 0).trans ?_)
    exact (Function.update_of_ne (StableHlo.devRef_ne_of_ne (by decide) : (Proc.devRef .tc main_arg1 : DevRef τ sig) ≠ Proc.devRef .tc main_v1) _ _).symm
  | ⟨1, _⟩ =>
    refine ((Region1.dat (E1 m) c).arrAt_in 1 rfl _).trans ((Region1.dat_A (E1 m) c 1).trans ?_)
    exact (Function.update_of_ne (StableHlo.devRef_ne_of_ne (by decide) : (Proc.devRef .tc main_arg0 : DevRef τ sig) ≠ Proc.devRef .tc main_v1) _ _).symm
  | ⟨2, _⟩ =>
    show out1 m c = Function.update (W1 m c) (Proc.devRef .tc main_v1 : DevRef τ sig) (out1 m c) (Proc.devRef .tc main_v1)
    rw [Function.update_self]
theorem exit1_rest (c : Dev nD) : ∀ b, b ∉ Finset.univ.image (Pipeline.arrRef spec1) → W2 m c b = E1 m c b := fun b hb =>
  Function.update_of_ne (StableHlo.devRef_ne_of_ne fun e => hb (Finset.mem_image.mpr ⟨2, Finset.mem_univ _, e.symm⟩)) _ _

/-! ## The regions as segments -/

set_option backward.isDefEq.respectTransparency.types false in
/-- The first region: entered from the launch memory, left at `W1`. -/
def reg0 : Pipeline.RegionSeg (pcfgs (F := F)) Gen.adm (pdats m) () defs₀ Variants.none L lv 0 where
  win := launch0.win.to₀
  block_pos := launch0.block_pos
  stage_whole := launch0.stage_whole
  K := PEmpty
  osem k := k.elim
  ho := Pipeline.OwnSemFacts.none _
  hbody c := (Region0.body_obligation (E0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Region0.inv_in (E0 m) c)
    unfold Pipeline.ΦA
    iintro ⟨Hp, -, Hr⟩
    isplitl [Hr]; · iexact Hr
    iexact Hp
  hout c := by
    rw [Pipeline.ownSems0_none]
    refine (Region0.inv_out (E0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from `W1`, left at `W2`. -/
def reg1 : Pipeline.RegionSeg (pcfgs (F := F)) Gen.adm (pdats m) () defs₀ Variants.none L lv 1 where
  win := launch1.win.to₀
  block_pos := launch1.block_pos
  stage_whole := launch1.stage_whole
  K := PEmpty
  osem k := k.elim
  ho := Pipeline.OwnSemFacts.none _
  hbody c := (Region1.body_obligation (E1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Region1.inv_in (E1 m) c)
    unfold Pipeline.ΦA
    iintro ⟨Hp, -, Hr⟩
    isplitl [Hr]; · iexact Hr
    iexact Hp
  hout c := by
    rw [Pipeline.ownSems0_none]
    refine (Region1.inv_out (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (E1 m c) (fun b => W2 m c b) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## What the launch deals and what the end owes -/

/-- The launch's ghost state: the pipelines' cells and nothing else. -/
theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- On one core: the register and the empty debt out of what the launch hands it. -/
theorem rides_of_launch (ρ : Dev nD → PrngReg) (c : Dev nD) :
    iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))
      ⊢ (R (F := F) c : sProp 𝕄) := by
  iintro ⟨-, HO, -, Hp, -⟩
  isplitl [Hp]; · iexists _; iexact Hp
  iexists ∅; iexact HO

/-- What rides beside the buffers, made on every core from what the launch hands it. -/
theorem launch_rides (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (fun c : Dev nD => R (F := F) c) : sProp 𝕄) :=
    bigSep_mono fun c _ => rides_of_launch ρ c
  iintro ⟨H, -⟩
  imodintro
  iapply hmono; iexact H

/-! ## The frame -/

set_option backward.isDefEq.respectTransparency.types false in
/-- Every weakly fair execution of @main from memory `m` with zero counters terminates, nothing faulting, and each
    argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond (F := F) m emb₁ () Variants.none L lv (fun _ _ => rfl) ρ (outs m) (pdats m) 0 (fun _ => iprop(emp))
    (initOf (Pipeline.cells cfgs cellOf_inj) (Pipeline.launchToks cfgs cellOf_inj)) launch_ghost
    (fun _ c => R c) (launch_rides ρ) (fun c => by iintro ⟨-, HO⟩; iexact HO)
    (reg0 m) (fun _ => .rfl) (fun c => by rw [V1_eq]; exact .rfl)
    (reg1 m) (fun c => by rw [V1_eq]; exact .rfl) (fun c => by rw [V2_eq]; exact .rfl)

end Cert.KernelIdeal.Frames

end
-- ==== Proof.Spec.lean ====
/- The mathematics both programs compute, over the extended reals.

   Two clouds of 4 × 8192 points in three coordinates, `x` and `y`. For a point `n` of the first and a point `m` of the
   second (in the same batch `b`) the clamped squared distance is
       sqd x y b n m = max ((|x_n|² + |y_m|²) − 2 · ⟨x_n, y_m⟩) 0,
   the squared norm a sum over the three coordinates and the inner product the three products added left to right.
   `nearest x y` is, for every point of `x`, the least such distance to a point of `y`; the result is the mean of
   `nearest x y` plus the mean of `nearest y x` (each mean a sum over all 4 × 8192 entries divided by 32768). -/
import Idealize.ShloMosaic.PureOps.Ideal
import Idealize.ShloMosaic.Lib.ValueIdx

noncomputable section

namespace Cert.Spec

open Idealize.ShloMosaic Idealize.ShloMosaic.ValueIdx

/-- A cloud: 4 batches of 8192 points of 3 coordinates. -/
abbrev SPts : Shape := ⟨3, ![4, 8192, 3]⟩
/-- One number per point. -/
abbrev SRow : Shape := ⟨2, ![4, 8192]⟩
/-- One number. -/
abbrev SOne : Shape := ⟨0, ![]⟩

abbrev Pts : Type := SPts.Idx → EReal
abbrev Row : Type := SRow.Idx → EReal

/-- The literal 2.0 and the literal 0.0 as the programs spell them. -/
abbrev two : EReal := Ideal.ofBits .f32 0x40000000#32
abbrev zero : EReal := Ideal.ofBits .f32 0x00000000#32

/-- |x_n|²: the three squares summed. -/
def sq (x : Pts) (b : Fin 4) (n : Fin 8192) : EReal := ∑ d : Fin 3, x (ix3 b n d) * x (ix3 b n d)

/-- ⟨x_n, y_m⟩: the three products, added left to right. -/
def dot (x y : Pts) (b : Fin 4) (n m : Fin 8192) : EReal :=
  x (ix3 b n 0) * y (ix3 b m 0) + x (ix3 b n 1) * y (ix3 b m 1) + x (ix3 b n 2) * y (ix3 b m 2)

/-- The clamped squared distance between point `n` of `x` and point `m` of `y`. -/
def sqd (x y : Pts) (b : Fin 4) (n m : Fin 8192) : EReal := max ((sq x b n + sq y b m) - two * dot x y b n m) zero

/-- For each point of `x`, the least clamped squared distance to a point of `y`. -/
def nearest (x y : Pts) : Row := fun j => Finset.univ.inf fun m : Fin 8192 => sqd x y (j 0) (j 1) m

theorem nearest_apply (x y : Pts) (b : Fin 4) (n : Fin 8192) :
    nearest x y (ix2 b n) = Finset.univ.inf fun m : Fin 8192 => sqd x y b n m := rfl

/-- The two means added: the host lines both programs end with, as one function of the two rows of distances. The
    shape facts are arguments so that each program's own witnesses fit (any two are equal). -/
def loss (h : SRow.ReducesTo [0, 1] SOne) (hu : 0 < SOne.numel) (d1 d2 : Row) : SOne.Idx → EReal :=
  addf (F := Ideal) (φ := .f32)
    (Host.divf (F := Ideal) (φ := .f32) (Host.reduceAdd (F := Ideal) (φ := .f32) d1 (constant (F := Ideal) SOne .f32 0x00000000#32) h hu) (constant (F := Ideal) SOne .f32 0x47000000#32))
    (Host.divf (F := Ideal) (φ := .f32) (Host.reduceAdd (F := Ideal) (φ := .f32) d2 (constant (F := Ideal) SOne .f32 0x00000000#32) h hu) (constant (F := Ideal) SOne .f32 0x47000000#32))

end Cert.Spec

end
-- ==== Proof.HostRun.lean ====
/- The idealized kernel program's run with its result named.

   @main is two kernel regions, each leaving one row of distances (one number per point of a cloud), followed by nine
   host operations: each row is summed over all its 4 × 8192 entries from the literal 0, the sum divided by the literal
   32768, and the two quotients added. This module reads the last buffer after those nine operations as that function
   of the two rows, and states the program's run with the result buffer's final contents beside the unchanged
   arguments, given one segment record per kernel region. -/
import proofs.«130135_j23373212024987_1_alg».proof.Proof.Gen.KernelIdeal.Regions
import proofs.«130135_j23373212024987_1_alg».proof.Proof.Spec

noncomputable section

namespace Cert.KernelIdeal.HostRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

/-! ## The result buffer after the host operations -/

/-- The last buffer after the nine host operations: the mean of what region 0 left in its row plus the mean of what
    region 1 left in its row. Each operation's result is its function of its operands' contents; the two rows are
    read off the valuation the regions leave, where each is the region's own unknown. -/
theorem V3_main_v6 (m : (ℓ : Loc nD τ sig) → Buf (Elt Ideal) ℓ) (outs : Outs (F := Ideal)) (c : Dev nD) :
    V3 (F := Ideal) m outs c main_v6
      = Cert.Spec.loss reducesTo_S4x8192_S_d0_1 h_S_ (outs 1 main_v0 c) (outs 2 main_v1 c) := by
  show StableHlo.after hostOps2 _ (Proc.devRef .tc main_v6) = _
  after_results
  -- region 1's row is the last update of the valuation; region 0's row is the update before it, which the last passes by
  have h1 : V2 (F := Ideal) m outs c main_v1 = outs 2 main_v1 c := Function.update_self ..
  have h0 : V2 (F := Ideal) m outs c main_v0 = outs 1 main_v0 c :=
    (V2_of m outs c main_v0 (by decide)).trans (Function.update_self ..)
  rw [h0, h1]
  rfl

/-! ## The run, given the regions' records -/

set_option backward.isDefEq.respectTransparency.types false in
/-- THE CONDITIONAL RUN. Under the hypotheses of the conditional frame (any user algebra, level assignment, launch dues
    and ghost resources, rest states the launch makes on every core at once and that end owing nothing, any contents the
    regions leave, and per region a segment record entered from the thread state before it and left at the one after
    it), every weakly fair execution of @main from memory `m` with zero counters terminates, and every final memory
    holds in the result buffer what the last valuation holds there, and each argument as launched. The final state's
    unscoped buffers are all read off the last valuation; the result buffer is one of them. -/
theorem run_cond {Ix : Type} [DecidableEq Ix] {U : Type} [URA U] {Lvl : Type} [Preorder Lvl]
    (m : (ℓ : Loc nD τ sig) → Buf (Elt Ideal) ℓ)
    (EP : Emb (URounds (GSem nD τ sig) Unit) (MT nD τ sig Ix (Elt Ideal) ℕ U Lvl)) [EP.LandsIn (upEmb : UEmb _ (MT nD τ sig Ix (Elt Ideal) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := Ideal))
    (pdats : (p : Fin 2) → (c : Dev nD) → Dat τ (Elt Ideal) Ix ℕ U Lvl (cfgs p) c)
    (O₀ : Dev nD → CellTallies nD τ sig Ix) (G : Dev nD → sProp (MT nD τ sig Ix (Elt Ideal) ℕ U Lvl)) (u₀ : U)
    (hu₀ : (ownU u₀ : sProp (MT nD τ sig Ix (Elt Ideal) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt Ideal) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt Ideal) ℕ U Lvl)))
    (hE2 : ∀ c : Dev nD, E 2 c ⊢ (iprop(∃ W, owes (c : Thread nD τ) (0 : CellTallies nD τ sig Ix) W) : sProp (MT nD τ sig Ix (Elt Ideal) ℕ U Lvl)))
    (R0 : RegionSeg (pcfgs (F := Ideal)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := Ideal)) adm pdats ι defs₀ 𝒱₀ L lv 1)
    (hpre1 : ∀ c : Dev nD, iprop(StableHlo.held (c : Thread nD τ) (Pipeline.ucRefs τ sig) (V1 m outs c) ∗ E 1 c) ⊢ R1.pre c)
    (hpost1 : ∀ c : Dev nD, R1.post c ⊢ iprop(StableHlo.held (c : Thread nD τ) (Pipeline.ucRefs τ sig) (V2 m outs c) ∗ E 2 c)) :
    θ_run defs (onTc (τ := τ) (main (F := Ideal))) ⟨m, fun _ => 0, ρ⟩ (fun r => ∀ c : Dev nD,
      r.2.mem ((c.tc : Thread nD τ).loc main_v6) = V3 m outs c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := Ideal)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V3 m outs c))
    (hch := fun c => ⟨hpre0 c, (hpost0 c).trans (hpre1 c), hpost1 c, sep_mono .rfl (hE2 c)⟩)
    (hinit := ?_)
    (QY := fun c s => s.mem ((c.tc : Thread nD τ).loc main_v6) = V3 m outs c main_v6
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h => h)
  · -- the launch: every core's unscoped buffers are held at the launch contents; the rest makes the first rest state on
    -- every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt Ideal) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: every unscoped buffer's final contents is the last valuation's; the result buffer is read as it stands
    -- there, each argument's through the valuations back to the launch
    unfold StableHlo.held
    iintro ⟨Hh, HSI⟩
    ihave Hr := (pointsTo_read_all (Pipeline.ucRefs τ sig) (fun b => ((c : Thread nD τ).1, b)) (V3 m outs c) s') $$ [Hh HSI]
    · isplitl [Hh] <;> iassumption
    icases Hr with ⟨%h, HSI⟩
    imodintro
    isplitr
    · ipureintro
      exact ⟨h (Proc.devRef .tc main_v6) (Finset.mem_filter.mpr ⟨StableHlo.devRef_mem_tcRefs main_v6, by decide⟩),
        (h (Proc.devRef .tc main_arg0) (Finset.mem_filter.mpr ⟨StableHlo.devRef_mem_tcRefs main_arg0, by decide⟩)).trans (V3_main_arg0 m outs c),
        (h (Proc.devRef .tc main_arg1) (Finset.mem_filter.mpr ⟨StableHlo.devRef_mem_tcRefs main_arg1, by decide⟩)).trans (V3_main_arg1 m outs c)⟩
    · iexact HSI

end Cert.KernelIdeal.HostRun

end
-- ==== Proof.TileValue.lean ====
/- The kernel body's pure values, read at one index, over the extended reals.

   One grid step holds a tile `a` of 4 × 1024 points of the first cloud and a tile `b` of 4 × 512 points of the second, each
   point three coordinates. The step forms, for every batch `p`, point `r` of `a` and point `k` of `b`,
       d2 (p, r, k) = (|a_r|² + |b_k|²) − 2 · ⟨a_r, b_k⟩,
   the squared norms sums over the three coordinates and the inner product the three products added left to right
   (`kK_pay3_apply`); it then replaces the running minimum `m (p, r)` by
       min (m (p, r)) (min over the 512 points k of max (d2 (p, r, k)) 0),
   the inner minimum a fold of `min` from `+∞` (`kK_pay1_apply`); the running minimum starts at `+∞` everywhere
   (`kK_pay2_apply`). `K` is 0 or 1: the program runs the same body twice, the clouds exchanged.

   The body reaches d2 through operations that only move elements: a column of the last axis cut out, unit axes dropped,
   added and stretched. Each is read at an index given by its coordinates (§ Layout), the two reductions along the last
   axis likewise (§ LastAxis), and the statements follow by reading the body outside in. -/
import proofs.«130135_j23373212024987_1_alg».proof.Proof.Gen.KernelIdeal.Skeleton
import proofs.«130135_j23373212024987_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TileValue

open Idealize.ShloMosaic Idealize.SL.Sem Idealize.ShloMosaic.ValueIdx
open Cert.KernelIdeal Cert.KernelIdeal.Gen
open scoped BigOperators

/-! ## Unit axes added, dropped and stretched, read at coordinates -/

section Layout
variable {α : Type}

/-- An `[a, b]` array cast to `[a, b, 1]` reads, at `(i, j, u)`, the operand at `(i, j)`: the two row-major
    positions are `(i·b + j)·1 + u` and `i·b + j`, and `u = 0`. -/
private theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array cast to `[a, b]` reads, at `(i, j)`, the operand at `(i, j, 0)`. -/
private theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b]` array cast to `[a, 1, b]` reads, at `(i, u, j)`, the operand at `(i, j)`: the two row-major
    positions are `(i·1 + u)·b + j` and `i·b + j`, and `u = 0`. -/
private theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array stretched to `[a, b, c]` reads, at `(i, j, k)`, the operand at `(i, j, 0)`. -/
private theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array stretched to `[a, b, c]` reads, at `(i, j, k)`, the operand at `(i, 0, k)`. -/
private theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A rank-3 array cut to one column `o` of its last axis reads, at `(i, j, u)`, the source at `(i, j, o)`. -/
private theorem slice3_col_apply {n0 n1 n2 : ℕ} (o : ℕ) (X : (⟨3, ![n0, n1, n2]⟩ : Shape).Idx → α)
    (h : (⟨3, ![n0, n1, n2]⟩ : Shape).Slices ![0, 0, o] ⟨3, ![n0, n1, 1]⟩)
    (i : Fin n0) (j : Fin n1) (u : Fin 1) (k : Fin n2) (hk : k.val = o) :
    extractStridedSlice ⟨3, ![n0, n1, 1]⟩ ![0, 0, o] X h (ix3 i j u) = X (ix3 i j k) :=
  extractStridedSlice_apply _ _ _ _ _ (fun ax => by
    match ax with
    | ⟨0, _⟩ => exact (Nat.zero_add _).symm
    | ⟨1, _⟩ => exact (Nat.zero_add _).symm
    | ⟨2, _⟩ =>
      have hu : u.val = 0 := by omega
      show k.val = o + u.val
      rw [hu, hk, Nat.add_zero])

end Layout

/-! ## Reductions along the last axis, read at coordinates -/

section LastAxis

/-- The index over `(i, j)` with coordinate `k` put back on the dropped last axis is `(i, j, k)`. -/
private theorem lift_last {n0 n1 n2 : ℕ} (h : (⟨3, ![n0, n1, n2]⟩ : Shape).Reduces [2] ⟨2, ![n0, n1]⟩)
    (i : Fin n0) (j : Fin n1) (k : Fin n2) : h.lift (ix2 i j) k = ix3 i j k := by
  funext c
  match c with
  | ⟨0, _⟩ => exact Fin.ext rfl
  | ⟨1, _⟩ => exact Fin.ext rfl
  | ⟨2, _⟩ => exact Fin.ext rfl

/-- The sum along the last axis of the squares, into the zero word: at `(i, j)` the sum over the last coordinate of
    the squares (the sum over one axis is the `Fin`-indexed sum over that axis's coordinates). -/
private theorem sumsq_apply {n0 n1 n2 : ℕ} (x : FVec Ideal ⟨3, ![n0, n1, n2]⟩ .f32)
    (h : (⟨3, ![n0, n1, n2]⟩ : Shape).Reduces [2] ⟨2, ![n0, n1]⟩) (hφ : FKind.Formats .f32)
    (hacc : (0x00000000#32 : BitVec 32) = FKind.add.neutral .f32 hφ) (i : Fin n0) (j : Fin n1) :
    multiReduction (F := Ideal) .add [2] ⟨2, ![n0, n1]⟩ (mulf x x) 0x00000000#32 h hφ hacc (ix2 i j)
      = ∑ d : Fin n2, x (ix3 i j d) * x (ix3 i j d) := by
  refine (Ideal.multiReduction_add_single (mulf x x) _ h hφ hacc (ix2 i j)).trans ?_
  refine Finset.sum_congr rfl fun d _ => ?_
  rw [lift_last h i j d]
  rfl

/-- The minimum along the last axis from the accumulator's value: at `(i, j)` the fold of `min` over the last
    coordinate (`min` commutes and associates, so the fold over the indices that drop to `(i, j)` is the fold over
    that axis's coordinates). -/
private theorem minLast_apply {n0 n1 n2 : ℕ} (x : FVec Ideal ⟨3, ![n0, n1, n2]⟩ .f32) (acc : BitVec 32)
    (h : (⟨3, ![n0, n1, n2]⟩ : Shape).Reduces [2] ⟨2, ![n0, n1]⟩) (hφ : FKind.Formats .f32)
    (hacc : acc = FKind.minimumf.neutral .f32 hφ) (i : Fin n0) (j : Fin n1) :
    multiReduction (F := Ideal) .minimumf [2] ⟨2, ![n0, n1]⟩ x acc h hφ hacc (ix2 i j)
      = (Finset.univ : Finset (Fin n2)).fold min (Ideal.ofBits .f32 acc) (fun k : Fin n2 => x (ix3 i j k)) := by
  rw [multiReduction_minimumf_eq_fold]
  refine (h.fold_filter_drop_single _ _ x (ix2 i j)).trans ?_
  have hx : x ∘ h.lift (ix2 i j) = fun k : Fin n2 => x (ix3 i j k) := funext fun k => congrArg x (lift_last h i j k)
  rw [hx]
  rfl

end LastAxis

/-! ## The tile of squared distances -/

/-- One coordinate column of the first cloud's tile, spread over the second cloud's points: column `d` cut out, its
    unit axis dropped and added back, then stretched along the last axis, reads `(p, r, d)` at every `(p, r, k)`. -/
private theorem colA_apply {α : Type} {n0 n1 n2 m : ℕ} (o : ℕ) (X : (⟨3, ![n0, n1, n2]⟩ : Shape).Idx → α)
    (hs : (⟨3, ![n0, n1, n2]⟩ : Shape).Slices ![0, 0, o] ⟨3, ![n0, n1, 1]⟩)
    (h1 : (⟨3, ![n0, n1, 1]⟩ : Shape).ShapeCasts ⟨2, ![n0, n1]⟩) (h2 : (⟨2, ![n0, n1]⟩ : Shape).ShapeCasts ⟨3, ![n0, n1, 1]⟩)
    (hb : (⟨3, ![n0, n1, 1]⟩ : Shape).Broadcasts ⟨3, ![n0, n1, m]⟩)
    (p : Fin n0) (r : Fin n1) (k : Fin m) (d : Fin n2) (hd : d.val = o) :
    broadcastTo ⟨3, ![n0, n1, m]⟩
        (shapeCast ⟨3, ![n0, n1, 1]⟩ (shapeCast ⟨2, ![n0, n1]⟩ (extractStridedSlice ⟨3, ![n0, n1, 1]⟩ ![0, 0, o] X hs) h1) h2) hb
        (ix3 p r k) = X (ix3 p r d) :=
  (broadcastTo_ab1_abc_apply _ hb p r k).trans <|
    (shapeCast_ab_ab1_apply _ h2 p r 0).trans <|
      (shapeCast_ab1_ab_apply _ h1 p r).trans <| slice3_col_apply o X hs p r 0 d hd

/-- One coordinate column of the second cloud's tile, spread over the first cloud's points: column `d` cut out, its
    unit axis dropped, a unit axis added in the middle, then stretched along it, reads `(p, k, d)` at every `(p, r, k)`. -/
private theorem colB_apply {α : Type} {n0 n1 n2 m : ℕ} (o : ℕ) (X : (⟨3, ![n0, n1, n2]⟩ : Shape).Idx → α)
    (hs : (⟨3, ![n0, n1, n2]⟩ : Shape).Slices ![0, 0, o] ⟨3, ![n0, n1, 1]⟩)
    (h1 : (⟨3, ![n0, n1, 1]⟩ : Shape).ShapeCasts ⟨2, ![n0, n1]⟩) (h2 : (⟨2, ![n0, n1]⟩ : Shape).ShapeCasts ⟨3, ![n0, 1, n1]⟩)
    (hb : (⟨3, ![n0, 1, n1]⟩ : Shape).Broadcasts ⟨3, ![n0, m, n1]⟩)
    (p : Fin n0) (r : Fin m) (k : Fin n1) (d : Fin n2) (hd : d.val = o) :
    broadcastTo ⟨3, ![n0, m, n1]⟩
        (shapeCast ⟨3, ![n0, 1, n1]⟩ (shapeCast ⟨2, ![n0, n1]⟩ (extractStridedSlice ⟨3, ![n0, n1, 1]⟩ ![0, 0, o] X hs) h1) h2) hb
        (ix3 p r k) = X (ix3 p k d) :=
  (broadcastTo_a1c_abc_apply _ hb p r k).trans <|
    (shapeCast_ab_a1b_apply _ h2 p 0 k).trans <|
      (shapeCast_ab1_ab_apply _ h1 p k).trans <| slice3_col_apply o X hs p k 0 d hd

/-- The first kernel's tile of squared distances at `(p, r, k)`: the two squared norms, each a sum over the three
    coordinates, added, minus twice the inner product, the three products added left to right. -/
theorem k0_pay3_apply (a : Vec Ideal S4x1024x3 .f32) (b : Vec Ideal S4x512x3 .f32) (p : Fin 4) (r : Fin 1024) (k : Fin 512) :
    k0_pay3 (F := Ideal) a b (ix3 p r k)
      = ((∑ d : Fin 3, a (ix3 p r d) * a (ix3 p r d)) + (∑ d : Fin 3, b (ix3 p k d) * b (ix3 p k d)))
        - Cert.Spec.two * (a (ix3 p r 0) * b (ix3 p k 0) + a (ix3 p r 1) * b (ix3 p k 1) + a (ix3 p r 2) * b (ix3 p k 2)) := by
  unfold k0_pay3
  simp only [subf_apply, addf_apply, mulf_apply, broadcast_apply]
  rw [colA_apply 0 a _ _ _ _ p r k 0 rfl, colA_apply 1 a _ _ _ _ p r k 1 rfl, colA_apply 2 a _ _ _ _ p r k 2 rfl,
    colB_apply 0 b _ _ _ _ p r k 0 rfl, colB_apply 1 b _ _ _ _ p r k 1 rfl, colB_apply 2 b _ _ _ _ p r k 2 rfl]
  refine congrArg₂ (fun x y : EReal => x - y) (congrArg₂ (fun x y : EReal => x + y) ?_ ?_) rfl
  · exact (broadcastTo_ab1_abc_apply _ _ p r k).trans
      ((shapeCast_ab_ab1_apply _ _ p r 0).trans (sumsq_apply a _ _ _ p r))
  · exact (broadcastTo_a1c_abc_apply _ _ p r k).trans
      ((shapeCast_ab_a1b_apply _ _ p 0 k).trans (sumsq_apply b _ _ _ p k))

/-- The second kernel's body is the same term. -/
theorem k1_pay3_apply (a : Vec Ideal S4x1024x3 .f32) (b : Vec Ideal S4x512x3 .f32) (p : Fin 4) (r : Fin 1024) (k : Fin 512) :
    k1_pay3 (F := Ideal) a b (ix3 p r k)
      = ((∑ d : Fin 3, a (ix3 p r d) * a (ix3 p r d)) + (∑ d : Fin 3, b (ix3 p k d) * b (ix3 p k d)))
        - Cert.Spec.two * (a (ix3 p r 0) * b (ix3 p k 0) + a (ix3 p r 1) * b (ix3 p k 1) + a (ix3 p r 2) * b (ix3 p k 2)) :=
  k0_pay3_apply a b p r k

/-! ## The running minimum -/

/-- The first kernel's new running minimum at `(p, r)`: the old one against the least, over the tile's 512 points,
    of the squared distance clamped at zero (the fold starts from `+∞`; the closing cast is to the same shape). -/
theorem k0_pay1_apply (v45 : FVec Ideal S4x1024x512 .f32) (v49 : Vec Ideal S4x1024 .f32) (p : Fin 4) (r : Fin 1024) :
    k0_pay1 (F := Ideal) v45 v49 (ix2 p r)
      = min (v49 (ix2 p r)) ((Finset.univ : Finset (Fin 512)).fold min (Ideal.ofBits .f32 0x7F800000#32)
          (fun k : Fin 512 => max (v45 (ix3 p r k)) Cert.Spec.zero)) := by
  unfold k0_pay1
  simp only [shapeCast_self, minimumf_apply]
  refine congrArg (min (v49 (ix2 p r))) ?_
  exact minLast_apply _ _ _ _ _ p r

theorem k1_pay1_apply (v45 : FVec Ideal S4x1024x512 .f32) (v49 : Vec Ideal S4x1024 .f32) (p : Fin 4) (r : Fin 1024) :
    k1_pay1 (F := Ideal) v45 v49 (ix2 p r)
      = min (v49 (ix2 p r)) ((Finset.univ : Finset (Fin 512)).fold min (Ideal.ofBits .f32 0x7F800000#32)
          (fun k : Fin 512 => max (v45 (ix3 p r k)) Cert.Spec.zero)) :=
  k0_pay1_apply v45 v49 p r

/-- The first kernel's initial running minimum: `+∞`'s word everywhere (the cast is to the same shape). -/
theorem k0_pay2_apply (j : S4x1024.Idx) : k0_pay2 (F := Ideal) j = Ideal.ofBits .f32 0x7F800000#32 :=
  congrFun (shapeCast_self (broadcast S4x1024 (Ideal.ofBits .f32 0x7F800000#32)) shapeCasts_S4x1024_S4x1024) j

theorem k1_pay2_apply (j : S4x1024.Idx) : k1_pay2 (F := Ideal) j = Ideal.ofBits .f32 0x7F800000#32 :=
  k0_pay2_apply j

end Cert.KernelIdeal.TileValue

end
-- ==== Proof.MinTiles.lean ====
/- Pure mathematics over the extended reals for the nearest-point distances.

   (1) A minimum over 8192 entries taken tile by tile (16 tiles of 512, each folded from +∞, the tile minima folded
       from +∞ in turn) is the infimum over all 8192 entries.
   (2) The clamped squared distance is symmetric under swapping the two clouds together with the two points.
   (3) Hence the infimum over the first point, the second held fixed, is the nearest distance of the swapped clouds.
   (4) The squared norm and the inner product written out as three-term sums. -/
import proofs.«130135_j23373212024987_1_alg».proof.Proof.Spec
import Mathlib.Algebra.BigOperators.Fin
import Mathlib.Data.Finset.Fold
import Mathlib.Data.Finset.Lattice.Fold

noncomputable section

namespace Cert.Spec

open Idealize.ShloMosaic Idealize.ShloMosaic.ValueIdx

/-- The word 0x7F800000 is +∞, the top of the extended reals. -/
theorem posInf_eq_top : Ideal.ofBits .f32 0x7F800000#32 = (⊤ : EReal) := by
  simp [Ideal.ofBits, Ideal.ieee]

/-- The minimum of tile `j`: entries 512·j … 512·j + 511, folded from +∞. -/
def tileMin (f : Fin 8192 → EReal) (j : Fin 16) : EReal :=
  (Finset.univ : Finset (Fin 512)).fold min (Ideal.ofBits .f32 0x7F800000#32)
    (fun k : Fin 512 => f ⟨512 * j.val + k.val, by omega⟩)

/-- The running minimum after `k` tiles, started at +∞ (tiles past the sixteenth contribute +∞). -/
def runMin (f : Fin 8192 → EReal) : ℕ → EReal
  | 0 => Ideal.ofBits .f32 0x7F800000#32
  | k + 1 => min (runMin f k) (if h : k < 16 then tileMin f ⟨k, h⟩ else ⊤)

theorem runMin_zero (f : Fin 8192 → EReal) : runMin f 0 = Ideal.ofBits .f32 0x7F800000#32 := rfl

theorem runMin_succ (f : Fin 8192 → EReal) (k : ℕ) (h : k < 16) :
    runMin f (k + 1) = min (runMin f k) (tileMin f ⟨k, h⟩) := by
  show min (runMin f k) (if h : k < 16 then tileMin f ⟨k, h⟩ else ⊤) = _
  rw [dif_pos h]

/-- A tile's minimum is below each of its entries. -/
theorem tileMin_le (f : Fin 8192 → EReal) (j : Fin 16) (k : Fin 512) :
    tileMin f j ≤ f ⟨512 * j.val + k.val, by omega⟩ := by
  unfold tileMin
  exact (Finset.fold_min_le _).mpr (Or.inr ⟨k, Finset.mem_univ k, le_rfl⟩)

/-- A lower bound of all entries is a lower bound of a tile's minimum. -/
theorem le_tileMin (f : Fin 8192 → EReal) (j : Fin 16) (c : EReal) (hc : ∀ i, c ≤ f i) : c ≤ tileMin f j := by
  unfold tileMin
  refine (Finset.le_fold_min _).mpr ⟨?_, fun k _ => hc _⟩
  rw [posInf_eq_top]; exact le_top

/-- After `k` tiles the running minimum is below every entry of those tiles. -/
theorem runMin_le (f : Fin 8192 → EReal) (k : ℕ) (hk : k ≤ 16) (i : Fin 8192) (hi : i.val < 512 * k) :
    runMin f k ≤ f i := by
  induction k with
  | zero => omega
  | succ k ih =>
    have h : k < 16 := by omega
    rw [runMin_succ f k h]
    by_cases hik : i.val < 512 * k
    · exact (min_le_left _ _).trans (ih (by omega) hik)
    · -- `i` lies in tile `k`, at offset `i − 512·k`.
      have hlt : i.val - 512 * k < 512 := by omega
      have e : i = ⟨512 * (⟨k, h⟩ : Fin 16).val + (⟨i.val - 512 * k, hlt⟩ : Fin 512).val, by
          show 512 * k + (i.val - 512 * k) < 8192; omega⟩ := by
        apply Fin.ext; show i.val = 512 * k + (i.val - 512 * k); omega
      refine (min_le_right _ _).trans ?_
      have := tileMin_le f ⟨k, h⟩ ⟨i.val - 512 * k, hlt⟩
      rw [← e] at this
      exact this

/-- A lower bound of all entries is a lower bound of every running minimum. -/
theorem le_runMin (f : Fin 8192 → EReal) (c : EReal) (hc : ∀ i, c ≤ f i) (k : ℕ) : c ≤ runMin f k := by
  induction k with
  | zero => rw [runMin_zero, posInf_eq_top]; exact le_top
  | succ k ih =>
    show c ≤ min (runMin f k) (if h : k < 16 then tileMin f ⟨k, h⟩ else ⊤)
    refine le_min ih ?_
    split
    · exact le_tileMin f _ c hc
    · exact le_top

/-- The running minimum after all sixteen tiles is the infimum of all 8192 entries: it is a lower bound of every
    entry, and the greatest one. -/
theorem runMin_all (f : Fin 8192 → EReal) : runMin f 16 = Finset.univ.inf f := by
  apply le_antisymm
  · exact Finset.le_inf fun i _ => runMin_le f 16 le_rfl i (by have := i.isLt; omega)
  · exact le_runMin f _ (fun i => Finset.inf_le (Finset.mem_univ i)) 16

/-- The inner product is symmetric: each product commutes. -/
theorem dot_comm (x y : Pts) (b : Fin 4) (n m : Fin 8192) : dot x y b n m = dot y x b m n := by
  unfold dot
  rw [mul_comm (x (ix3 b n 0)), mul_comm (x (ix3 b n 1)), mul_comm (x (ix3 b n 2))]

/-- The clamped squared distance is symmetric: the two norms commute under +, the inner product is symmetric. -/
theorem sqd_comm (x y : Pts) (b : Fin 4) (n m : Fin 8192) : sqd x y b n m = sqd y x b m n := by
  unfold sqd
  rw [add_comm (sq x b n), dot_comm]

/-- The infimum over the first point is the nearest distance of the swapped clouds. -/
theorem nearest_swap (x y : Pts) (b : Fin 4) (m : Fin 8192) :
    (Finset.univ.inf fun n : Fin 8192 => sqd x y b n m) = nearest y x (ix2 b m) := by
  rw [nearest_apply]
  exact congrArg (Finset.univ.inf) (funext fun n => sqd_comm x y b n m)

/-- The squared norm as three squares added left to right. -/
theorem sq_eq (x : Pts) (b : Fin 4) (n : Fin 8192) :
    sq x b n = x (ix3 b n 0) * x (ix3 b n 0) + x (ix3 b n 1) * x (ix3 b n 1) + x (ix3 b n 2) * x (ix3 b n 2) := by
  unfold sq
  rw [Fin.sum_univ_three]

/-- The inner product as a sum over the three coordinates. -/
theorem dot_eq_sum (x y : Pts) (b : Fin 4) (n m : Fin 8192) :
    dot x y b n m = ∑ d : Fin 3, x (ix3 b n d) * y (ix3 b m d) := by
  unfold dot
  rw [Fin.sum_univ_three]

end Cert.Spec

end
-- ==== Proof.Value0.lean ====
/- This pallas_call's output array, over the extended reals, is the specification's nearest-point distances.

   Write `x` for the cloud the call's first window reads and `y` for the cloud its second window reads. Grid position
   `t` is row `t / 16`, column `t % 16`. The block of `x` at `t` is points `1024·(t/16) … 1024·(t/16) + 1023`, the block of
   `y` is points `512·(t%16) … 512·(t%16) + 511`.
   For batch `p` and point `n = 1024·(t/16) + r` write `f m = sqd x y p n m`. One step folds the minimum of tile `t % 16`
   of `f` into the running minimum, which a row's first column starts from +∞; so along a row the running minimum at
   `(p, r)` after column `j` is `runMin f (j + 1)`, and after the last column it is the infimum of `f` over all 8192
   points, which is `nearest x y (p, n)`. The output's block for row `i` is written back at the row's last column and
   the eight blocks tile the array. -/
import proofs.«130135_j23373212024987_1_alg».proof.Proof.Data0
import proofs.«130135_j23373212024987_1_alg».proof.Proof.TileValue
import proofs.«130135_j23373212024987_1_alg».proof.Proof.MinTiles
import proofs.«130135_j23373212024987_1_alg».proof.Proof.Spec
import Idealize.ShloMosaic.Lib.Pipeline.Value

set_option maxRecDepth 16384

noncomputable section

namespace Cert.KernelIdeal.Region0

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)
open Cert.KernelIdeal.TileValue

variable (V : (c : Dev nD) → (b : Ref sig .tc) → Buf (Elt Ideal) ((c : Thread nD τ).loc b))

/-! ## The grid -/

/-- The grid has 128 points. -/
theorem pos_lt (t : Fin cfg0.N) : t.val < 128 := lt_of_lt_of_eq t.isLt (by decide : grid0.N = 128)

/-- The printed index maps, decided over the grid: the block of `x` moves with the row, the block of `y` with the
    column, the output's with the row. -/
theorem idx_facts : ∀ t : Fin cfg0.N,
    win0_0.index t (0 : Fin 3) = 0 ∧ win0_0.index t (1 : Fin 3) = t.val / 16 ∧ win0_0.index t (2 : Fin 3) = 0
    ∧ win0_1.index t (0 : Fin 3) = 0 ∧ win0_1.index t (1 : Fin 3) = t.val % 16 ∧ win0_1.index t (2 : Fin 3) = 0
    ∧ win0_2.index t (0 : Fin 2) = 0 ∧ win0_2.index t (1 : Fin 2) = t.val / 16 :=
  (by decide +kernel : ∀ t : Fin grid0.N, _)

/-! ## The blocks of the two clouds -/

/-- The block of `x` at `t`: entry `(p, r, d)` is `x (p, 1024·(t/16) + r, d)` (a block's coordinate in the
    array is the block index times the block's size plus the coordinate inside the block). -/
theorem blkA_apply (c : Dev nD) (t : Fin cfg0.N) (p : Fin 4) (r : Fin 1024) (d : Fin 3) (n : Fin 8192)
    (hn : n.val = 1024 * (t.val / 16) + r.val) :
    (blk V c 0 t : Vec Ideal S4x1024x3 .f32) (ix3 p r d) = (V c main_arg0 : Pts) (ix3 p n d) := by
  obtain ⟨e0, e1, e2, -⟩ := idx_facts t
  unfold blk
  rw [View.read_apply]
  show V c main_arg0 _ = V c main_arg0 _
  congr 1
  funext a
  apply Fin.ext
  match a with
  | ⟨0, _⟩ => show win0_0.index t (0 : Fin 3) * 4 + 1 * p.val = p.val; rw [e0]; omega
  | ⟨1, _⟩ => show win0_0.index t (1 : Fin 3) * 1024 + 1 * r.val = n.val; rw [e1, hn]; omega
  | ⟨2, _⟩ => show win0_0.index t (2 : Fin 3) * 3 + 1 * d.val = d.val; rw [e2]; omega

/-- The block of `y` at `t`: entry `(p, k, d)` is `y (p, 512·(t%16) + k, d)`. -/
theorem blkB_apply (c : Dev nD) (t : Fin cfg0.N) (p : Fin 4) (k : Fin 512) (d : Fin 3) (n : Fin 8192)
    (hn : n.val = 512 * (t.val % 16) + k.val) :
    (blk V c 1 t : Vec Ideal S4x512x3 .f32) (ix3 p k d) = (V c main_arg1 : Pts) (ix3 p n d) := by
  obtain ⟨-, -, -, e0, e1, e2, -⟩ := idx_facts t
  unfold blk
  rw [View.read_apply]
  show V c main_arg1 _ = V c main_arg1 _
  congr 1
  funext a
  apply Fin.ext
  match a with
  | ⟨0, _⟩ => show win0_1.index t (0 : Fin 3) * 4 + 1 * p.val = p.val; rw [e0]; omega
  | ⟨1, _⟩ => show win0_1.index t (1 : Fin 3) * 512 + 1 * k.val = n.val; rw [e1, hn]; omega
  | ⟨2, _⟩ => show win0_1.index t (2 : Fin 3) * 3 + 1 * d.val = d.val; rw [e2]; omega

/-! ## One step at one point, over blocks that are tiles of the two clouds -/

/-- Point `r` of row block `i`, as a point of the cloud. -/
abbrev rowPt (i : ℕ) (hi : i < 8) (r : Fin 1024) : Fin 8192 := ⟨1024 * i + r.val, by omega⟩

section Tile
variable (x y : Pts) (a : Vec Ideal S4x1024x3 .f32) (b : Vec Ideal S4x512x3 .f32)
variable (i : ℕ) (j : Fin 16) (hi : i < 8)

/-- The tile's clamped squared distance at `(p, r, k)` is `sqd` between point `1024·i + r` of `x` and point
    `512·j + k` of `y`: the squared norms are the same sums over the three coordinates, the inner products the same three
    products added left to right. -/
theorem tile_entry
    (ha : ∀ (p : Fin 4) (r : Fin 1024) (d : Fin 3), a (ix3 p r d) = x (ix3 p (rowPt i hi r) d))
    (hb : ∀ (p : Fin 4) (k : Fin 512) (d : Fin 3), b (ix3 p k d) = y (ix3 p (⟨512 * j.val + k.val, by omega⟩ : Fin 8192) d))
    (p : Fin 4) (r : Fin 1024) (k : Fin 512) :
    max (k0_pay3 (F := Ideal) a b (ix3 p r k)) Cert.Spec.zero
      = sqd x y p (rowPt i hi r) (⟨512 * j.val + k.val, by omega⟩ : Fin 8192) := by
  rw [k0_pay3_apply]
  simp only [ha, hb]
  rfl

/-- The least clamped squared distance over the tile's 512 points, folded from +∞, is tile `j`'s minimum of
    `m ↦ sqd x y p (1024·i + r) m`. -/
theorem tile_min
    (ha : ∀ (p : Fin 4) (r : Fin 1024) (d : Fin 3), a (ix3 p r d) = x (ix3 p (rowPt i hi r) d))
    (hb : ∀ (p : Fin 4) (k : Fin 512) (d : Fin 3), b (ix3 p k d) = y (ix3 p (⟨512 * j.val + k.val, by omega⟩ : Fin 8192) d))
    (p : Fin 4) (r : Fin 1024) :
    (Finset.univ : Finset (Fin 512)).fold min (Ideal.ofBits .f32 0x7F800000#32)
        (fun k : Fin 512 => max (k0_pay3 (F := Ideal) a b (ix3 p r k)) Cert.Spec.zero)
      = tileMin (fun m => sqd x y p (rowPt i hi r) m) j := by
  unfold tileMin
  exact congrArg (fun g : Fin 512 → EReal => (Finset.univ : Finset (Fin 512)).fold min (Ideal.ofBits .f32 0x7F800000#32) g)
    (funext fun k => tile_entry x y a b i j hi ha hb p r k)

/-- A fold step at `(p, r)`: the old running minimum against tile `j`'s minimum. -/
theorem foldTile_apply
    (ha : ∀ (p : Fin 4) (r : Fin 1024) (d : Fin 3), a (ix3 p r d) = x (ix3 p (rowPt i hi r) d))
    (hb : ∀ (p : Fin 4) (k : Fin 512) (d : Fin 3), b (ix3 p k d) = y (ix3 p (⟨512 * j.val + k.val, by omega⟩ : Fin 8192) d))
    (prev : Vec Ideal S4x1024 .f32) (p : Fin 4) (r : Fin 1024) :
    foldTile (F := Ideal) a b prev (ix2 p r)
      = min (prev (ix2 p r)) (tileMin (fun m => sqd x y p (rowPt i hi r) m) j) := by
  unfold foldTile
  refine (k0_pay1_apply (k0_pay3 (F := Ideal) a b) prev p r).trans ?_
  exact congrArg (min (prev (ix2 p r))) (tile_min x y a b i j hi ha hb p r)

/-- The seeding step at `(p, r)`: +∞ against tile `j`'s minimum. -/
theorem seedTile_apply
    (ha : ∀ (p : Fin 4) (r : Fin 1024) (d : Fin 3), a (ix3 p r d) = x (ix3 p (rowPt i hi r) d))
    (hb : ∀ (p : Fin 4) (k : Fin 512) (d : Fin 3), b (ix3 p k d) = y (ix3 p (⟨512 * j.val + k.val, by omega⟩ : Fin 8192) d))
    (p : Fin 4) (r : Fin 1024) :
    seedTile (F := Ideal) a b (ix2 p r)
      = min (Ideal.ofBits .f32 0x7F800000#32) (tileMin (fun m => sqd x y p (rowPt i hi r) m) j) := by
  unfold seedTile
  refine (k0_pay1_apply (k0_pay3 (F := Ideal) a b) (k0_pay2 (F := Ideal)) p r).trans ?_
  rw [k0_pay2_apply]
  exact congrArg (min (Ideal.ofBits .f32 0x7F800000#32)) (tile_min x y a b i j hi ha hb p r)

end Tile

/-! ## The running minimum along a row of the grid -/

/-- The running minimum does not depend on how its position is written. -/
theorem accAt_congr (c : Dev nD) (n n' : ℕ) (h : n < cfg0.N) (h' : n' < cfg0.N) (e : n = n') :
    accAt V c n h = accAt V c n' h' := by
  subst e; rfl

/-- After column `j` of row `i` the running minimum at `(p, r)` is the running minimum of
    `m ↦ sqd x y p (1024·i + r) m` over its first `j + 1` tiles: the first column seeds it with tile 0 against +∞, every
    later column folds its own tile into what the column before left. -/
theorem acc_row (c : Dev nD) (i : ℕ) (hi : i < 8) (p : Fin 4) (r : Fin 1024) :
    ∀ (j : ℕ) (hj : j < 16) (h : 16 * i + j < cfg0.N),
      accAt (F := Ideal) V c (16 * i + j) h (ix2 p r)
        = runMin (fun m => sqd (V c main_arg0) (V c main_arg1) p (rowPt i hi r) m) (j + 1)
  | 0, hj, h => by
    have hrow : (16 * i + 0) / 16 = i := by omega
    have hcol : (16 * i + 0) % 16 = 0 := by omega
    rw [accAt_first V c ⟨16 * i + 0, h⟩ hcol]
    refine (seedTile_apply (V c main_arg0) (V c main_arg1) (blk V c 0 ⟨16 * i + 0, h⟩) (blk V c 1 ⟨16 * i + 0, h⟩) i ⟨0, by omega⟩ hi
      (fun p r d => blkA_apply V c ⟨16 * i + 0, h⟩ p r d (rowPt i hi r) (by show 1024 * i + r.val = 1024 * ((16 * i + 0) / 16) + r.val; rw [hrow]))
      (fun p k d => blkB_apply V c ⟨16 * i + 0, h⟩ p k d _ (by show 512 * 0 + k.val = 512 * ((16 * i + 0) % 16) + k.val; rw [hcol]))
      p r).trans ?_
    rw [runMin_succ _ 0 (by omega), runMin_zero]
  | j + 1, hj, h => by
    have hrow : (16 * i + (j + 1)) / 16 = i := by omega
    have hcol : (16 * i + (j + 1)) % 16 = j + 1 := by omega
    have hne : ¬ (16 * i + (j + 1)) % 16 = 0 := by omega
    have h' : 16 * i + j < cfg0.N := by omega
    rw [accAt_next V c ⟨16 * i + (j + 1), h⟩ hne]
    refine (foldTile_apply (V c main_arg0) (V c main_arg1) (blk V c 0 ⟨16 * i + (j + 1), h⟩) (blk V c 1 ⟨16 * i + (j + 1), h⟩) i ⟨j + 1, hj⟩ hi
      (fun p r d => blkA_apply V c ⟨16 * i + (j + 1), h⟩ p r d (rowPt i hi r) (by show 1024 * i + r.val = 1024 * ((16 * i + (j + 1)) / 16) + r.val; rw [hrow]))
      (fun p k d => blkB_apply V c ⟨16 * i + (j + 1), h⟩ p k d _ (by show 512 * (j + 1) + k.val = 512 * ((16 * i + (j + 1)) % 16) + k.val; rw [hcol]))
      _ p r).trans ?_
    rw [runMin_succ _ (j + 1) hj]
    refine congrArg (fun z => min z _) ?_
    refine (congrFun (accAt_congr V c _ (16 * i + j) _ h' (by show 16 * i + (j + 1) - 1 = 16 * i + j; omega)) (ix2 p r)).trans ?_
    exact acc_row c i hi p r j (by omega) h'

/-- The running minimum after the point at position `t`, at `(p, r)`: the running minimum of
    `m ↦ sqd x y p (1024·(t/16) + r) m` over its first `t % 16 + 1` tiles. -/
theorem acc_eq (c : Dev nD) (t : Fin cfg0.N) (p : Fin 4) (r : Fin 1024) :
    accAt (F := Ideal) V c t.val t.isLt (ix2 p r)
      = runMin (fun m => sqd (V c main_arg0) (V c main_arg1) p ⟨1024 * (t.val / 16) + r.val, by have := pos_lt t; omega⟩ m) (t.val % 16 + 1) := by
  have ht := pos_lt t
  have e : t.val = 16 * (t.val / 16) + t.val % 16 := (Nat.div_add_mod t.val 16).symm
  have h : 16 * (t.val / 16) + t.val % 16 < cfg0.N := by rw [← e]; exact t.isLt
  refine (congrFun (accAt_congr V c t.val _ t.isLt h e) (ix2 p r)).trans ?_
  exact acc_row V c (t.val / 16) (by omega) p r (t.val % 16) (Nat.mod_lt _ (by omega)) h

/-! ## The output array -/

/-- The output's block is written back at a row's last column, and only there. -/
theorem flush_iff : ∀ t : Fin cfg0.N, (cfg0.win 2).flush t = true ↔ t.val % 16 = 15 :=
  (by decide +kernel : ∀ t : Fin grid0.N, win0_2.flush t = true ↔ t.val % 16 = 15)

/-- Entry `(p, r)` of the output's block at `t` sits in the array at `(p, 1024·(t/16) + r)`. -/
theorem blkO_emb (t : Fin cfg0.N) (p : Fin 4) (r : Fin 1024) (n : Fin 8192) (hn : n.val = 1024 * (t.val / 16) + r.val) :
    ((cfg0.win 2).blk t).view.emb (ix2 p r) = (ix2 p n : SRow.Idx) := by
  obtain ⟨-, -, -, -, -, -, e0, e1⟩ := idx_facts t
  funext a
  apply Fin.ext
  match a with
  | ⟨0, _⟩ => show win0_2.index t (0 : Fin 2) * 4 + 1 * p.val = p.val; rw [e0]; omega
  | ⟨1, _⟩ => show win0_2.index t (1 : Fin 2) * 1024 + 1 * r.val = n.val; rw [e1, hn]; omega

/-- What a row's last column writes back is its block of `nearest x y`: the running minimum over all sixteen tiles is
    the infimum over all 8192 points of `y`. -/
theorem flushed_eq (c : Dev nD) (t : Fin cfg0.N) (hf : (cfg0.win 2).flush t = true) :
    (dat (F := Ideal) V c).flushed 2 t
      = ((cfg0.win 2).blk t).view.read (Elt Ideal) (nearest (V c main_arg0) (V c main_arg1)) := by
  have hcol : t.val % 16 = 15 := (flush_iff t).mp hf
  have ht := pos_lt t
  show (cfg0.win 2).cut (grid0.coords t) ((dat V c).after 2 t) = _
  rw [after_2]
  refine funext fun (j : S4x1024.Idx) => ?_
  obtain ⟨p, r, rfl⟩ : ∃ (p : Fin 4) (r : Fin 1024), j = ix2 p r := ⟨j 0, j 1, eq_ix2 j⟩
  rw [View.read_apply]
  show accAt (F := Ideal) V c t.val t.isLt (ix2 p r) = nearest (V c main_arg0) (V c main_arg1) (((cfg0.win 2).blk t).view.emb (ix2 p r))
  rw [blkO_emb t p r ⟨1024 * (t.val / 16) + r.val, by omega⟩ rfl, nearest_apply, acc_eq V c t p r, hcol]
  exact runMin_all _

/-- Every index `(p, n)` of the array lies in the block written back at the last column of row `n / 1024`. -/
theorem covered (c : Dev nD) (i : ((cfg0.win 2).arr.view.loc (c.tc : Thread nD τ)).2.ty.Idx) :
    ∃ t : Fin cfg0.N, (cfg0.win 2).flush t = true ∧ i ∈ ((cfg0.win 2).blk t).view.set := by
  have h0 : (i 0 : Nat) < 4 := (i 0).isLt
  have h1 : (i 1 : Nat) < 8192 := (i 1).isLt
  have hN : cfg0.N = 128 := (by decide : grid0.N = 128)
  have hlt : 16 * ((i 1 : Nat) / 1024) + 15 < cfg0.N := by rw [hN]; omega
  refine ⟨⟨16 * ((i 1 : Nat) / 1024) + 15, hlt⟩, (flush_iff _).mpr (by show (16 * ((i 1 : Nat) / 1024) + 15) % 16 = 15; omega), ?_⟩
  obtain ⟨-, -, -, -, -, -, e0, e1⟩ := idx_facts ⟨16 * ((i 1 : Nat) / 1024) + 15, hlt⟩
  have e1' : win0_2.index ⟨16 * ((i 1 : Nat) / 1024) + 15, hlt⟩ (1 : Fin 2) = (i 1 : Nat) / 1024 := by
    rw [e1]; show (16 * ((i 1 : Nat) / 1024) + 15) / 16 = (i 1 : Nat) / 1024; omega
  show i ∈ ((View.whole main_v0).slice (win0_2.rect ⟨16 * ((i 1 : Nat) / 1024) + 15, hlt⟩)).set
  rw [View.set_slice_whole, Rect.mem_set_unit]
  intro a
  match a with
  | ⟨0, _⟩ =>
    show win0_2.index ⟨16 * ((i 1 : Nat) / 1024) + 15, hlt⟩ (0 : Fin 2) * 4 ≤ (i 0 : Nat)
      ∧ (i 0 : Nat) < win0_2.index ⟨16 * ((i 1 : Nat) / 1024) + 15, hlt⟩ (0 : Fin 2) * 4 + 4
    rw [e0]; omega
  | ⟨1, _⟩ =>
    show win0_2.index ⟨16 * ((i 1 : Nat) / 1024) + 15, hlt⟩ (1 : Fin 2) * 1024 ≤ (i 1 : Nat)
      ∧ (i 1 : Nat) < win0_2.index ⟨16 * ((i 1 : Nat) / 1024) + 15, hlt⟩ (1 : Fin 2) * 1024 + 1024
    rw [e1']; omega

/-- The output array after the region: the eight written-back blocks tile it, each its block of `nearest x y`. -/
theorem out_eq (c : Dev nD) :
    (dat (F := Ideal) V c).arrAt 2 cfg0.N = Cert.Spec.nearest (V c main_arg0) (V c main_arg1) :=
  (dat (F := Ideal) V c).arrAt_eq_of_cover 2 (nearest (V c main_arg0) (V c main_arg1)) (flushed_eq V c) (covered c)

end Cert.KernelIdeal.Region0

end
-- ==== Proof.Value1.lean ====
/- This pallas_call's output array, over the extended reals, is the specification's nearest-point distances.

   Write `x` for the cloud the call's first window reads and `y` for the cloud its second window reads. Grid position
   `t` is row `t / 16`, column `t % 16`. The block of `x` at `t` is points `1024·(t/16) … 1024·(t/16) + 1023`, the block of
   `y` is points `512·(t%16) … 512·(t%16) + 511`.
   For batch `p` and point `n = 1024·(t/16) + r` write `f m = sqd x y p n m`. One step folds the minimum of tile `t % 16`
   of `f` into the running minimum, which a row's first column starts from +∞; so along a row the running minimum at
   `(p, r)` after column `j` is `runMin f (j + 1)`, and after the last column it is the infimum of `f` over all 8192
   points, which is `nearest x y (p, n)`. The output's block for row `i` is written back at the row's last column and
   the eight blocks tile the array. -/
import proofs.«130135_j23373212024987_1_alg».proof.Proof.Data1
import proofs.«130135_j23373212024987_1_alg».proof.Proof.TileValue
import proofs.«130135_j23373212024987_1_alg».proof.Proof.MinTiles
import proofs.«130135_j23373212024987_1_alg».proof.Proof.Spec
import Idealize.ShloMosaic.Lib.Pipeline.Value

set_option maxRecDepth 16384

noncomputable section

namespace Cert.KernelIdeal.Region1

open Cert.KernelIdeal Cert.KernelIdeal.Gen Cert.Spec
open Idealize.ShloMosaic Idealize.ShloMosaic.TcCoe Idealize.ShloMosaic.ValueIdx
open Idealize.SL Idealize.SL.Sem
open Idealize.ShloMosaic.Pipeline (Dat Cfg Window)
open Cert.KernelIdeal.TileValue

variable (V : (c : Dev nD) → (b : Ref sig .tc) → Buf (Elt Ideal) ((c : Thread nD τ).loc b))

/-! ## The grid -/

/-- The grid has 128 points. -/
theorem pos_lt (t : Fin cfg1.N) : t.val < 128 := lt_of_lt_of_eq t.isLt (by decide : grid1.N = 128)

/-- The printed index maps, decided over the grid: the block of `x` moves with the row, the block of `y` with the
    column, the output's with the row. -/
theorem idx_facts : ∀ t : Fin cfg1.N,
    win1_0.index t (0 : Fin 3) = 0 ∧ win1_0.index t (1 : Fin 3) = t.val / 16 ∧ win1_0.index t (2 : Fin 3) = 0
    ∧ win1_1.index t (0 : Fin 3) = 0 ∧ win1_1.index t (1 : Fin 3) = t.val % 16 ∧ win1_1.index t (2 : Fin 3) = 0
    ∧ win1_2.index t (0 : Fin 2) = 0 ∧ win1_2.index t (1 : Fin 2) = t.val / 16 :=
  (by decide +kernel : ∀ t : Fin grid1.N, _)

/-! ## The blocks of the two clouds -/

/-- The block of `x` at `t`: entry `(p, r, d)` is `x (p, 1024·(t/16) + r, d)` (a block's coordinate in the
    array is the block index times the block's size plus the coordinate inside the block). -/
theorem blkA_apply (c : Dev nD) (t : Fin cfg1.N) (p : Fin 4) (r : Fin 1024) (d : Fin 3) (n : Fin 8192)
    (hn : n.val = 1024 * (t.val / 16) + r.val) :
    (blk V c 0 t : Vec Ideal S4x1024x3 .f32) (ix3 p r d) = (V c main_arg1 : Pts) (ix3 p n d) := by
  obtain ⟨e0, e1, e2, -⟩ := idx_facts t
  unfold blk
  rw [View.read_apply]
  show V c main_arg1 _ = V c main_arg1 _
  congr 1
  funext a
  apply Fin.ext
  match a with
  | ⟨0, _⟩ => show win1_0.index t (0 : Fin 3) * 4 + 1 * p.val = p.val; rw [e0]; omega
  | ⟨1, _⟩ => show win1_0.index t (1 : Fin 3) * 1024 + 1 * r.val = n.val; rw [e1, hn]; omega
  | ⟨2, _⟩ => show win1_0.index t (2 : Fin 3) * 3 + 1 * d.val = d.val; rw [e2]; omega

/-- The block of `y` at `t`: entry `(p, k, d)` is `y (p, 512·(t%16) + k, d)`. -/
theorem blkB_apply (c : Dev nD) (t : Fin cfg1.N) (p : Fin 4) (k : Fin 512) (d : Fin 3) (n : Fin 8192)
    (hn : n.val = 512 * (t.val % 16) + k.val) :
    (blk V c 1 t : Vec Ideal S4x512x3 .f32) (ix3 p k d) = (V c main_arg0 : Pts) (ix3 p n d) := by
  obtain ⟨-, -, -, e0, e1, e2, -⟩ := idx_facts t
  unfold blk
  rw [View.read_apply]
  show V c main_arg0 _ = V c main_arg0 _
  congr 1
  funext a
  apply Fin.ext
  match a with
  | ⟨0, _⟩ => show win1_1.index t (0 : Fin 3) * 4 + 1 * p.val = p.val; rw [e0]; omega
  | ⟨1, _⟩ => show win1_1.index t (1 : Fin 3) * 512 + 1 * k.val = n.val; rw [e1, hn]; omega
  | ⟨2, _⟩ => show win1_1.index t (2 : Fin 3) * 3 + 1 * d.val = d.val; rw [e2]; omega

/-! ## One step at one point, over blocks that are tiles of the two clouds -/

/-- Point `r` of row block `i`, as a point of the cloud. -/
abbrev rowPt (i : ℕ) (hi : i < 8) (r : Fin 1024) : Fin 8192 := ⟨1024 * i + r.val, by omega⟩

section Tile
variable (x y : Pts) (a : Vec Ideal S4x1024x3 .f32) (b : Vec Ideal S4x512x3 .f32)
variable (i : ℕ) (j : Fin 16) (hi : i < 8)

/-- The tile's clamped squared distance at `(p, r, k)` is `sqd` between point `1024·i + r` of `x` and point
    `512·j + k` of `y`: the squared norms are the same sums over the three coordinates, the inner products the same three
    products added left to right. -/
theorem tile_entry
    (ha : ∀ (p : Fin 4) (r : Fin 1024) (d : Fin 3), a (ix3 p r d) = x (ix3 p (rowPt i hi r) d))
    (hb : ∀ (p : Fin 4) (k : Fin 512) (d : Fin 3), b (ix3 p k d) = y (ix3 p (⟨512 * j.val + k.val, by omega⟩ : Fin 8192) d))
    (p : Fin 4) (r : Fin 1024) (k : Fin 512) :
    max (k1_pay3 (F := Ideal) a b (ix3 p r k)) Cert.Spec.zero
      = sqd x y p (rowPt i hi r) (⟨512 * j.val + k.val, by omega⟩ : Fin 8192) := by
  rw [k1_pay3_apply]
  simp only [ha, hb]
  rfl

/-- The least clamped squared distance over the tile's 512 points, folded from +∞, is tile `j`'s minimum of
    `m ↦ sqd x y p (1024·i + r) m`. -/
theorem tile_min
    (ha : ∀ (p : Fin 4) (r : Fin 1024) (d : Fin 3), a (ix3 p r d) = x (ix3 p (rowPt i hi r) d))
    (hb : ∀ (p : Fin 4) (k : Fin 512) (d : Fin 3), b (ix3 p k d) = y (ix3 p (⟨512 * j.val + k.val, by omega⟩ : Fin 8192) d))
    (p : Fin 4) (r : Fin 1024) :
    (Finset.univ : Finset (Fin 512)).fold min (Ideal.ofBits .f32 0x7F800000#32)
        (fun k : Fin 512 => max (k1_pay3 (F := Ideal) a b (ix3 p r k)) Cert.Spec.zero)
      = tileMin (fun m => sqd x y p (rowPt i hi r) m) j := by
  unfold tileMin
  exact congrArg (fun g : Fin 512 → EReal => (Finset.univ : Finset (Fin 512)).fold min (Ideal.ofBits .f32 0x7F800000#32) g)
    (funext fun k => tile_entry x y a b i j hi ha hb p r k)

/-- A fold step at `(p, r)`: the old running minimum against tile `j`'s minimum. -/
theorem foldTile_apply
    (ha : ∀ (p : Fin 4) (r : Fin 1024) (d : Fin 3), a (ix3 p r d) = x (ix3 p (rowPt i hi r) d))
    (hb : ∀ (p : Fin 4) (k : Fin 512) (d : Fin 3), b (ix3 p k d) = y (ix3 p (⟨512 * j.val + k.val, by omega⟩ : Fin 8192) d))
    (prev : Vec Ideal S4x1024 .f32) (p : Fin 4) (r : Fin 1024) :
    foldTile (F := Ideal) a b prev (ix2 p r)
      = min (prev (ix2 p r)) (tileMin (fun m => sqd x y p (rowPt i hi r) m) j) := by
  unfold foldTile
  refine (k1_pay1_apply (k1_pay3 (F := Ideal) a b) prev p r).trans ?_
  exact congrArg (min (prev (ix2 p r))) (tile_min x y a b i j hi ha hb p r)

/-- The seeding step at `(p, r)`: +∞ against tile `j`'s minimum. -/
theorem seedTile_apply
    (ha : ∀ (p : Fin 4) (r : Fin 1024) (d : Fin 3), a (ix3 p r d) = x (ix3 p (rowPt i hi r) d))
    (hb : ∀ (p : Fin 4) (k : Fin 512) (d : Fin 3), b (ix3 p k d) = y (ix3 p (⟨512 * j.val + k.val, by omega⟩ : Fin 8192) d))
    (p : Fin 4) (r : Fin 1024) :
    seedTile (F := Ideal) a b (ix2 p r)
      = min (Ideal.ofBits .f32 0x7F800000#32) (tileMin (fun m => sqd x y p (rowPt i hi r) m) j) := by
  unfold seedTile
  refine (k1_pay1_apply (k1_pay3 (F := Ideal) a b) (k1_pay2 (F := Ideal)) p r).trans ?_
  rw [k1_pay2_apply]
  exact congrArg (min (Ideal.ofBits .f32 0x7F800000#32)) (tile_min x y a b i j hi ha hb p r)

end Tile

/-! ## The running minimum along a row of the grid -/

/-- The running minimum does not depend on how its position is written. -/
theorem accAt_congr (c : Dev nD) (n n' : ℕ) (h : n < cfg1.N) (h' : n' < cfg1.N) (e : n = n') :
    accAt V c n h = accAt V c n' h' := by
  subst e; rfl

/-- After column `j` of row `i` the running minimum at `(p, r)` is the running minimum of
    `m ↦ sqd x y p (1024·i + r) m` over its first `j + 1` tiles: the first column seeds it with tile 0 against +∞, every
    later column folds its own tile into what the column before left. -/
theorem acc_row (c : Dev nD) (i : ℕ) (hi : i < 8) (p : Fin 4) (r : Fin 1024) :
    ∀ (j : ℕ) (hj : j < 16) (h : 16 * i + j < cfg1.N),
      accAt (F := Ideal) V c (16 * i + j) h (ix2 p r)
        = runMin (fun m => sqd (V c main_arg1) (V c main_arg0) p (rowPt i hi r) m) (j + 1)
  | 0, hj, h => by
    have hrow : (16 * i + 0) / 16 = i := by omega
    have hcol : (16 * i + 0) % 16 = 0 := by omega
    rw [accAt_first V c ⟨16 * i + 0, h⟩ hcol]
    refine (seedTile_apply (V c main_arg1) (V c main_arg0) (blk V c 0 ⟨16 * i + 0, h⟩) (blk V c 1 ⟨16 * i + 0, h⟩) i ⟨0, by omega⟩ hi
      (fun p r d => blkA_apply V c ⟨16 * i + 0, h⟩ p r d (rowPt i hi r) (by show 1024 * i + r.val = 1024 * ((16 * i + 0) / 16) + r.val; rw [hrow]))
      (fun p k d => blkB_apply V c ⟨16 * i + 0, h⟩ p k d _ (by show 512 * 0 + k.val = 512 * ((16 * i + 0) % 16) + k.val; rw [hcol]))
      p r).trans ?_
    rw [runMin_succ _ 0 (by omega), runMin_zero]
  | j + 1, hj, h => by
    have hrow : (16 * i + (j + 1)) / 16 = i := by omega
    have hcol : (16 * i + (j + 1)) % 16 = j + 1 := by omega
    have hne : ¬ (16 * i + (j + 1)) % 16 = 0 := by omega
    have h' : 16 * i + j < cfg1.N := by omega
    rw [accAt_next V c ⟨16 * i + (j + 1), h⟩ hne]
    refine (foldTile_apply (V c main_arg1) (V c main_arg0) (blk V c 0 ⟨16 * i + (j + 1), h⟩) (blk V c 1 ⟨16 * i + (j + 1), h⟩) i ⟨j + 1, hj⟩ hi
      (fun p r d => blkA_apply V c ⟨16 * i + (j + 1), h⟩ p r d (rowPt i hi r) (by show 1024 * i + r.val = 1024 * ((16 * i + (j + 1)) / 16) + r.val; rw [hrow]))
      (fun p k d => blkB_apply V c ⟨16 * i + (j + 1), h⟩ p k d _ (by show 512 * (j + 1) + k.val = 512 * ((16 * i + (j + 1)) % 16) + k.val; rw [hcol]))
      _ p r).trans ?_
    rw [runMin_succ _ (j + 1) hj]
    refine congrArg (fun z => min z _) ?_
    refine (congrFun (accAt_congr V c _ (16 * i + j) _ h' (by show 16 * i + (j + 1) - 1 = 16 * i + j; omega)) (ix2 p r)).trans ?_
    exact acc_row c i hi p r j (by omega) h'

/-- The running minimum after the point at position `t`, at `(p, r)`: the running minimum of
    `m ↦ sqd x y p (1024·(t/16) + r) m` over its first `t % 16 + 1` tiles. -/
theorem acc_eq (c : Dev nD) (t : Fin cfg1.N) (p : Fin 4) (r : Fin 1024) :
    accAt (F := Ideal) V c t.val t.isLt (ix2 p r)
      = runMin (fun m => sqd (V c main_arg1) (V c main_arg0) p ⟨1024 * (t.val / 16) + r.val, by have := pos_lt t; omega⟩ m) (t.val % 16 + 1) := by
  have ht := pos_lt t
  have e : t.val = 16 * (t.val / 16) + t.val % 16 := (Nat.div_add_mod t.val 16).symm
  have h : 16 * (t.val / 16) + t.val % 16 < cfg1.N := by rw [← e]; exact t.isLt
  refine (congrFun (accAt_congr V c t.val _ t.isLt h e) (ix2 p r)).trans ?_
  exact acc_row V c (t.val / 16) (by omega) p r (t.val % 16) (Nat.mod_lt _ (by omega)) h

/-! ## The output array -/

/-- The output's block is written back at a row's last column, and only there. -/
theorem flush_iff : ∀ t : Fin cfg1.N, (cfg1.win 2).flush t = true ↔ t.val % 16 = 15 :=
  (by decide +kernel : ∀ t : Fin grid1.N, win1_2.flush t = true ↔ t.val % 16 = 15)

/-- Entry `(p, r)` of the output's block at `t` sits in the array at `(p, 1024·(t/16) + r)`. -/
theorem blkO_emb (t : Fin cfg1.N) (p : Fin 4) (r : Fin 1024) (n : Fin 8192) (hn : n.val = 1024 * (t.val / 16) + r.val) :
    ((cfg1.win 2).blk t).view.emb (ix2 p r) = (ix2 p n : SRow.Idx) := by
  obtain ⟨-, -, -, -, -, -, e0, e1⟩ := idx_facts t
  funext a
  apply Fin.ext
  match a with
  | ⟨0, _⟩ => show win1_2.index t (0 : Fin 2) * 4 + 1 * p.val = p.val; rw [e0]; omega
  | ⟨1, _⟩ => show win1_2.index t (1 : Fin 2) * 1024 + 1 * r.val = n.val; rw [e1, hn]; omega

/-- What a row's last column writes back is its block of `nearest x y`: the running minimum over all sixteen tiles is
    the infimum over all 8192 points of `y`. -/
theorem flushed_eq (c : Dev nD) (t : Fin cfg1.N) (hf : (cfg1.win 2).flush t = true) :
    (dat (F := Ideal) V c).flushed 2 t
      = ((cfg1.win 2).blk t).view.read (Elt Ideal) (nearest (V c main_arg1) (V c main_arg0)) := by
  have hcol : t.val % 16 = 15 := (flush_iff t).mp hf
  have ht := pos_lt t
  show (cfg1.win 2).cut (grid1.coords t) ((dat V c).after 2 t) = _
  rw [after_2]
  refine funext fun (j : S4x1024.Idx) => ?_
  obtain ⟨p, r, rfl⟩ : ∃ (p : Fin 4) (r : Fin 1024), j = ix2 p r := ⟨j 0, j 1, eq_ix2 j⟩
  rw [View.read_apply]
  show accAt (F := Ideal) V c t.val t.isLt (ix2 p r) = nearest (V c main_arg1) (V c main_arg0) (((cfg1.win 2).blk t).view.emb (ix2 p r))
  rw [blkO_emb t p r ⟨1024 * (t.val / 16) + r.val, by omega⟩ rfl, nearest_apply, acc_eq V c t p r, hcol]
  exact runMin_all _

/-- Every index `(p, n)` of the array lies in the block written back at the last column of row `n / 1024`. -/
theorem covered (c : Dev nD) (i : ((cfg1.win 2).arr.view.loc (c.tc : Thread nD τ)).2.ty.Idx) :
    ∃ t : Fin cfg1.N, (cfg1.win 2).flush t = true ∧ i ∈ ((cfg1.win 2).blk t).view.set := by
  have h0 : (i 0 : Nat) < 4 := (i 0).isLt
  have h1 : (i 1 : Nat) < 8192 := (i 1).isLt
  have hN : cfg1.N = 128 := (by decide : grid1.N = 128)
  have hlt : 16 * ((i 1 : Nat) / 1024) + 15 < cfg1.N := by rw [hN]; omega
  refine ⟨⟨16 * ((i 1 : Nat) / 1024) + 15, hlt⟩, (flush_iff _).mpr (by show (16 * ((i 1 : Nat) / 1024) + 15) % 16 = 15; omega), ?_⟩
  obtain ⟨-, -, -, -, -, -, e0, e1⟩ := idx_facts ⟨16 * ((i 1 : Nat) / 1024) + 15, hlt⟩
  have e1' : win1_2.index ⟨16 * ((i 1 : Nat) / 1024) + 15, hlt⟩ (1 : Fin 2) = (i 1 : Nat) / 1024 := by
    rw [e1]; show (16 * ((i 1 : Nat) / 1024) + 15) / 16 = (i 1 : Nat) / 1024; omega
  show i ∈ ((View.whole main_v1).slice (win1_2.rect ⟨16 * ((i 1 : Nat) / 1024) + 15, hlt⟩)).set
  rw [View.set_slice_whole, Rect.mem_set_unit]
  intro a
  match a with
  | ⟨0, _⟩ =>
    show win1_2.index ⟨16 * ((i 1 : Nat) / 1024) + 15, hlt⟩ (0 : Fin 2) * 4 ≤ (i 0 : Nat)
      ∧ (i 0 : Nat) < win1_2.index ⟨16 * ((i 1 : Nat) / 1024) + 15, hlt⟩ (0 : Fin 2) * 4 + 4
    rw [e0]; omega
  | ⟨1, _⟩ =>
    show win1_2.index ⟨16 * ((i 1 : Nat) / 1024) + 15, hlt⟩ (1 : Fin 2) * 1024 ≤ (i 1 : Nat)
      ∧ (i 1 : Nat) < win1_2.index ⟨16 * ((i 1 : Nat) / 1024) + 15, hlt⟩ (1 : Fin 2) * 1024 + 1024
    rw [e1']; omega

/-- The output array after the region: the eight written-back blocks tile it, each its block of `nearest x y`. -/
theorem out_eq (c : Dev nD) :
    (dat (F := Ideal) V c).arrAt 2 cfg1.N = Cert.Spec.nearest (V c main_arg1) (V c main_arg0) :=
  (dat (F := Ideal) V c).arrAt_eq_of_cover 2 (nearest (V c main_arg1) (V c main_arg0)) (flushed_eq V c) (covered c)

end Cert.KernelIdeal.Region1

end
-- ==== Proof.ValueRun.lean ====
/- The idealized kernel program's run with its result named: every weakly fair execution ends with `main_v6` at the
   specification's loss of the two argument clouds — the mean of each cloud's nearest squared distances to the other,
   added — and the arguments unchanged.

   The first region leaves in `main_v0` the nearest distances from the first cloud to the second, the second region in
   `main_v1` those from the second to the first (its operands are the arguments in the other order), and the host lines
   after them take the two means and add them. -/
import proofs.«130135_j23373212024987_1_alg».proof.Proof.Frames
import proofs.«130135_j23373212024987_1_alg».proof.Proof.HostRun
import proofs.«130135_j23373212024987_1_alg».proof.Proof.Value0
import proofs.«130135_j23373212024987_1_alg».proof.Proof.Value1
import proofs.«130135_j23373212024987_1_alg».proof.Proof.Spec

set_option maxRecDepth 16384

noncomputable section

namespace Cert.KernelIdeal.ValueRun

open Cert.KernelIdeal Cert.KernelIdeal.Gen Cert.KernelIdeal.Frames
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable (m : (ℓ : Loc nD τ sig) → Buf (Elt Ideal) ℓ)

/-- The second region finds the arguments as launched: the first region changed `main_v0` only. -/
theorem E1_arg0 (c : Dev nD) : E1 m c main_arg0 = m ((c : Thread nD τ).loc main_arg0) :=
  Function.update_of_ne (StableHlo.devRef_ne_of_ne (by decide) : (Proc.devRef .tc main_arg0 : DevRef τ sig) ≠ Proc.devRef .tc main_v0) _ _
theorem E1_arg1 (c : Dev nD) : E1 m c main_arg1 = m ((c : Thread nD τ).loc main_arg1) :=
  Function.update_of_ne (StableHlo.devRef_ne_of_ne (by decide) : (Proc.devRef .tc main_arg1 : DevRef τ sig) ≠ Proc.devRef .tc main_v0) _ _

/-- What the first region leaves: the nearest distances from the first cloud to the second. -/
theorem out0_eq (c : Dev nD) : out0 m c = Cert.Spec.nearest (m ((c : Thread nD τ).loc main_arg0)) (m ((c : Thread nD τ).loc main_arg1)) :=
  Region0.out_eq (E0 m) c
/-- What the second region leaves: those from the second cloud to the first. -/
theorem out1_eq (c : Dev nD) : out1 m c = Cert.Spec.nearest (m ((c : Thread nD τ).loc main_arg1)) (m ((c : Thread nD τ).loc main_arg0)) := by
  refine (Region1.out_eq (E1 m) c).trans ?_
  rw [E1_arg0, E1_arg1]

set_option backward.isDefEq.respectTransparency.types false in
theorem run (ρ : Dev nD → PrngReg) :
    θ_run defs (onTc (τ := τ) (main (F := Ideal))) ⟨m, fun _ => 0, ρ⟩ (fun r => ∀ c : Dev nD,
      r.2.mem ((c.tc : Thread nD τ).loc main_v6)
          = Cert.Spec.loss reducesTo_S4x8192_S_d0_1 h_S_
              (Cert.Spec.nearest (m ((c.tc : Thread nD τ).loc main_arg0)) (m ((c.tc : Thread nD τ).loc main_arg1)))
              (Cert.Spec.nearest (m ((c.tc : Thread nD τ).loc main_arg1)) (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono
    (fun r h c => ⟨(h c).1.trans (by rw [HostRun.V3_main_v6, outs_v0, outs_v1, out0_eq, out1_eq]), (h c).2⟩)
    (HostRun.run_cond m emb₁ () Variants.none L lv (fun _ _ => rfl) ρ (outs m) (pdats m) 0 (fun _ => iprop(emp))
      (initOf (Pipeline.cells cfgs cellOf_inj) (Pipeline.launchToks cfgs cellOf_inj)) launch_ghost
      (fun _ c => R c) (launch_rides ρ) (fun c => by iintro ⟨-, HO⟩; iexact HO)
      (reg0 m) (fun _ => .rfl) (fun c => by rw [V1_eq]; exact .rfl)
      (reg1 m) (fun c => by rw [V1_eq]; exact .rfl) (fun c => by rw [V2_eq]; exact .rfl))

end Cert.KernelIdeal.ValueRun

end
-- ==== Proof.RefValue.lean ====
/- The reference program's value is the specification.

   The reference forms, for two clouds x and y of 4 × 8192 points in three coordinates, the table
       d(b, n, m) = max ((|x_n|² + |y_m|²) − 2 · ⟨x_n, y_m⟩) 0,
   each squared norm zero plus the three squares, the inner product the three products added in order. Entry by entry
   that table is the specification's clamped squared distance (`v14_at`). Its minimum over m from +∞ is, for every point
   of x, the least distance to a point of y (`dist1_eq`); its minimum over n is, for every point of y, the least
   distance to a point of x, because the distance is symmetric in its two points (`dist2_eq`). A minimum folded from
   the top element over all coordinates of one axis is the infimum over that axis. The result adds the two means of
   these rows, which are the specification's own two means (`result_eq`), and every run of the reference ends with
   that value in its result and its arguments as launched (`run`). -/
import proofs.«130135_j23373212024987_1_alg».proof.Proof.Gen.ReferenceIdeal.Read
import proofs.«130135_j23373212024987_1_alg».proof.Proof.Spec

noncomputable section

namespace Cert.RefValue

open Cert.ReferenceIdeal Cert.ReferenceIdeal.Gen Cert.ReferenceIdeal.Read Idealize.ShloMosaic Idealize.ShloMosaic.ValueIdx
  Idealize.ShloMosaic.TcCoe Idealize.SL.Sem

/-- The squared norm of point n of the first cloud: zero plus the three squares. -/
private theorem v1_at (x0 : Cert.Spec.Pts) (b : Fin 4) (n : Fin 8192) :
    val_main_v1 (F := Ideal) x0 (ix2 b n) = Cert.Spec.sq x0 b n := by
  rw [val_main_v1_apply]
  show Ideal.ofBits .f32 0x00000000#32 + _ = _
  rw [Ideal.ofBits_zero_f32, zero_add]
  unfold Cert.Spec.sq
  refine Finset.sum_congr rfl fun k _ => ?_
  have e : idx_main_v1 (ix2 b n) k = ix3 b n k := funext fun a => by
    match a with | ⟨0, _⟩ => rfl | ⟨1, _⟩ => rfl | ⟨2, _⟩ => rfl
  rw [e]; rfl

/-- The same for the second cloud. -/
private theorem v3_at (x1 : Cert.Spec.Pts) (b : Fin 4) (m : Fin 8192) :
    val_main_v3 (F := Ideal) x1 (ix2 b m) = Cert.Spec.sq x1 b m := by
  rw [val_main_v3_apply]
  show Ideal.ofBits .f32 0x00000000#32 + _ = _
  rw [Ideal.ofBits_zero_f32, zero_add]
  unfold Cert.Spec.sq
  refine Finset.sum_congr rfl fun k _ => ?_
  have e : idx_main_v3 (ix2 b m) k = ix3 b m k := funext fun a => by
    match a with | ⟨0, _⟩ => rfl | ⟨1, _⟩ => rfl | ⟨2, _⟩ => rfl
  rw [e]; rfl

/-- The contraction over the three coordinates is the inner product, its terms added left to right. -/
private theorem v4_at (x0 x1 : Cert.Spec.Pts) (b : Fin 4) (n m : Fin 8192) :
    val_main_v4 (F := Ideal) x0 x1 (ix3 b n m) = Cert.Spec.dot x0 x1 b n m := by
  rw [val_main_v4_apply, Fin.sum_univ_three]
  have el : ∀ k : Fin 3, lidx_main_v4 (ix3 b n m) k = ix3 b n k := fun k => funext fun a => by
    match a with | ⟨0, _⟩ => rfl | ⟨1, _⟩ => rfl | ⟨2, _⟩ => rfl
  have er : ∀ k : Fin 3, ridx_main_v4 (ix3 b n m) k = ix3 b m k := fun k => funext fun a => by
    match a with | ⟨0, _⟩ => rfl | ⟨1, _⟩ => rfl | ⟨2, _⟩ => rfl
  rw [el 0, el 1, el 2, er 0, er 1, er 2]
  rfl

/-- The clamped squared distance, entry (b, n, m) of the reference's table of distances. -/
theorem v14_at (x0 x1 : Cert.Spec.Pts) (b : Fin 4) (n m : Fin 8192) :
    val_main_v14 (F := Ideal) x0 x1 (ix3 b n m) = Cert.Spec.sqd x0 x1 b n m := by
  have e7 : idx_main_v5 (idx_main_v7 (ix3 b n m)) = ix2 b n := funext fun a => by
    match a with | ⟨0, _⟩ => rfl | ⟨1, _⟩ => rfl
  have e8 : idx_main_v6 (idx_main_v8 (ix3 b n m)) = ix2 b m := funext fun a => by
    match a with | ⟨0, _⟩ => rfl | ⟨1, _⟩ => rfl
  rw [val_main_v14_apply, val_main_v12_apply, val_main_v9_apply, val_main_v11_apply, val_main_v7_apply, val_main_v5_apply,
    val_main_v8_apply, val_main_v6_apply, val_main_v10_apply, val_main_v13_apply, e7, e8, v1_at, v3_at, v4_at]
  rfl

/-! ## The two minima -/

/-- The shape facts from which the index with a coordinate put back on the reduced axis is defined. -/
private theorem red2 : S4x8192x8192.Reduces [2] S4x8192 := by decide
private theorem red1 : S4x8192x8192.Reduces [1] S4x8192 := by decide

/-- (b, n) with m put back on the last axis is (b, n, m). -/
private theorem lift2 (b : Fin 4) (n : Fin 8192) (k : Fin (S4x8192x8192.size 2)) :
    red2.lift (ix2 b n) k = ix3 b n (⟨k.val, k.isLt⟩ : Fin 8192) := by
  funext c; apply Fin.ext
  match c with | ⟨0, _⟩ => rfl | ⟨1, _⟩ => rfl | ⟨2, _⟩ => rfl

/-- (b, m) with n put back on the middle axis is (b, n, m). -/
private theorem lift1 (b : Fin 4) (m : Fin 8192) (k : Fin (S4x8192x8192.size 1)) :
    red1.lift (ix2 b m) k = ix3 b (⟨k.val, k.isLt⟩ : Fin 8192) m := by
  funext c; apply Fin.ext
  match c with | ⟨0, _⟩ => rfl | ⟨1, _⟩ => rfl | ⟨2, _⟩ => rfl

/-- The pattern of +∞ is the top of the extended reals. -/
private theorem inf_word : Ideal.ofBits .f32 0x7F800000#32 = (⊤ : EReal) := by simp [Ideal.ofBits, Ideal.ieee]

/-- Minima folded from the top element are the infimum. -/
private theorem fold_min_top {ι : Type} [DecidableEq ι] (s : Finset ι) (f : ι → EReal) :
    s.fold (FloatOps.minimumf (F := Ideal) (φ := .f32)) (⊤ : EReal) f = s.inf f := by
  induction s using Finset.induction_on with
  | empty => rfl
  | insert a s ha ih => rw [Finset.fold_insert ha, Finset.inf_insert, ih]; rfl

/-- The distance from x_n to y_m is the distance from y_m to x_n: the sum of the two squared norms and each of the
    three products commute. -/
private theorem sqd_comm (x y : Cert.Spec.Pts) (b : Fin 4) (n m : Fin 8192) :
    Cert.Spec.sqd x y b n m = Cert.Spec.sqd y x b m n := by
  unfold Cert.Spec.sqd Cert.Spec.dot
  rw [add_comm (Cert.Spec.sq x b n), mul_comm (x (ix3 b n 0)), mul_comm (x (ix3 b n 1)), mul_comm (x (ix3 b n 2))]

/-- The minimum over the second cloud's points: for each point of the first, its least distance to the second. -/
theorem dist1_eq (x0 x1 : (⟨S4x8192x3, .f32⟩ : BufTy).Contents (Elt Ideal)) :
    val_main_v15 (F := Ideal) x0 x1 = Cert.Spec.nearest x0 x1 := by
  funext j
  obtain ⟨b, n, rfl⟩ : ∃ (b : Fin 4) (n : Fin 8192), j = ix2 b n := ⟨j 0, j 1, eq_ix2 j⟩
  rw [Cert.Spec.nearest_apply]
  unfold val_main_v15
  refine (Host.reduce_eq_fold_single (FloatOps.minimumf (F := Ideal) (φ := .f32)) _ _
    reducesTo_S4x8192x8192_S4x8192_d2 red2 h_S_ (ix2 b n)).trans ?_
  rw [show val_main_cst_3 (F := Ideal) (Shape.Idx.first h_S_) = (⊤ : EReal) from inf_word, fold_min_top]
  refine Finset.inf_congr rfl fun k _ => ?_
  exact (congrArg (val_main_v14 (F := Ideal) x0 x1) (lift2 b n k)).trans (v14_at x0 x1 b n _)

/-- The minimum over the first cloud's points: for each point of the second, its least distance to the first. -/
theorem dist2_eq (x0 x1 : (⟨S4x8192x3, .f32⟩ : BufTy).Contents (Elt Ideal)) :
    val_main_v16 (F := Ideal) x0 x1 = Cert.Spec.nearest x1 x0 := by
  funext j
  obtain ⟨b, m, rfl⟩ : ∃ (b : Fin 4) (m : Fin 8192), j = ix2 b m := ⟨j 0, j 1, eq_ix2 j⟩
  rw [Cert.Spec.nearest_apply]
  unfold val_main_v16
  refine (Host.reduce_eq_fold_single (FloatOps.minimumf (F := Ideal) (φ := .f32)) _ _
    reducesTo_S4x8192x8192_S4x8192_d1 red1 h_S_ (ix2 b m)).trans ?_
  rw [show val_main_cst_4 (F := Ideal) (Shape.Idx.first h_S_) = (⊤ : EReal) from inf_word, fold_min_top]
  refine Finset.inf_congr rfl fun k _ => ?_
  exact ((congrArg (val_main_v14 (F := Ideal) x0 x1) (lift1 b m k)).trans (v14_at x0 x1 b _ m)).trans
    (sqd_comm x0 x1 b _ m)

/-! ## The result -/

/-- The program's result: the two rows of least distances, each summed from zero and divided by 32768, added. These
    are the specification's own two means, taken of the two rows. -/
theorem result_eq (x0 x1 : (⟨S4x8192x3, .f32⟩ : BufTy).Contents (Elt Ideal)) :
    val_main_v21 (F := Ideal) x0 x1
      = Cert.Spec.loss reducesTo_S4x8192_S_d0_1 h_S_ (Cert.Spec.nearest x0 x1) (Cert.Spec.nearest x1 x0) := by
  unfold val_main_v21 val_main_v18 val_main_v20 val_main_v17 val_main_v19
  rw [dist1_eq, dist2_eq]
  rfl

/-- Every weakly fair execution of the reference from zero counters terminates with its result at the specification's
    loss of the two argument clouds as launched, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21)
          = Cert.Spec.loss reducesTo_S4x8192_S_d0_1 h_S_
              (Cert.Spec.nearest (m ((c.tc : Thread nD τ).loc main_arg0)) (m ((c.tc : Thread nD τ).loc main_arg1)))
              (Cert.Spec.nearest (m ((c.tc : Thread nD τ).loc main_arg1)) (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono
    (fun _ h c => ⟨(h c).1.trans ((val_main_v21_eq _ _).trans (result_eq _ _)), (h c).2⟩)
    (Cert.ReferenceIdeal.Value.run (F := Ideal) m ρ)

end Cert.RefValue

end
-- ==== Proof.lean ====
/- The certificate: the chamfer loss kernel against its jnp reference.

   Both programs compute, for two clouds of 4 × 8192 points in three coordinates, the mean over the first cloud of each
   point's least clamped squared distance to the second cloud, plus the same with the clouds exchanged (Proof/Spec.lean).
   The kernel does it in two pallas_calls, each keeping a running minimum over tiles of 512 points in a scratch buffer
   along a row of its 8 × 16 grid; the reference takes the minima of the whole 8192 × 8192 table of distances along its
   two axes. The two agree by the associativity and commutativity of min, + and · on the extended reals alone (a minimum
   over 8192 is the minimum of sixteen minima over 512; the squared distance is symmetric in its two points), so the
   precondition is never opened.

   The frames of the two kernel programs are the run through their two regions and the host lines after them
   (Proof/Frames.lean, Proof/BitsFrames.lean); the reference's is its run with the result dropped; the idealization
   rewrote nothing; and the value claim pairs the kernel's run with its result named (Proof/ValueRun.lean) with the
   reference's (Proof/RefValue.lean) at the same function of the arguments. -/
import proofs.«130135_j23373212024987_1_alg».proof.Defs
import proofs.«130135_j23373212024987_1_alg».proof.Proof.Gen.Kernel
import proofs.«130135_j23373212024987_1_alg».proof.Proof.Gen.Kernel.Skeleton
import proofs.«130135_j23373212024987_1_alg».proof.Proof.Gen.Kernel.Launch
import proofs.«130135_j23373212024987_1_alg».proof.Proof.Gen.Kernel.Regions
import proofs.«130135_j23373212024987_1_alg».proof.Proof.Gen.Kernel.Points
import proofs.«130135_j23373212024987_1_alg».proof.Proof.Gen.KernelIdeal
import proofs.«130135_j23373212024987_1_alg».proof.Proof.Gen.KernelIdeal.Skeleton
import proofs.«130135_j23373212024987_1_alg».proof.Proof.Gen.KernelIdeal.Launch
import proofs.«130135_j23373212024987_1_alg».proof.Proof.Gen.KernelIdeal.Regions
import proofs.«130135_j23373212024987_1_alg».proof.Proof.Gen.KernelIdeal.Points
import proofs.«130135_j23373212024987_1_alg».proof.Proof.Gen.ReferenceIdeal
import proofs.«130135_j23373212024987_1_alg».proof.Proof.Gen.ReferenceIdeal.Run
import proofs.«130135_j23373212024987_1_alg».proof.Proof.Gen.ReferenceIdeal.Read
import proofs.«130135_j23373212024987_1_alg».proof.Proof.Gen.Pre_finite_inputs
import proofs.«130135_j23373212024987_1_alg».proof.Proof.BitsFrames
import proofs.«130135_j23373212024987_1_alg».proof.Proof.Frames
import proofs.«130135_j23373212024987_1_alg».proof.Proof.ValueRun
import proofs.«130135_j23373212024987_1_alg».proof.Proof.RefValue
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Frames.frame m ρ,
  fun m ρ _ => Cert.KernelIdeal.Frames.frame m ρ,
  fun m ρ _ => (θ_run Cert.ReferenceIdeal.defs _ _).mono (fun _ h c => (h c).2) (Cert.RefValue.run m ρ),
  trivial,
  fun m ρ m' ρ' _ hagree =>
    ⟨fun c => Cert.Spec.loss _ _
        (Cert.Spec.nearest (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
        (Cert.Spec.nearest (m ((c.tc : Thread Cert.KernelIdeal.nD Cert.KernelIdeal.τ).loc Cert.KernelIdeal.main_arg1)) (m ((c.tc : Thread Cert.KernelIdeal.nD Cert.KernelIdeal.τ).loc Cert.KernelIdeal.main_arg0))),
      Cert.KernelIdeal.ValueRun.run m ρ,
      (θ_run Cert.ReferenceIdeal.defs _ _).mono
        (fun _ h c => ⟨by rw [(h c).1, (hagree c).1, (hagree c).2], (h c).2⟩)
        (Cert.RefValue.run m' ρ')⟩⟩

end Cert.Proof

end
